-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x64 : Shape := ⟨2, ![512, 64]⟩
abbrev S64x33 : Shape := ⟨2, ![64, 33]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x64 : S_.BroadcastsInDim S512x64 (![] : Fin 0 → Fin S512x64.rank)
  reducesTo_S512x64_S_d0_1 : S512x64.ReducesTo [0, 1] S_
  bcast_S_S64x33 : S_.BroadcastsInDim S64x33 (![] : Fin 0 → Fin S64x33.rank)
  reducesTo_S64x33_S_d0_1 : S64x33.ReducesTo [0, 1] S_

variable [Facts]

def fn_part1 {F : FTy → Type} [FloatOps F] (main_v13 : IVec S_ 1) (main_v16 : IVec S64x33 1) : IVec S_ 1 :=
  let main_c_5 : IVec S_ 1 := constantI S_ 1 1#1
  let main_v17 : IVec S_ 1 := (fun x v => Host.reduce IntOp.andi x v reducesTo_S64x33_S_d0_1 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x64 .f32) (main_arg3 : FVec F S64x33 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64x33 .f32 := Host.absf main_arg3
  let main_cst_4 : FVec F S_ .f32 := constant S_ .f32 0x7F800000#32
  let main_v15 : FVec F S64x33 .f32 := broadcastInDim S64x33 ![] bcast_S_S64x33 main_cst_4
  let main_v16 : IVec S64x33 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x64 : Shape := ⟨2, ![512, 64]⟩
abbrev S64x33 : Shape := ⟨2, ![64, 33]⟩
abbrev S8192x64 : Shape := ⟨2, ![8192, 64]⟩
abbrev S1024x2048 : Shape := ⟨2, ![1024, 2048]⟩
abbrev S2048x512 : Shape := ⟨2, ![2048, 512]⟩
abbrev S1024x64 : Shape := ⟨2, ![1024, 64]⟩
abbrev S2048x64 : Shape := ⟨2, ![2048, 64]⟩
abbrev S8192x33 : Shape := ⟨2, ![8192, 33]⟩
abbrev S1024x33 : Shape := ⟨2, ![1024, 33]⟩
abbrev S2048x33 : Shape := ⟨2, ![2048, 33]⟩
abbrev S8192x32 : Shape := ⟨2, ![8192, 32]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S1024x32 : Shape := ⟨2, ![1024, 32]⟩
abbrev S512x32 : Shape := ⟨2, ![512, 32]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x64, .f32⟩
  | .hbm, ⟨3, _⟩ => ⟨S64x33, .f32⟩
  | .hbm, ⟨4, _⟩ => ⟨S8192x64, .f32⟩
  | .hbm, ⟨5, _⟩ => ⟨S8192x33, .f32⟩
  | .hbm, ⟨6, _⟩ => ⟨S8192x32, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S1x8192, .f32⟩
  | .hbm, ⟨13, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S512x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x2048, .f32⟩
  | .local _ .vmem, ⟨9, _⟩ => ⟨S1024x2048, .f32⟩
  | .local _ .vmem, ⟨10, _⟩ => ⟨S2048x64, .f32⟩
  | .local _ .vmem, ⟨11, _⟩ => ⟨S2048x64, .f32⟩
  | .local _ .vmem, ⟨12, _⟩ => ⟨S64x33, .f32⟩
  | .local _ .vmem, ⟨13, _⟩ => ⟨S1024x33, .f32⟩
  | .local _ .vmem, ⟨14, _⟩ => ⟨S1024x33, .f32⟩
  | .local _ .vmem, ⟨15, _⟩ => ⟨S1024x33, .f32⟩
  | .local _ .vmem, ⟨16, _⟩ => ⟨S1024x32, .f32⟩
  | .local _ .vmem, ⟨17, _⟩ => ⟨S1024x32, .f32⟩
  | .local _ .vmem, ⟨18, _⟩ => ⟨S512x32, .f32⟩
  | .local _ .vmem, ⟨19, _⟩ => ⟨S512x32, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x512, .f32⟩
  | .local _ .vmem, ⟨25, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x33 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x33 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1024x2048_S1024x2048_0_0 : ∀ a, (![0, 0] : Fin 2 → Nat) a + S1024x2048.size a ≤ S1024x2048.size a
  h_S1024x2048 : 0 < S1024x2048.numel
  inb_S1024x33_S1024x33_0_0 : ∀ a, (![0, 0] : Fin 2 → Nat) a + S1024x33.size a ≤ S1024x33.size a
  h_S1024x33 : 0 < S1024x33.numel
  shapeCasts_S1024x33_S1024x33 : S1024x33.ShapeCasts S1024x33
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x33_S64x33_0_0 : ∀ a, (![0, 0] : Fin 2 → Nat) a + S64x33.size a ≤ S64x33.size a
  h_S64x33 : 0 < S64x33.numel
  slices_S8192x33_S8192x32_0_0 : S8192x33.Slices ![0, 0] S8192x32
  slices_S8192x33_S8192x1_0_32 : S8192x33.Slices ![0, 32] S8192x1
  reducesTo_S8192x32_S8192_d1 : S8192x32.ReducesTo [1] S8192
  h_S_ : 0 < S_.numel
  shapeCasts_S8192_S1x8192 : S8192.ShapeCasts S1x8192
  transposes_S8192x1_S1x8192_1_0 : S8192x1.Transposes [1, 0] S1x8192
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  reduces_S1024x32_S1024 : S1024x32.Reduces [1] S1024
  shapeCasts_S1024_S1024x1 : S1024.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S2048x512_S512x64_S2048x64_1_0_0_1_n_n_wf : DotDims.WF S2048x512 S512x64 S2048x64 [1] [0] [0] [1] [] []
  dot_S1024x2048_S2048x64_S1024x64_1_0_0_1_n_n_wf : DotDims.WF S1024x2048 S2048x64 S1024x64 [1] [0] [0] [1] [] []
  dot_S2048x64_S64x33_S2048x33_1_0_0_1_n_n_wf : DotDims.WF S2048x64 S64x33 S2048x33 [1] [0] [0] [1] [] []
  dot_S1024x2048_S2048x33_S1024x33_1_0_0_1_n_n_wf : DotDims.WF S1024x2048 S2048x33 S1024x33 [1] [0] [0] [1] [] []
  dot_S1024x32_S512x32_S1024x512_1_1_0_0_n_n_wf : DotDims.WF S1024x32 S512x32 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x33.size a ≤ S64x33.size a
  hwx1_2 : ∀ i : grid1.Coords, EltTy.bits .f32 = 32 ∨ (Rect.block (s := S64x33) S64x33.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x33.size a ≤ S8192x33.size a
  hwx1_3 : ∀ i : grid1.Coords, EltTy.bits .f32 = 32 ∨ (Rect.block (s := S8192x33) S1024x33.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x32.size a ≤ S8192x32.size a
  hwx2_0 : ∀ i : grid2.Coords, EltTy.bits .f32 = 32 ∨ (Rect.block (s := S8192x32) S1024x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x32.size a ≤ S8192x32.size a
  hwx2_1 : ∀ i : grid2.Coords, EltTy.bits .f32 = 32 ∨ (Rect.block (s := S8192x32) S512x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x8192.size a
  hwx2_2 : ∀ i : grid2.Coords, EltTy.bits .f32 = 32 ∨ (Rect.block (s := S1x8192) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x8192.size a
  hwx2_3 : ∀ i : grid2.Coords, EltTy.bits .f32 = 32 ∨ (Rect.block (s := S1x8192) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S8192x8192.size a
  hwx2_4 : ∀ i : grid2.Coords, EltTy.bits .f32 = 32 ∨ (Rect.block (s := S8192x8192) S1024x512.size (cc2_transform_4 i) (hinb2_4 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S2048x64_S64x33_S2048x33_1_0_0_1_n_n : DotDims S2048x64 S64x33 S2048x33 where
  lhsContracting := [1]
  rhsContracting := [0]
  lhsNonContracting := [0]
  rhsNonContracting := [1]
  lhsBatch := []
  rhsBatch := []
  wf := dot_S2048x64_S64x33_S2048x33_1_0_0_1_n_n_wf
def dot_S1024x2048_S2048x33_S1024x33_1_0_0_1_n_n : DotDims S1024x2048 S2048x33 S1024x33 where
  lhsContracting := [1]
  rhsContracting := [0]
  lhsNonContracting := [0]
  rhsNonContracting := [1]
  lhsBatch := []
  rhsBatch := []
  wf := dot_S1024x2048_S2048x33_S1024x33_1_0_0_1_n_n_wf
def dot_S1024x32_S512x32_S1024x512_1_1_0_0_n_n : DotDims S1024x32 S512x32 S1024x512 where
  lhsContracting := [1]
  rhsContracting := [1]
  lhsNonContracting := [0]
  rhsNonContracting := [0]
  lhsBatch := []
  rhsBatch := []
  wf := dot_S1024x32_S512x32_S1024x512_1_1_0_0_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x33.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x33.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2) S1024x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x64 : Shape := ⟨2, ![512, 64]⟩
abbrev S64x33 : Shape := ⟨2, ![64, 33]⟩
abbrev S8192x64 : Shape := ⟨2, ![8192, 64]⟩
abbrev S_ : Shape := ⟨0, ![]⟩
abbrev S8192x33 : Shape := ⟨2, ![8192, 33]⟩
abbrev S8192x32 : Shape := ⟨2, ![8192, 32]⟩
abbrev S8192 : Shape := ⟨1, ![8192]⟩
abbrev S8192x1 : Shape := ⟨2, ![8192, 1]⟩
abbrev S32x8192 : Shape := ⟨2, ![32, 8192]⟩
abbrev S1x8192 : Shape := ⟨2, ![1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x64, .f32⟩
  | .hbm, ⟨3, _⟩ => ⟨S64x33, .f32⟩
  | .hbm, ⟨4, _⟩ => ⟨S8192x64, .f32⟩
  | .hbm, ⟨5, _⟩ => ⟨S8192x64, .f32⟩
  | .hbm, ⟨6, _⟩ => ⟨S_, .f32⟩
  | .hbm, ⟨7, _⟩ => ⟨S8192x64, .f32⟩
  | .hbm, ⟨8, _⟩ => ⟨S8192x64, .f32⟩
  | .hbm, ⟨9, _⟩ => ⟨S8192x33, .f32⟩
  | .hbm, ⟨10, _⟩ => ⟨S8192x33, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S32x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  slices_S8192x33_S8192x32_0_0 : S8192x33.Slices ![0, 0] S8192x32
  reducesTo_S8192x32_S8192_d1 : S8192x32.ReducesTo [1] S8192
  h_S_ : 0 < S_.numel
  bcast_S8192_S8192x1_0 : S8192.BroadcastsInDim S8192x1 (![0] : Fin 1 → Fin S8192x1.rank)
  transposes_S8192x32_S32x8192_1_0 : S8192x32.Transposes [1, 0] S32x8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  transposes_S8192x1_S1x8192_1_0 : S8192x1.Transposes [1, 0] S1x8192
  bcast_S1x8192_S8192x8192_0_1 : S1x8192.BroadcastsInDim S8192x8192 (![0, 1] : Fin 2 → Fin S8192x8192.rank)
  slices_S8192x33_S8192x1_0_32 : S8192x33.Slices ![0, 32] S8192x1
  dot_S8192x512_S512x64_S8192x64_1_0_0_1_n_n_wf : DotDims.WF S8192x512 S512x64 S8192x64 [1] [0] [0] [1] [] []
  dot_S8192x8192_S8192x64_S8192x64_1_0_0_1_n_n_wf : DotDims.WF S8192x8192 S8192x64 S8192x64 [1] [0] [0] [1] [] []
  dot_S8192x64_S64x33_S8192x33_1_0_0_1_n_n_wf : DotDims.WF S8192x64 S64x33 S8192x33 [1] [0] [0] [1] [] []
  dot_S8192x8192_S8192x33_S8192x33_1_0_0_1_n_n_wf : DotDims.WF S8192x8192 S8192x33 S8192x33 [1] [0] [0] [1] [] []
  dot_S8192x32_S32x8192_S8192x8192_1_0_0_1_n_n_wf : DotDims.WF S8192x32 S32x8192 S8192x8192 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x33_S8192x33_1_0_0_1_n_n : DotDims S8192x64 S64x33 S8192x33 where
  lhsContracting := [1]
  rhsContracting := [0]
  lhsNonContracting := [0]
  rhsNonContracting := [1]
  lhsBatch := []
  rhsBatch := []
  wf := dot_S8192x64_S64x33_S8192x33_1_0_0_1_n_n_wf
def dot_S8192x8192_S8192x33_S8192x33_1_0_0_1_n_n : DotDims S8192x8192 S8192x33 S8192x33 where
  lhsContracting := [1]
  rhsContracting := [0]
  lhsNonContracting := [0]
  rhsNonContracting := [1]
  lhsBatch := []
  rhsBatch := []
  wf := dot_S8192x8192_S8192x33_S8192x33_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.BitsDats.lean ====
/-
  The proof data of the three kernel regions, at any float instance and at any contents `V` of the
  TensorCore's buffers when a region is entered.

  Regions 0 and 1 are the two graph-convolution layers. Each runs over a grid of 8 row blocks by 4 column
  blocks of the adjacency matrix, the column block moving fastest: point `t` is row block `t / 4`, column
  block `t % 4`. A scratch accumulator is carried along the four column blocks of a row block: it is reset
  at column block 0, every point adds the product of its adjacency block with (its feature block times the
  weights), and at column block 3 the accumulator (after the rectifier, in region 0) is stored into the output
  block, which is written back there and only there. `accK n` is what the scratch holds after point `n`.

  Region 2 is the decoder: a pointwise body over a grid of 8 by 16 blocks of the output, every point storing
  its whole output block. Two of its input windows stand on one array, so each holds that array at half the
  full share.
-/
import proofs.«158966_j8074538516900_1_alg».proof.Proof.Gen.Kernel.Launch
import proofs.«158966_j8074538516900_1_alg».proof.Proof.Gen.Kernel.Skeleton
import proofs.«158966_j8074538516900_1_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Region 0, window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Region 1, window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- Region 2, window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The carried accumulators -/

/-- Region 0's scratch after the body at point `n`: the point's update of the zero block at a column block 0,
    of what the point before left otherwise. -/
def acc0 (c : Dev nD) : (n : ℕ) → n < cfg0.N → Vec F S1024x64 .f32
  | 0, hn => k0_pay2 (iblk0 V c 1 ⟨0, hn⟩) (iblk0 V c 2 ⟨0, hn⟩) (k0_pay1 (F := F)) (iblk0 V c 0 ⟨0, hn⟩)
  | n + 1, hn => k0_pay2 (iblk0 V c 1 ⟨n + 1, hn⟩) (iblk0 V c 2 ⟨n + 1, hn⟩)
      (if (n + 1) % 4 = 0 then k0_pay1 (F := F) else acc0 c n (Nat.lt_of_succ_lt hn)) (iblk0 V c 0 ⟨n + 1, hn⟩)

/-- Region 1's scratch after the body at point `n`. -/
def acc1 (c : Dev nD) : (n : ℕ) → n < cfg1.N → Vec F S1024x33 .f32
  | 0, hn => k1_pay2 (iblk1 V c 1 ⟨0, hn⟩) (iblk1 V c 2 ⟨0, hn⟩) (k1_pay1 (F := F)) (iblk1 V c 0 ⟨0, hn⟩)
  | n + 1, hn => k1_pay2 (iblk1 V c 1 ⟨n + 1, hn⟩) (iblk1 V c 2 ⟨n + 1, hn⟩)
      (if (n + 1) % 4 = 0 then k1_pay1 (F := F) else acc1 c n (Nat.lt_of_succ_lt hn)) (iblk1 V c 0 ⟨n + 1, hn⟩)

/-- What the scratch holds when point `t` loads it for the update: the zero block at a column block 0 (just
    stored), else what the point before left. -/
def accIn0 (c : Dev nD) (t : Fin cfg0.N) : Vec F S1024x64 .f32 :=
  if t.val % 4 = 0 then k0_pay1 (F := F) else acc0 V c (t.val - 1) (Nat.lt_of_le_of_lt (Nat.sub_le _ _) t.isLt)
def accIn1 (c : Dev nD) (t : Fin cfg1.N) : Vec F S1024x33 .f32 :=
  if t.val % 4 = 0 then k1_pay1 (F := F) else acc1 V c (t.val - 1) (Nat.lt_of_le_of_lt (Nat.sub_le _ _) t.isLt)

/-- The accumulator after point `t` is the point's update of what the point loaded. -/
theorem acc0_eq (c : Dev nD) (t : Fin cfg0.N) :
    acc0 V c t.val t.isLt = k0_pay2 (iblk0 V c 1 t) (iblk0 V c 2 t) (accIn0 V c t) (iblk0 V c 0 t) := by
  obtain ⟨n, hn⟩ := t
  cases n with
  | zero => unfold accIn0; rw [if_pos (Nat.zero_mod _)]; rfl
  | succ n => unfold accIn0; rfl
theorem acc1_eq (c : Dev nD) (t : Fin cfg1.N) :
    acc1 V c t.val t.isLt = k1_pay2 (iblk1 V c 1 t) (iblk1 V c 2 t) (accIn1 V c t) (iblk1 V c 0 t) := by
  obtain ⟨n, hn⟩ := t
  cases n with
  | zero => unfold accIn1; rw [if_pos (Nat.zero_mod _)]; rfl
  | succ n => unfold accIn1; rfl

/-! ## The scoped buffers beside the scratch -/

/-- The scratch operands as memrefs. -/
abbrev scM0 : Memref sig .tc .vmem S1024x64 .f32 := Memref.whole cc0_scratch0
abbrev scM1 : Memref sig .tc .vmem S1024x33 .f32 := Memref.whole cc1_scratch0

theorem scopedRest0_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) :=
  ⟨_, scopedRest0_eq c⟩
/-- Region 0's scoped buffers that are neither a staging buffer of its own nor its scratch, each at some contents. -/
def rest0 (c : Dev nD) : sProp 𝕄 := Classical.choose (scopedRest0_split (F := F) c)
theorem scopedRest0_rest (c : Dev nD) :
    (Pipeline.scopedRest (Ix := Unit) (Name := ℕ) (U := UR sig nD τ) (Lvl := ℕ) (Val := Elt F) spec0 c : sProp 𝕄)
      = iprop((∃ d, owns (c : Thread nD τ) (scM0) fullShare d) ∗ rest0 (F := F) c) := by
  rw [Classical.choose_spec (scopedRest0_split (F := F) c)]; simp only [scM0, owns_whole]; rfl

theorem scopedRest1_split (c : Dev nD) : ∃ R : sProp 𝕄,
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ R) := by
  unfold Pipeline.scopedRest
  exact ⟨_, bigSep_erase (i := cc1_scratch0) (by decide)⟩
/-- Region 1's scoped buffers that are neither a staging buffer of its own nor its scratch, each at some contents. -/
def rest1 (c : Dev nD) : sProp 𝕄 := Classical.choose (scopedRest1_split (F := F) c)
theorem scopedRest1_rest (c : Dev nD) :
    (Pipeline.scopedRest (Ix := Unit) (Name := ℕ) (U := UR sig nD τ) (Lvl := ℕ) (Val := Elt F) spec1 c : sProp 𝕄)
      = iprop((∃ d, owns (c : Thread nD τ) (scM1) fullShare d) ∗ rest1 (F := F) c) := by
  rw [Classical.choose_spec (scopedRest1_split (F := F) c)]; simp only [scM1, owns_whole]; rfl

/-! ## The region invariants -/

/-- Region 0's invariant before position `n`: the scratch at anything before the first point, at what the
    point before left afterwards; the other scoped buffers at some contents; the generator register at some state. -/
def Phi0 (c : Dev nD) : (n : ℕ) → n ≤ cfg0.N → sProp 𝕄
  | 0, _ => iprop((∃ d, owns (c : Thread nD τ) scM0 fullShare d) ∗ rest0 (F := F) c ∗ ∃ r, prngReg c r)
  | n + 1, hn => iprop(owns (c : Thread nD τ) scM0 fullShare (acc0 V c n hn) ∗ rest0 (F := F) c ∗ ∃ r, prngReg c r)
/-- Region 1's invariant before position `n`. -/
def Phi1 (c : Dev nD) : (n : ℕ) → n ≤ cfg1.N → sProp 𝕄
  | 0, _ => iprop((∃ d, owns (c : Thread nD τ) scM1 fullShare d) ∗ rest1 (F := F) c ∗ ∃ r, prngReg c r)
  | n + 1, hn => iprop(owns (c : Thread nD τ) scM1 fullShare (acc1 V c n hn) ∗ rest1 (F := F) c ∗ ∃ r, prngReg c r)

theorem Phi0_zero (c : Dev nD) (h : 0 ≤ cfg0.N) :
    Phi0 V c 0 h = iprop((∃ d, owns (c : Thread nD τ) scM0 fullShare d) ∗ rest0 (F := F) c ∗ ∃ r, prngReg c r) := rfl
theorem Phi0_succ (c : Dev nD) (n : ℕ) (hn : n < cfg0.N) :
    Phi0 V c (n + 1) hn = iprop(owns (c : Thread nD τ) scM0 fullShare (acc0 V c n hn) ∗ rest0 (F := F) c ∗ ∃ r, prngReg c r) := rfl
theorem Phi0_pos (c : Dev nD) (n : ℕ) (h : n ≤ cfg0.N) (hz : n ≠ 0) :
    Phi0 V c n h = iprop(owns (c : Thread nD τ) scM0 fullShare (acc0 V c (n - 1) (by omega)) ∗ rest0 (F := F) c ∗ ∃ r, prngReg c r) := by
  cases n with
  | zero => exact absurd rfl hz
  | succ n => rfl
theorem Phi1_zero (c : Dev nD) (h : 0 ≤ cfg1.N) :
    Phi1 V c 0 h = iprop((∃ d, owns (c : Thread nD τ) scM1 fullShare d) ∗ rest1 (F := F) c ∗ ∃ r, prngReg c r) := rfl
theorem Phi1_succ (c : Dev nD) (n : ℕ) (hn : n < cfg1.N) :
    Phi1 V c (n + 1) hn = iprop(owns (c : Thread nD τ) scM1 fullShare (acc1 V c n hn) ∗ rest1 (F := F) c ∗ ∃ r, prngReg c r) := rfl
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ ∃ r, prngReg c r) := by
  cases n with
  | zero => exact absurd rfl hz
  | succ n => rfl

/-! ## The proof data -/

/-- Region 0 on core `c`: the arrays as the region finds them; after the body each input's buffer at its block,
    the output's at the rectified accumulator (read only where the block is written back: column block 3). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

/-- Region 1 on core `c`: as region 0, the output's buffer at the accumulator itself. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := Phi1 V c t.val (Nat.le_of_lt_succ t.isLt)
  q _ := fullShare
  owed _ := 0

/-- Region 2 on core `c`: every input's buffer at its block, the output's at the body's one store over the
    four input blocks; the invariant the scoped rest and the generator register; the two windows on the latent
    array hold it at the two halves of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]

/-- The invariant at a point's start and end, restated at the point's number. -/
theorem Phi0_castSucc (c : Dev nD) (t : Fin cfg0.N) : (dat0 V c).Φ t.castSucc = Phi0 V c t.val (Nat.le_of_lt t.isLt) := by
  dsimp only [dat0]; simp only [Fin.coe_castSucc]
theorem Phi0_at_succ (c : Dev nD) (t : Fin cfg0.N) : (dat0 V c).Φ t.succ = Phi0 V c (t.val + 1) t.isLt := rfl
theorem Phi1_castSucc (c : Dev nD) (t : Fin cfg1.N) : (dat1 V c).Φ t.castSucc = Phi1 V c t.val (Nat.le_of_lt t.isLt) := by
  dsimp only [dat1]; simp only [Fin.coe_castSucc]
theorem Phi1_at_succ (c : Dev nD) (t : Fin cfg1.N) : (dat1 V c).Φ t.succ = Phi1 V c (t.val + 1) t.isLt := rfl

end Cert.Kernel.Hand

end
-- ==== Proof.BitsR0.lean ====
/-
  The body obligation of kernel region 0, the first graph-convolution layer, for the proof data `dat0`.

  The region runs over 8 row blocks by 4 column blocks of the adjacency matrix; point `t` is row block `t / 4`,
  column block `t % 4`. At every point the body adds (adjacency block) · ((feature block) · weights) to a scratch
  accumulator. On column block 0 it zeroes the scratch first; on column block 3 it then stores the rectified
  scratch into the output block. So there are three control cases, by `t % 4`: 0; 1 or 2; 3.

  Every load and store of the body is of a whole buffer, so a store read back is the stored value and the body's
  effect on each buffer is one closed term over what the buffers held: the scratch ends at `k0_pay2` of the three
  input blocks and what it held (the zero block `k0_pay1` on column block 0), the output buffer on column block 3
  at `k0_pay3` of that. The input buffers hold their blocks at every point; the output buffer is left as it was
  found off column block 3, where the pipeline does not write it back.
-/
import proofs.«158966_j8074538516900_1_alg».proof.Proof.BitsDats
import proofs.«158966_j8074538516900_1_alg».proof.Proof.Gen.Kernel.Launch
import proofs.«158966_j8074538516900_1_alg».proof.Proof.Gen.Kernel.Skeleton
import proofs.«158966_j8074538516900_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which column block a point is on -/

/-- The body's first conditional asks whether the column block is 0 (the scalar chain of the printed body). -/
abbrev atFirst0 (i : grid0.Coords) : Prop :=
  (Scalar.cmpi .ne (Scalar.extui (Scalar.cmpi .eq (BitVec.ofNat 32 (i 1).val) 0#32)) 0#32) = 1#1
/-- Its second asks whether the column block is 3. -/
abbrev atLast0 (i : grid0.Coords) : Prop := k0_cond2 i = 1#1

/-- Point `t` is on column block `t % 4`: the first condition holds exactly at the multiples of 4. -/
theorem atFirst0_iff : ∀ t : Fin cfg0.N, atFirst0 (grid0.coords t) ↔ t.val % 4 = 0 :=
  (by decide +kernel : ∀ t : Fin grid0.N, atFirst0 (grid0.coords t) ↔ t.val % 4 = 0)
/-- and the second exactly at the points that are 3 modulo 4. -/
theorem atLast0_iff : ∀ t : Fin cfg0.N, atLast0 (grid0.coords t) ↔ t.val % 4 = 3 :=
  (by decide +kernel : ∀ t : Fin grid0.N, atLast0 (grid0.coords t) ↔ t.val % 4 = 3)

/-- The output window is idle off column block 3, -/
theorem outIdle0 : ∀ t : Fin cfg0.N, ¬t.val % 4 = 3 → cfg0.idle 3 (grid0.coords t) = true :=
  (by decide +kernel : ∀ t : Fin grid0.N, ¬t.val % 4 = 3 → cfg0.idle 3 (grid0.coords t) = true)
/-- is not written back there, -/
theorem outKept0 : ∀ t : Fin cfg0.N, ¬t.val % 4 = 3 → (cfg0.win 3).flush t = false :=
  (by decide +kernel : ∀ t : Fin grid0.N, ¬t.val % 4 = 3 → (cfg0.win 3).flush t = false)
/-- and is live on column block 3. -/
theorem outLive0 : ∀ t : Fin cfg0.N, t.val % 4 = 3 → cfg0.idle 3 (grid0.coords t) = false :=
  (by decide +kernel : ∀ t : Fin grid0.N, t.val % 4 = 3 → cfg0.idle 3 (grid0.coords t) = false)

/-- The whole-block rectangle starts at the origin. -/
theorem origin2 : (![0, 0] : Fin 2 → ℕ) = fun _ => 0 := by
  funext a; fin_cases a <;> rfl

/-! ## The body on any whole buffers, by column block

The body reads the adjacency block `xa`, the feature block `xx` and the weights `xw`, adds
`xa · (xx · xw)` to the scratch (`k0_pay2`), and stores the sum back into the scratch. On column block 0 it
first zeroes the scratch (`k0_pay1`); on column block 3 it then stores the rectified scratch (`k0_pay3`)
into the output buffer. Every load and store is of a whole buffer, so a store read back is its payload. -/

set_option maxHeartbeats 1000000 in
/-- Column block 0: whatever the scratch held, it ends at the update of the zero block; the output buffer is
    not touched. -/
theorem runFirst0 (c : Dev nD) (E : Set ℕ) (i : grid0.Coords)
    (arg2 : Memref sig .tc .vmem S1024x2048 .f32) (harg2 : arg2.IsWhole)
    (arg3 : Memref sig .tc .vmem S2048x512 .f32) (harg3 : arg3.IsWhole)
    (arg4 : Memref sig .tc .vmem S512x64 .f32) (harg4 : arg4.IsWhole)
    (arg5 : Memref sig .tc .vmem S1024x64 .f32) (harg5 : arg5.IsWhole)
    (arg6 : Memref sig .tc .vmem S1024x64 .f32) (harg6 : arg6.IsWhole)
    (hc0 : atFirst0 i) (hc1 : ¬atLast0 i)
    (xa : Vec F S1024x2048 .f32) (xx : Vec F S2048x512 .f32) (xw : Vec F S512x64 .f32)
    (K : PUnit → sProp 𝕄) :
    iprop(owns (c : Thread nD τ) arg2 fullShare xa ∗ owns (c : Thread nD τ) arg3 fullShare xx
        ∗ owns (c : Thread nD τ) arg4 fullShare xw ∗ (∃ d, owns (c : Thread nD τ) arg6 fullShare d)
        ∗ (iprop(owns (c : Thread nD τ) arg2 fullShare xa ∗ owns (c : Thread nD τ) arg3 fullShare xx
            ∗ owns (c : Thread nD τ) arg4 fullShare xw
            ∗ owns (c : Thread nD τ) arg6 fullShare (k0_pay2 xx xw (k0_pay1 (F := F)) xa)) -∗ K ⟨⟩))
      ⊢ wp frame (wpE (defs₀ (F := F)) Variants.none c none) E (cc0__lambda_ i arg2 harg2 arg3 harg3 arg4 harg4 arg5 harg5 arg6 harg6) K := by
  simp only [cc0__lambda__eq_skeleton]; unfold cc0__lambda__skel
  unfold owns
  iintro ⟨⟨%f2, %hf2, H2⟩, ⟨%f3, %hf3, H3⟩, ⟨%f4, %hf4, H4⟩, ⟨%d6, %f6, -, H6⟩, Hk⟩
  subst hf2 hf3 hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (fun y => ⟨_, List.mem_cons.mpr (Or.inl rfl), View.mem_set_unit_zero origin2 inb_S1024x64_S1024x64_0_0 y⟩)]
  rw [View.canon_cons_unit_zero origin2]
  simp only [View.readAt_eq_ld, View.ld_unit_zero (S := S1024x2048) origin2, View.ld_unit_zero (S := S2048x512) origin2,
    View.ld_unit_zero (S := S512x64) origin2, View.ld_unit_zero (S := S1024x64) origin2, View.readCov_unit_zero (S := S1024x64) _ origin2]

set_option maxHeartbeats 1000000 in
/-- Column blocks 1 and 2: the scratch at `s` ends at the update of `s`; the output buffer is not touched. -/
theorem runMiddle0 (c : Dev nD) (E : Set ℕ) (i : grid0.Coords)
    (arg2 : Memref sig .tc .vmem S1024x2048 .f32) (harg2 : arg2.IsWhole)
    (arg3 : Memref sig .tc .vmem S2048x512 .f32) (harg3 : arg3.IsWhole)
    (arg4 : Memref sig .tc .vmem S512x64 .f32) (harg4 : arg4.IsWhole)
    (arg5 : Memref sig .tc .vmem S1024x64 .f32) (harg5 : arg5.IsWhole)
    (arg6 : Memref sig .tc .vmem S1024x64 .f32) (harg6 : arg6.IsWhole)
    (hc0 : ¬atFirst0 i) (hc1 : ¬atLast0 i)
    (xa : Vec F S1024x2048 .f32) (xx : Vec F S2048x512 .f32) (xw : Vec F S512x64 .f32) (s : Vec F S1024x64 .f32)
    (K : PUnit → sProp 𝕄) :
    iprop(owns (c : Thread nD τ) arg2 fullShare xa ∗ owns (c : Thread nD τ) arg3 fullShare xx
        ∗ owns (c : Thread nD τ) arg4 fullShare xw ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg6 fullShare (k0_pay2 xx xw s xa)) -∗ K ⟨⟩))
      ⊢ wp frame (wpE (defs₀ (F := F)) Variants.none c none) E (cc0__lambda_ i arg2 harg2 arg3 harg3 arg4 harg4 arg5 harg5 arg6 harg6) K := by
  simp only [cc0__lambda__eq_skeleton]; unfold cc0__lambda__skel
  unfold owns
  iintro ⟨⟨%f2, %hf2, H2⟩, ⟨%f3, %hf3, H3⟩, ⟨%f4, %hf4, H4⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (fun y => ⟨_, List.mem_cons.mpr (Or.inl rfl), View.mem_set_unit_zero origin2 inb_S1024x64_S1024x64_0_0 y⟩)]
  rw [View.canon_unit_zero origin2]
  simp only [View.readAt_eq_ld, View.ld_unit_zero (S := S1024x2048) origin2, View.ld_unit_zero (S := S2048x512) origin2,
    View.ld_unit_zero (S := S512x64) origin2, View.ld_unit_zero (S := S1024x64) origin2]

set_option maxHeartbeats 1000000 in
/-- Column block 3: the scratch at `s` ends at the update of `s`, and the output buffer, whatever it held, at
    the rectified update. -/
theorem runLast0 (c : Dev nD) (E : Set ℕ) (i : grid0.Coords)
    (arg2 : Memref sig .tc .vmem S1024x2048 .f32) (harg2 : arg2.IsWhole)
    (arg3 : Memref sig .tc .vmem S2048x512 .f32) (harg3 : arg3.IsWhole)
    (arg4 : Memref sig .tc .vmem S512x64 .f32) (harg4 : arg4.IsWhole)
    (arg5 : Memref sig .tc .vmem S1024x64 .f32) (harg5 : arg5.IsWhole)
    (arg6 : Memref sig .tc .vmem S1024x64 .f32) (harg6 : arg6.IsWhole)
    (hc0 : ¬atFirst0 i) (hc1 : atLast0 i)
    (xa : Vec F S1024x2048 .f32) (xx : Vec F S2048x512 .f32) (xw : Vec F S512x64 .f32) (s : Vec F S1024x64 .f32)
    (K : PUnit → sProp 𝕄) :
    iprop(owns (c : Thread nD τ) arg2 fullShare xa ∗ owns (c : Thread nD τ) arg3 fullShare xx
        ∗ owns (c : Thread nD τ) arg4 fullShare xw ∗ (∃ d, owns (c : Thread nD τ) arg5 fullShare d)
        ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg5 fullShare (k0_pay3 (k0_pay2 xx xw s xa))
            ∗ owns (c : Thread nD τ) arg6 fullShare (k0_pay2 xx xw s xa)) -∗ K ⟨⟩))
      ⊢ wp frame (wpE (defs₀ (F := F)) Variants.none c none) E (cc0__lambda_ i arg2 harg2 arg3 harg3 arg4 harg4 arg5 harg5 arg6 harg6) K := by
  simp only [cc0__lambda__eq_skeleton]; unfold cc0__lambda__skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons.mpr (Or.inl rfl), View.mem_set_unit_zero origin2 inb_S1024x64_S1024x64_0_0 y⟩)]
    rw [View.canon_unit_zero origin2]
    simp only [View.readAt_eq_ld, View.ld_unit_zero (S := S1024x2048) origin2, View.ld_unit_zero (S := S2048x512) origin2,
    View.ld_unit_zero (S := S512x64) origin2, View.ld_unit_zero (S := S1024x64) origin2, View.readCov_unit_zero (S := S1024x64) _ origin2]
  iexists _; isplitr
  swap; · iexact H6
  ipureintro
  sl_unfold_words
  rw [View.read_writes_eq_canon _ _ _ (fun y => ⟨_, List.mem_cons.mpr (Or.inl rfl), View.mem_set_unit_zero origin2 inb_S1024x64_S1024x64_0_0 y⟩)]
  rw [View.canon_unit_zero origin2]
  simp only [View.readAt_eq_ld, View.ld_unit_zero (S := S1024x2048) origin2, View.ld_unit_zero (S := S2048x512) origin2,
    View.ld_unit_zero (S := S512x64) origin2, View.ld_unit_zero (S := S1024x64) origin2]

/-! ## What the body finds in the inputs' buffers -/

/-- An input's buffer holds its block at every point, fetched there or not: where the pipeline does not fetch,
    the block index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- The weights are fetched once and never move. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The buffers the body is called with at a point -/

abbrev stgA0 (t : Fin cfg0.N) : Memref sig .tc .vmem S1024x2048 .f32 := win0_0.stage (cfg0.slots t 0)
abbrev stgX0 (t : Fin cfg0.N) : Memref sig .tc .vmem S2048x512 .f32 := win0_1.stage (cfg0.slots t 1)
abbrev stgW0 (t : Fin cfg0.N) : Memref sig .tc .vmem S512x64 .f32 := win0_2.stage (cfg0.slots t 2)
abbrev stgO0 (t : Fin cfg0.N) : Memref sig .tc .vmem S1024x64 .f32 := win0_3.stage (cfg0.slots t 3)

/-- An input's buffer is handed back at its block. -/
theorem leaves0_0 (c : Dev nD) (t : Fin cfg0.N) :
    (dat0 V c).leavesExact 0 t = owns (c : Thread nD τ) (stgA0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (stgX0 t) fullShare (iblk0 V c 1 t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (stgW0 t) fullShare (iblk0 V c 2 t) := by
  unfold Dat.leavesExact; rw [show cfg0.idle 2 (cfg0.grid.coords t) = false from rfl, after0_2]
/-- On column block 3 the output's buffer is handed back at the rectified accumulator. -/
theorem leaves0_3 (c : Dev nD) (t : Fin cfg0.N) (h3 : t.val % 4 = 3) :
    (dat0 V c).leavesExact 3 t = owns (c : Thread nD τ) (stgO0 t) fullShare (k0_pay3 (acc0 V c t.val t.isLt)) := by
  unfold Dat.leavesExact; rw [outLive0 t h3, after0_3]

/-- The invariant before any position yields the scratch at some contents. -/
theorem Phi0_forget (c : Dev nD) (n : ℕ) (h : n ≤ cfg0.N) :
    Phi0 V c n h ⊢ iprop((∃ d, owns (c : Thread nD τ) scM0 fullShare d) ∗ rest0 (F := F) c ∗ ∃ r, prngReg c r) := by
  cases n with
  | zero => exact Entails.refl _
  | succ n =>
    rw [Phi0_succ]
    iintro ⟨HS, Hr⟩
    isplitl [HS]; · iexists _; iexact HS
    iexact Hr

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (stgA0 t) fullShare ((dat0 V c).before 0 t d))
    ∗ (∃ d, owns (c : Thread nD τ) (stgX0 t) fullShare ((dat0 V c).before 1 t d))
    ∗ (∃ d, owns (c : Thread nD τ) (stgW0 t) fullShare ((dat0 V c).before 2 t d))
    ∗ (∃ d, owns (c : Thread nD τ) (stgO0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks. On column block 0 the scratch, whatever the
    invariant held it at, ends at the update of the zero block; on the others the invariant holds it at what the
    point before left and it ends at the update of that; either way at this point's accumulator. The output's buffer
    is handed back untouched off column block 3 and at the rectified accumulator on it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    Phi0_at_succ, Phi0_succ, Phi0_castSucc, leaves0_0, leaves0_1, leaves0_2]
  have hN : t.val < 32 := lt_of_lt_of_eq t.isLt (show cfg0.N = 32 from N_0)
  by_cases h0 : t.val % 4 = 0
  · have h3 : ¬t.val % 4 = 3 := by omega
    have hin : accIn0 V c t = k0_pay1 (F := F) := by unfold accIn0; exact if_pos h0
    rw [Dat.leavesExact_idle (dat0 V c) 3 t (outIdle0 t h3) (outKept0 t h3), acc0_eq V c t, hin]
    refine (sep_mono_left (Phi0_forget V c _ _)).trans ?_
    iintro ⟨⟨⟨%ds, HS⟩, Hr, Hg⟩, Ho, ⟨%d0, H0⟩, ⟨%d1, H1⟩, ⟨%d2, H2⟩, H3⟩
    iapply (runFirst0 c Set.univ (grid0.coords t) (stgA0 t) _ (stgX0 t) _ (stgW0 t) _ (stgO0 t) _ scM0 _
      ((atFirst0_iff t).mpr h0) (fun h => h3 ((atLast0_iff t).mp h)) (iblk0 V c 0 t) (iblk0 V c 1 t) (iblk0 V c 2 t) _)
    isplitl [H0]; · iexact H0
    isplitl [H1]; · iexact H1
    isplitl [H2]; · iexact H2
    isplitl [HS]; · iexists _; iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · have hz : t.val ≠ 0 := fun e => h0 (by rw [e])
    have hin : accIn0 V c t = acc0 V c (t.val - 1) (Nat.lt_of_le_of_lt (Nat.sub_le _ _) t.isLt) := by
      unfold accIn0; exact if_neg h0
    by_cases h3 : t.val % 4 = 3
    · rw [leaves0_3 V c t h3, acc0_eq V c t, hin, Phi0_pos V c _ _ hz]
      iintro ⟨⟨HS, Hr, Hg⟩, Ho, ⟨%d0, H0⟩, ⟨%d1, H1⟩, ⟨%d2, H2⟩, ⟨%d3, H3⟩⟩
      iapply (runLast0 c Set.univ (grid0.coords t) (stgA0 t) _ (stgX0 t) _ (stgW0 t) _ (stgO0 t) _ scM0 _
        (fun h => h0 ((atFirst0_iff t).mp h)) ((atLast0_iff t).mpr h3) (iblk0 V c 0 t) (iblk0 V c 1 t) (iblk0 V c 2 t)
        (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat0 V c) 3 t (outIdle0 t h3) (outKept0 t h3), acc0_eq V c t, hin, Phi0_pos V c _ _ hz]
      iintro ⟨⟨HS, Hr, Hg⟩, Ho, ⟨%d0, H0⟩, ⟨%d1, H1⟩, ⟨%d2, H2⟩, H3⟩
      iapply (runMiddle0 c Set.univ (grid0.coords t) (stgA0 t) _ (stgX0 t) _ (stgW0 t) _ (stgO0 t) _ scM0 _
        (fun h => h0 ((atFirst0_iff t).mp h)) (fun h => h3 ((atLast0_iff t).mp h)) (iblk0 V c 0 t) (iblk0 V c 1 t) (iblk0 V c 2 t)
        (acc0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point: the scratch among the scoped
    buffers at some contents. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [scopedRest0_rest (F := F) c, show (dat0 V c).Φ 0 = Phi0 V c 0 (Nat.zero_le _) from rfl, Phi0_zero]
  iintro ⟨Hg, HS, Hr⟩
  isplitl [HS]; · iexact HS
  isplitl [Hr]; · iexact Hr
  iexact Hg

/-- After the last point the invariant gives the same back: what the scratch holds is forgotten. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [scopedRest0_rest (F := F) c,
    show (dat0 V c).Φ (Fin.last cfg0.N) = Phi0 V c (Fin.last cfg0.N).val (Nat.le_of_lt_succ (Fin.last cfg0.N).isLt) from rfl]
  refine (Phi0_forget V c _ _).trans ?_
  iintro ⟨HS, Hr, Hg⟩
  isplitl [Hg]; · iexact Hg
  isplitl [HS]; · iexact HS
  iexact Hr

end Cert.Kernel.Hand

end
-- ==== Proof.BitsR1.lean ====
/-
  The body obligation of kernel region 1, the second graph-convolution layer, at any float instance and at any
  contents `V` of the TensorCore's buffers when the region is entered.

  The grid is 8 row blocks by 4 column blocks of the adjacency matrix, the column block moving fastest: point `t`
  is row block `t / 4`, column block `t % 4`. The body has two conditionals on the column block. At column block 0
  it first resets the scratch accumulator to the zero block. At every point it loads the feature block, the
  weights, the accumulator and the adjacency block, and stores into the scratch the accumulator plus the product
  of the adjacency block with (the feature block times the weights). At column block 3 it then copies the scratch
  into the output block. So there are three cases: column block 0 (reset, no output), column blocks 1 and 2
  (neither), column block 3 (output). Each is proved once over arbitrary whole memrefs and arbitrary contents,
  and the obligation at a point applies the case its column block selects: the inputs' buffers hold their blocks
  whether or not they were fetched there, the invariant carries the accumulator from one point to the next, and
  the output window is idle, and handed back as found, off column block 3.
-/
import proofs.«158966_j8074538516900_1_alg».proof.Proof.BitsDats
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, over the grid -/

/-- The body's first condition: the column block is 0 (the scratch is reset). -/
abbrev condFirst1 (i : grid1.Coords) : Prop :=
  (Scalar.cmpi .ne (Scalar.extui (Scalar.cmpi .eq (BitVec.ofNat 32 (i 1).val) 0#32)) 0#32) = 1#1
/-- The body's second condition: the column block is 3 (the accumulator is stored into the output block). -/
abbrev condLast1 (i : grid1.Coords) : Prop := k1_cond2 i = 1#1

/-- The first condition holds exactly at the points of column block 0. -/
theorem hcondFirst1 : ∀ t : Fin cfg1.N, condFirst1 (grid1.coords t) ↔ t.val % 4 = 0 :=
  (by decide +kernel : ∀ t : Fin grid1.N, condFirst1 (grid1.coords t) ↔ t.val % 4 = 0)
/-- The second condition holds exactly at the points of column block 3. -/
theorem hcondLast1 : ∀ t : Fin cfg1.N, condLast1 (grid1.coords t) ↔ t.val % 4 = 3 :=
  (by decide +kernel : ∀ t : Fin grid1.N, condLast1 (grid1.coords t) ↔ t.val % 4 = 3)

/-- The output window is idle off column block 3, -/
theorem idleAt1_3 : ∀ t : Fin cfg1.N, ¬t.val % 4 = 3 → cfg1.idle 3 (grid1.coords t) = true :=
  (by decide +kernel : ∀ t : Fin grid1.N, ¬t.val % 4 = 3 → cfg1.idle 3 (grid1.coords t) = true)
/-- live at it, -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)
/-- and not written back off it. -/
theorem noFlush1_3 (t : Fin cfg1.N) (h : ¬t.val % 4 = 3) : (cfg1.win 3).flush t = false :=
  Bool.eq_false_iff.mpr fun hf => h ((flush1_3 t).mp hf)

/-! ## The body on any whole memrefs, case by case -/

/-- The whole-block rectangle's offsets are zero. -/
theorem hzero1 : (![0, 0] : Fin 2 → Nat) = fun _ => 0 := funext fun a => by fin_cases a <;> rfl

/-- A list of stores into a 1024 x 33 buffer whose last store is of the whole block covers the buffer. -/
theorem cover_whole1 (p : Vec F S1024x33 .f32) (L : List (View.Piece (Elt F) S1024x33 .f32)) (y : S1024x33.Idx) :
    ∃ pc ∈ ((⟨Rect.unit (s := S1024x33) ![0, 0] S1024x33.size inb_S1024x33_S1024x33_0_0, p⟩ :: L :
      List (View.Piece (Elt F) S1024x33 .f32))), y ∈ pc.1.set :=
  ⟨_, List.mem_cons_self, View.mem_set_unit_zero hzero1 inb_S1024x33_S1024x33_0_0 y⟩

set_option maxHeartbeats 1000000 in
/-- Column block 0: the scratch, whatever it held, is reset to the zero block and then holds the point's update
    of the zero block; the inputs are left as they were and the output buffer is not touched. -/
theorem run_first1 (c : Dev nD) (E : Set ℕ) (i : grid1.Coords)
    (arg2 : Memref sig .tc .vmem S1024x2048 .f32) (harg2 : arg2.IsWhole)
    (arg3 : Memref sig .tc .vmem S2048x64 .f32) (harg3 : arg3.IsWhole)
    (arg4 : Memref sig .tc .vmem S64x33 .f32) (harg4 : arg4.IsWhole)
    (arg5 : Memref sig .tc .vmem S1024x33 .f32) (harg5 : arg5.IsWhole)
    (arg6 : Memref sig .tc .vmem S1024x33 .f32) (harg6 : arg6.IsWhole)
    (hc0 : condFirst1 i) (hc1 : ¬condLast1 i)
    (xa : Vec F S1024x2048 .f32) (xx : Vec F S2048x64 .f32) (xw : Vec F S64x33 .f32) (s : Vec F S1024x33 .f32)
    (K : PUnit → sProp 𝕄) :
    iprop(owns (c : Thread nD τ) arg2 fullShare xa ∗ owns (c : Thread nD τ) arg3 fullShare xx
        ∗ owns (c : Thread nD τ) arg4 fullShare xw ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg6 fullShare (k1_pay2 xx xw (k1_pay1 (F := F)) xa)) -∗ K ⟨⟩))
      ⊢ wp frame (wpE (defs₀ (F := F)) Variants.none c none) E
          (cc1__lambda_ i arg2 harg2 arg3 harg3 arg4 harg4 arg5 harg5 arg6 harg6) K := by
  simp only [cc1__lambda__eq_skeleton]; unfold cc1__lambda__skel
  unfold owns
  iintro ⟨⟨%f2, %hf2, H2⟩, ⟨%f3, %hf3, H3⟩, ⟨%f4, %hf4, H4⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (cover_whole1 _ _), View.canon_cons_unit_zero hzero1]
  sl_unfold_words
  rw [View.readCov_unit_zero _ hzero1]
  simp only [View.readAt_eq_ld, View.ld_unit_zero (S := S1024x33) hzero1, View.ld_unit_zero (S := S2048x64) hzero1,
    View.ld_unit_zero (S := S64x33) hzero1, View.ld_unit_zero (S := S1024x2048) hzero1]

set_option maxHeartbeats 1000000 in
/-- Column blocks 1 and 2: the scratch holds the point's update of what it held; nothing else changes. -/
theorem run_middle1 (c : Dev nD) (E : Set ℕ) (i : grid1.Coords)
    (arg2 : Memref sig .tc .vmem S1024x2048 .f32) (harg2 : arg2.IsWhole)
    (arg3 : Memref sig .tc .vmem S2048x64 .f32) (harg3 : arg3.IsWhole)
    (arg4 : Memref sig .tc .vmem S64x33 .f32) (harg4 : arg4.IsWhole)
    (arg5 : Memref sig .tc .vmem S1024x33 .f32) (harg5 : arg5.IsWhole)
    (arg6 : Memref sig .tc .vmem S1024x33 .f32) (harg6 : arg6.IsWhole)
    (hc0 : ¬condFirst1 i) (hc1 : ¬condLast1 i)
    (xa : Vec F S1024x2048 .f32) (xx : Vec F S2048x64 .f32) (xw : Vec F S64x33 .f32) (s : Vec F S1024x33 .f32)
    (K : PUnit → sProp 𝕄) :
    iprop(owns (c : Thread nD τ) arg2 fullShare xa ∗ owns (c : Thread nD τ) arg3 fullShare xx
        ∗ owns (c : Thread nD τ) arg4 fullShare xw ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg6 fullShare (k1_pay2 xx xw s xa)) -∗ K ⟨⟩))
      ⊢ wp frame (wpE (defs₀ (F := F)) Variants.none c none) E
          (cc1__lambda_ i arg2 harg2 arg3 harg3 arg4 harg4 arg5 harg5 arg6 harg6) K := by
  simp only [cc1__lambda__eq_skeleton]; unfold cc1__lambda__skel
  unfold owns
  iintro ⟨⟨%f2, %hf2, H2⟩, ⟨%f3, %hf3, H3⟩, ⟨%f4, %hf4, H4⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (cover_whole1 _ _), View.canon_unit_zero hzero1]
  simp only [View.readAt_eq_ld, View.ld_unit_zero (S := S1024x33) hzero1, View.ld_unit_zero (S := S2048x64) hzero1,
    View.ld_unit_zero (S := S64x33) hzero1, View.ld_unit_zero (S := S1024x2048) hzero1]

set_option maxHeartbeats 1000000 in
/-- Column block 3: the scratch holds the point's update of what it held, and the output buffer, whatever it
    held, holds the same block. -/
theorem run_last1 (c : Dev nD) (E : Set ℕ) (i : grid1.Coords)
    (arg2 : Memref sig .tc .vmem S1024x2048 .f32) (harg2 : arg2.IsWhole)
    (arg3 : Memref sig .tc .vmem S2048x64 .f32) (harg3 : arg3.IsWhole)
    (arg4 : Memref sig .tc .vmem S64x33 .f32) (harg4 : arg4.IsWhole)
    (arg5 : Memref sig .tc .vmem S1024x33 .f32) (harg5 : arg5.IsWhole)
    (arg6 : Memref sig .tc .vmem S1024x33 .f32) (harg6 : arg6.IsWhole)
    (hc0 : ¬condFirst1 i) (hc1 : condLast1 i)
    (xa : Vec F S1024x2048 .f32) (xx : Vec F S2048x64 .f32) (xw : Vec F S64x33 .f32) (s : Vec F S1024x33 .f32)
    (o : Vec F S1024x33 .f32)
    (K : PUnit → sProp 𝕄) :
    iprop(owns (c : Thread nD τ) arg2 fullShare xa ∗ owns (c : Thread nD τ) arg3 fullShare xx
        ∗ owns (c : Thread nD τ) arg4 fullShare xw ∗ owns (c : Thread nD τ) arg5 fullShare o
        ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg5 fullShare (k1_pay2 xx xw s xa)
            ∗ owns (c : Thread nD τ) arg6 fullShare (k1_pay2 xx xw s xa)) -∗ K ⟨⟩))
      ⊢ wp frame (wpE (defs₀ (F := F)) Variants.none c none) E
          (cc1__lambda_ i arg2 harg2 arg3 harg3 arg4 harg4 arg5 harg5 arg6 harg6) K := by
  simp only [cc1__lambda__eq_skeleton]; unfold cc1__lambda__skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_whole1 _ _), View.canon_unit_zero hzero1]
    sl_unfold_words
    rw [View.readCov_unit_zero _ hzero1]
    simp only [View.readAt_eq_ld, View.ld_unit_zero (S := S1024x33) hzero1, View.ld_unit_zero (S := S2048x64) hzero1,
    View.ld_unit_zero (S := S64x33) hzero1, View.ld_unit_zero (S := S1024x2048) hzero1]
  iexists _; isplitr
  swap; · iexact H6
  ipureintro
  sl_unfold_words
  rw [View.read_writes_eq_canon _ _ _ (cover_whole1 _ _), View.canon_unit_zero hzero1]
  simp only [View.readAt_eq_ld, View.ld_unit_zero (S := S1024x33) hzero1, View.ld_unit_zero (S := S2048x64) hzero1,
    View.ld_unit_zero (S := S64x33) hzero1, View.ld_unit_zero (S := S1024x2048) hzero1]

/-! ## What the body finds in the inputs' buffers -/

/-- The adjacency window's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- The feature window's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- The weights' buffer, filled at the first point only, holds the weights at every point: their block index
    never moves. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The invariant before the first point. -/
theorem Phi1_of_zero (c : Dev nD) (n : ℕ) (h : n ≤ cfg1.N) (hz : n = 0) :
    Phi1 V c n h = iprop((∃ d, owns (c : Thread nD τ) scM1 fullShare d) ∗ rest1 (F := F) c ∗ ∃ r, prngReg c r) := by
  subst hz; rfl

/-! ## The body obligation, at a generic point -/

/-- What the body is called with at point `t`: the invariant, the core's debt, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the column block says which of the three cases
    the point is in. The invariant hands the scratch over (at anything before the first point, at what the point
    before left afterwards) and takes it back at this point's accumulator, which is the point's update of the zero
    block at column block 0 and of the accumulator before otherwise. The output buffer comes back untouched off
    column block 3 and holding the accumulator at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_at_succ, Phi1_succ, Phi1_castSucc]
  rw [show (dat1 V c).leavesExact 0 t = owns (c : Thread nD τ) (win1_0.stage (cfg1.slots t 0)) fullShare ((dat1 V c).after 0 t) from rfl, after1_0]
  rw [show (dat1 V c).leavesExact 1 t = owns (c : Thread nD τ) (win1_1.stage (cfg1.slots t 1)) fullShare ((dat1 V c).after 1 t) from rfl, after1_1]
  rw [show (dat1 V c).leavesExact 2 t = owns (c : Thread nD τ) (win1_2.stage (cfg1.slots t 2)) fullShare ((dat1 V c).after 2 t) from rfl, after1_2]
  have hN : t.val < 32 := lt_of_lt_of_eq t.isLt (show cfg1.N = 32 from N_1)
  by_cases h0 : t.val % 4 = 0
  · have h3 : ¬t.val % 4 = 3 := by omega
    rw [Dat.leavesExact_idle (dat1 V c) 3 t (idleAt1_3 t h3) (noFlush1_3 t h3)]
    rw [acc1_eq V c t]
    unfold accIn1; rw [if_pos h0]
    by_cases hz : t.val = 0
    · rw [Phi1_of_zero V c _ _ hz]
      iintro ⟨⟨⟨%s, HS⟩, Hr, Hg⟩, Ho, ⟨%d0, H0⟩, ⟨%d1, H1⟩, ⟨%d2, H2⟩, H3⟩
      iapply (run_first1 c Set.univ (grid1.coords t) _ _ _ _ _ _ _ _ _ _ ((hcondFirst1 t).mpr h0)
        (fun h => h3 ((hcondLast1 t).mp h)) (iblk1 V c 0 t) (iblk1 V c 1 t) (iblk1 V c 2 t) s _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Phi1_pos V c _ _ hz]
      iintro ⟨⟨HS, Hr, Hg⟩, Ho, ⟨%d0, H0⟩, ⟨%d1, H1⟩, ⟨%d2, H2⟩, H3⟩
      iapply (run_first1 c Set.univ (grid1.coords t) _ _ _ _ _ _ _ _ _ _ ((hcondFirst1 t).mpr h0)
        (fun h => h3 ((hcondLast1 t).mp h)) (iblk1 V c 0 t) (iblk1 V c 1 t) (iblk1 V c 2 t) _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
  · have hz : t.val ≠ 0 := fun e => h0 (by rw [e])
    by_cases h3 : t.val % 4 = 3
    · rw [show (dat1 V c).leavesExact 3 t = owns (c : Thread nD τ) (win1_3.stage (cfg1.slots t 3)) fullShare ((dat1 V c).after 3 t) from by
        unfold Dat.leavesExact; rw [liveAt1_3 t h3], after1_3]
      rw [acc1_eq V c t]
      unfold accIn1; rw [if_neg h0, Phi1_pos V c _ _ hz]
      iintro ⟨⟨HS, Hr, Hg⟩, Ho, ⟨%d0, H0⟩, ⟨%d1, H1⟩, ⟨%d2, H2⟩, ⟨%d3, H3⟩⟩
      iapply (run_last1 c Set.univ (grid1.coords t) _ _ _ _ _ _ _ _ _ _ (fun h => h0 ((hcondFirst1 t).mp h))
        ((hcondLast1 t).mpr h3) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h3) (noFlush1_3 t h3)]
      rw [acc1_eq V c t]
      unfold accIn1; rw [if_neg h0, Phi1_pos V c _ _ hz]
      iintro ⟨⟨HS, Hr, Hg⟩, Ho, ⟨%d0, H0⟩, ⟨%d1, H1⟩, ⟨%d2, H2⟩, H3⟩
      iapply (run_middle1 c Set.univ (grid1.coords t) _ _ _ _ _ _ _ _ _ _ (fun h => h0 ((hcondFirst1 t).mp h))
        (fun h => h3 ((hcondLast1 t).mp h)) (iblk1 V c 0 t) (iblk1 V c 1 t) (iblk1 V c 2 t) _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point: the scratch at anything. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Phi1 V c 0 (Nat.zero_le _) from rfl, Phi1_zero, scopedRest1_rest]
  iintro ⟨Hg, HS, Hr⟩
  isplitl [HS]; · iexact HS
  isplitl [Hr]; · iexact Hr
  iexact Hg

/-- After the last point the invariant gives it back: the accumulator the scratch holds is forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), scopedRest1_rest]
  iintro ⟨HS, Hr, Hg⟩
  isplitl [Hg]; · iexact Hg
  isplitl [HS]; · iexists _; iexact HS
  iexact Hr

end Cert.Kernel.Hand

end
-- ==== Proof.BitsR2.lean ====
/-
  Region 2, the decoder: its body at every grid point.

  The grid is 8 row blocks by 16 column blocks of the output. The body has no branch and keeps nothing from one
  point to the next: it loads its four input blocks whole, loads the output buffer (the value is not used) and
  stores one value, a function of the four loaded blocks, over the whole output block. So at every point each
  input's buffer is left as found, holding the input's block there, and the output's buffer is left at that
  function of the four blocks; the region's invariant is constant and nothing is owed.
-/
import proofs.«158966_j8074538516900_1_alg».proof.Proof.BitsDats
import proofs.«158966_j8074538516900_1_alg».proof.Proof.Gen.Kernel.Launch
import proofs.«158966_j8074538516900_1_alg».proof.Proof.Gen.Kernel.Skeleton
import proofs.«158966_j8074538516900_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input's buffer holds when the body is called -/

/-- Input window 0 (a row block of the latent array, fetched only at the first column block of each row block)
    holds its block at every point: where it is not fetched its block index has not moved since the fetch, and
    the body leaves the buffer as found. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
/-- Input window 1 (a column block's rows of the latent array) holds its block at every point. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
/-- Input window 2 holds its block at every point. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
/-- Input window 3 holds its block at every point. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body's run -/

/-- The two zero offsets of a whole-block access are the zero function. -/
theorem offsets_zero2 : (![0, 0] : Fin 2 → Nat) = fun _ => 0 := funext fun a => by fin_cases a <;> rfl

/-- The one store of the body is over the whole output buffer: every index of the buffer is under it. -/
theorem cover2 (p : Vec F S1024x512 .f32) (y : S1024x512.Idx) :
    ∃ pc ∈ ([⟨Rect.unit (s := S1024x512) ![0, 0] S1024x512.size inb_S1024x512_S1024x512_0_0, p⟩] :
        List (View.Piece (Elt F) S1024x512 .f32)), y ∈ pc.1.set :=
  ⟨_, List.mem_singleton_self _, View.mem_set_unit_zero offsets_zero2 inb_S1024x512_S1024x512_0_0 y⟩

set_option maxHeartbeats 1000000 in
/-- The decoder's body on whole buffers, the four inputs' at read contents `x0 … x3` and the output's at anything:
    it runs to the continuation holding the inputs' as they were and the output's at the stored value of the four
    contents. Its one store covers the whole output buffer, so what is read back is the stored value itself, and
    each whole-buffer load reads the buffer's contents. -/
theorem sound_kernel2 (c : Dev nD) (E : Set ℕ) (i : grid2.Coords)
    (arg2 : Memref sig .tc .vmem S1024x32 .f32) (harg2 : arg2.IsWhole)
    (arg3 : Memref sig .tc .vmem S512x32 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1024x512 .f32) (harg6 : arg6.IsWhole)
    (x0 : Vec F S1024x32 .f32) (x1 : Vec F S512x32 .f32) (x2 x3 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay1 x0 x1 x2 x3)) -∗ K ⟨⟩))
      ⊢ wp frame (wpE (defs₀ (F := F)) Variants.none c none) E
          (cc2__decode_kernel i arg2 harg2 arg3 harg3 arg4 harg4 arg5 harg5 arg6 harg6) K := by
  simp only [cc2__decode_kernel_eq_skeleton]; unfold cc2__decode_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover2 _), View.canon_unit_zero offsets_zero2]
  simp only [View.readAt_eq_ld, View.ld_unit_zero (S := S1024x32) offsets_zero2,
    View.ld_unit_zero (S := S512x32) offsets_zero2, View.ld_unit_zero (S := S1x512) offsets_zero2]

/-! ## The body obligation -/

/-- What the body is called with at point `t`: the invariant, what the core owes, and every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it returns: the same at the next point, every buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the run above applies at the four blocks; the
    invariant and what the core owes are the same before and after, and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsR2Share.lean ====
/-
  Region 2's arrays among the core's unscoped buffers, at any float instance.

  The decoder's five windows stand on four arrays: windows 0 and 1 both read `main_v2`, window 2 reads
  `main_v6`, window 3 reads `main_v7`, window 4 is the output `main_v8`. The proof data holds the shared
  array once per window, at the two halves of the full share, and every other array at the full share. A
  points-to at the full share is the two at its halves, so the four distinct buffers, each whole at the full
  share, are the five windows' arrays: at the region's entry the core's unscoped buffers split into the
  windows' arrays at their entry contents and the unscoped rest, and at its exit the windows' arrays at their
  final contents and the rest join into the unscoped buffers at any valuation that has the output there and
  agrees with the entry's elsewhere (an input's array is never written).
-/
import proofs.«158966_j8074538516900_1_alg».proof.Proof.BitsDats
import proofs.«158966_j8074538516900_1_alg».proof.Proof.Gen.Kernel.Launch
import proofs.«158966_j8074538516900_1_alg».proof.Proof.Gen.Kernel.Skeleton
import proofs.«158966_j8074538516900_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four arrays behind the five windows -/

/-- The windows' arrays are four buffers: the shared input (under windows 0 and 1), two more inputs, the output. -/
theorem arrImage2 : Finset.univ.image (Pipeline.arrRef spec2) = {main_v2, main_v6, main_v7, main_v8} := by decide

/-- The distinct buffers behind the windows' arrays, one by one, each whole at the full share. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v2) ↦{fullShare} W main_v2) ∗ (((c : Thread nD τ).loc main_v6) ↦{fullShare} W main_v6)
          ∗ (((c : Thread nD τ).loc main_v7) ↦{fullShare} W main_v7) ∗ (((c : Thread nD τ).loc main_v8) ↦{fullShare} W main_v8)) := by
  unfold Pipeline.arrBufs
  rw [arrImage2, bigSep_insert (by decide), bigSep_insert (by decide), bigSep_insert (by decide), bigSep_singleton]
  rfl

/-- The windows' arrays at contents `G`, one by one: every array is a whole buffer; the shared array is held
    at the left half by window 0 and at the right half by window 1, the others at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v2) ↦{fullShare.left} G 0) ∗ (((c : Thread nD τ).loc main_v2) ↦{fullShare.right} G 1)
          ∗ (((c : Thread nD τ).loc main_v6) ↦{fullShare} G 2) ∗ (((c : Thread nD τ).loc main_v7) ↦{fullShare} G 3)
          ∗ (((c : Thread nD τ).loc main_v8) ↦{fullShare} G 4)) := by
  unfold Dat.arrays
  rw [Gen.bigSep_W2]
  rw [(Gen.arr_whole2 0).set_eq_univ, (Gen.arr_whole2 2).set_eq_univ, (Gen.arr_whole2 3).set_eq_univ, (Gen.arr_whole2 4).set_eq_univ]
  rfl

/-- The core's unscoped buffers at contents `W` are the four buffers behind the windows' arrays and the rest. -/
theorem unscopedBufs2_split (c : Dev nD) (W : (b : Ref sig .tc) → Buf (Elt F) ((c : Thread nD τ).loc b)) :
    (unscopedBufs c W : sProp 𝕄)
      = iprop(Pipeline.arrBufs spec2 c W ∗ Pipeline.unscopedRest (Ix := Unit) (Name := ℕ) (U := UR sig nD τ) (Lvl := ℕ) spec2 c W) :=
  Pipeline.unscopedBufs_split₀ cfgs 2 Gen.winFacts₀2.arr_unscoped c W

/-! ## Entry and exit -/

/-- ENTRY: the core's unscoped buffers at the entry contents are the windows' arrays at the proof data's entry
    contents — the shared array's full share split into its halves — and the unscoped rest. -/
theorem entry2 (c : Dev nD) :
    (unscopedBufs c (V c) : sProp 𝕄)
      ⊢ iprop((dat2 V c).arrays ((dat2 V c).arrAt · 0) ∗ Pipeline.unscopedRest (Ix := Unit) (Name := ℕ) (U := UR sig nD τ) (Lvl := ℕ) spec2 c (V c)) := by
  rw [unscopedBufs2_split, arrBufs2_eq, arrays2_eq]
  iintro ⟨⟨H2, H6, H7, H8⟩, HR⟩
  ihave H2 := (pointsTo_share (PosShare.mem_left_op_right fullShare)).1 $$ H2
  icases H2 with ⟨Hl, Hr⟩
  isplitr [HR]
  · isplitl [Hl]; · iexact Hl
    isplitl [Hr]; · iexact Hr
    isplitl [H6]; · iexact H6
    isplitl [H7]; · iexact H7
    iexact H8
  · iexact HR

/-- EXIT: the windows' arrays at their final contents and the unscoped rest at the entry contents are the core's
    unscoped buffers at any valuation `V'` that has the output's final contents at the output and the entry
    contents elsewhere: the inputs' arrays were never written, and the shared array's two halves join. -/
theorem exit2 (c : Dev nD) (V' : (b : Ref sig .tc) → Buf (Elt F) ((c : Thread nD τ).loc b))
    (h8 : V' main_v8 = (dat2 V c).arrAt 4 cfg2.N) (hrest : ∀ b, b ≠ main_v8 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs c V' : sProp 𝕄) := by
  have hr : (Pipeline.unscopedRest (Ix := Unit) (Name := ℕ) (U := UR sig nD τ) (Lvl := ℕ) spec2 c V' : sProp 𝕄) = Pipeline.unscopedRest spec2 c (V c) := by
    unfold Pipeline.unscopedRest
    refine bigSep_congr fun b hb => ?_
    rw [hrest b (fun h => (Finset.mem_sdiff.mp hb).2 (by rw [h, arrImage2]; decide))]
  rw [unscopedBufs2_split, hr, arrBufs2_eq, arrays2_eq]
  rw [(dat2 V c).arrAt_in 0 rfl, (dat2 V c).arrAt_in 1 rfl, (dat2 V c).arrAt_in 2 rfl, (dat2 V c).arrAt_in 3 rfl, ← h8]
  rw [hrest main_v2 (by decide), hrest main_v6 (by decide), hrest main_v7 (by decide)]
  iintro ⟨⟨Hl, Hr, H6, H7, H8⟩, HR⟩
  isplitr [HR]
  · isplitl [Hl Hr]
    · iapply (pointsTo_share (PosShare.mem_left_op_right fullShare)).2
      isplitl [Hl]; · iexact Hl
      iexact Hr
    isplitl [H6]; · iexact H6
    isplitl [H7]; · iexact H7
    iexact H8
  · iexact HR

end Cert.Kernel.Hand

end
-- ==== Proof.BitsRegs.lean ====
/-
  The three kernel regions of @main as segment records, and the run of @main over them.

  Between two items of @main the core holds every unscoped buffer whole, at contents that are known by name:
  the launch contents; after region 0 the same with the hidden layer's array at what the region's write-backs
  leave; after region 1 likewise with the encoder's result; then the seven host lines' results; after region 2 the
  output array at what its write-backs leave. Beside the buffers ride the generator register, at some state, and
  the core's debt, at nothing. Each region record says how that state splits into the region's arrays and the
  rest at the entry and is put together again at the exit; the regions' invariants take the generator register
  and the scoped buffers in and give them back.
-/
import proofs.«158966_j8074538516900_1_alg».proof.Proof.Gen.Kernel.Regions
import proofs.«158966_j8074538516900_1_alg».proof.Proof.BitsR0
import proofs.«158966_j8074538516900_1_alg».proof.Proof.BitsR1
import proofs.«158966_j8074538516900_1_alg».proof.Proof.BitsR2
import proofs.«158966_j8074538516900_1_alg».proof.Proof.BitsR2Share
import proofs.«158966_j8074538516900_1_alg».proof.Proof.BitsDats
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the items of @main -/

/-- At launch, read at the TensorCore's references. -/
abbrev U0 : (c : Dev nD) → (b : Ref sig .tc) → Buf (Elt F) ((c : Thread nD τ).loc b) := fun c b => V0 m c b
/-- The hidden layer's array after region 0. -/
def X0 (c : Dev nD) : Buf (Elt F) ((c : Thread nD τ).loc main_v0) := (dat0 (U0 m) c).arrAt 3 cfg0.N
/-- After region 0. -/
abbrev W1 (c : Dev nD) : Valuation τ sig (Elt F) := Function.update (V0 m c) main_v0 (X0 m c)
abbrev U1 : (c : Dev nD) → (b : Ref sig .tc) → Buf (Elt F) ((c : Thread nD τ).loc b) := fun c b => W1 m c b
/-- The encoder's result after region 1. -/
def X1 (c : Dev nD) : Buf (Elt F) ((c : Thread nD τ).loc main_v1) := (dat1 (U1 m) c).arrAt 3 cfg1.N
/-- After region 1, and after the host lines that follow it. -/
abbrev W2 (c : Dev nD) : Valuation τ sig (Elt F) := Function.update (W1 m c) main_v1 (X1 m c)
abbrev U2 : (c : Dev nD) → (b : Ref sig .tc) → Buf (Elt F) ((c : Thread nD τ).loc b) := fun c b => W2 m c b
abbrev W3 (c : Dev nD) : Valuation τ sig (Elt F) := StableHlo.after hostOps2 (W2 m c)
abbrev U3 : (c : Dev nD) → (b : Ref sig .tc) → Buf (Elt F) ((c : Thread nD τ).loc b) := fun c b => W3 m c b
/-- The output array after region 2. -/
def X8 (c : Dev nD) : Buf (Elt F) ((c : Thread nD τ).loc main_v8) := (dat2 (U3 m) c).arrAt 4 cfg2.N
abbrev W4 (c : Dev nD) : Valuation τ sig (Elt F) := Function.update (W3 m c) main_v8 (X8 m c)
abbrev U4 : (c : Dev nD) → (b : Ref sig .tc) → Buf (Elt F) ((c : Thread nD τ).loc b) := fun c b => W4 m c b

/-- What the regions leave, as the generated valuations read it. -/
def outs : Outs (F := F) := fun _ r c =>
  if h : r = main_v0 then h ▸ X0 m c
  else if h : r = main_v1 then h ▸ X1 m c
  else if h : r = main_v8 then h ▸ X8 m c
  else V0 m c r

theorem outs_v0 (c : Dev nD) : outs m 1 main_v0 c = X0 m c := by unfold outs; rw [dif_pos rfl]
theorem outs_v1 (c : Dev nD) : outs m 2 main_v1 c = X1 m c := by
  unfold outs; rw [dif_neg (by decide), dif_pos rfl]
theorem outs_v8 (c : Dev nD) : outs m 4 main_v8 c = X8 m c := by
  unfold outs; rw [dif_neg (by decide), dif_neg (by decide), dif_pos rfl]

theorem V1_eq (c : Dev nD) : V1 m (outs m) c = W1 m c := by
  show Function.update (V0 m c) main_v0 (outs m 1 main_v0 c) = _; rw [outs_v0]
theorem V2_eq (c : Dev nD) : V2 m (outs m) c = W2 m c := by
  show Function.update (V1 m (outs m) c) main_v1 (outs m 2 main_v1 c) = _; rw [outs_v1, V1_eq]
theorem V3_eq (c : Dev nD) : V3 m (outs m) c = W3 m c := by
  show StableHlo.after hostOps2 (V2 m (outs m) c) = _; rw [V2_eq]
theorem V4_eq (c : Dev nD) : V4 m (outs m) c = W4 m c := by
  show Function.update (V3 m (outs m) c) main_v8 (outs m 4 main_v8 c) = _; rw [outs_v8, V3_eq]

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (U0 m) c
  | ⟨1, _⟩ => fun c => dat1 (U1 m) c
  | ⟨2, _⟩ => fun c => dat2 (U3 m) c

/-- No core owes another anything: no level is assigned. -/
abbrev L : GSem nD τ sig → Finset Unit := fun _ => ∅
abbrev lv : GSem nD τ sig → Unit → ℕ := fun _ _ => 0
/-- Beside the buffers: the generator register at some state, the core's debt at nothing. -/
abbrev R (c : Dev nD) : sProp 𝕄 := iprop((∃ r, prngReg c r) ∗ ∃ W, owes (c : Thread nD τ) (0 : CellTallies nD τ sig Unit) W)

/-! ## Region 0 -/

theorem hF0 (c : Dev nD) (w : Fin cfg0.W) : (dat0 (U0 m) c).arrAt w cfg0.N = U1 m c (Pipeline.arrRef spec0 w) := by
  match w with
  | ⟨0, _⟩ => exact ((dat0 (U0 m) c).arrAt_in 0 rfl _).trans ((A_eq0 (U0 m) c 0).trans (Function.update_of_ne (StableHlo.devRef_ne_of_ne (by decide)) _ _).symm)
  | ⟨1, _⟩ => exact ((dat0 (U0 m) c).arrAt_in 1 rfl _).trans ((A_eq0 (U0 m) c 1).trans (Function.update_of_ne (StableHlo.devRef_ne_of_ne (by decide)) _ _).symm)
  | ⟨2, _⟩ => exact ((dat0 (U0 m) c).arrAt_in 2 rfl _).trans ((A_eq0 (U0 m) c 2).trans (Function.update_of_ne (StableHlo.devRef_ne_of_ne (by decide)) _ _).symm)
  | ⟨3, _⟩ =>
    show X0 m c = Function.update (V0 m c) (Proc.devRef .tc main_v0) (X0 m c) (Proc.devRef .tc main_v0)
    rw [Function.update_self]
theorem hrest0 (c : Dev nD) : ∀ b, b ∉ Finset.univ.image (Pipeline.arrRef spec0) → U1 m c b = U0 m c b := fun b hb =>
  Function.update_of_ne (StableHlo.devRef_ne_of_ne fun e => hb (Finset.mem_image.mpr ⟨3, Finset.mem_univ _, e.symm⟩)) _ _

set_option backward.isDefEq.respectTransparency.types false in
/-- REGION 0, entered from the launch contents and left with the hidden layer's array at `X0`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U0 m) c).Φ 0 from rfl]
    iintro ⟨Hp, -, Hr⟩
    iapply (hin0 (U0 m) c)
    isplitl [Hp]; · iexact Hp
    iexact Hr
  hout c := by
    rw [Pipeline.ownSems0_none, show (pdats m 0 c).Φ (Fin.last _) = (dat0 (U0 m) c).Φ (Fin.last cfg0.N) from rfl]
    iintro H
    ihave H' := (hout0 (U0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem hF1 (c : Dev nD) (w : Fin cfg1.W) : (dat1 (U1 m) c).arrAt w cfg1.N = U2 m c (Pipeline.arrRef spec1 w) := by
  match w with
  | ⟨0, _⟩ => exact ((dat1 (U1 m) c).arrAt_in 0 rfl _).trans ((A_eq1 (U1 m) c 0).trans (Function.update_of_ne (StableHlo.devRef_ne_of_ne (by decide)) _ _).symm)
  | ⟨1, _⟩ => exact ((dat1 (U1 m) c).arrAt_in 1 rfl _).trans ((A_eq1 (U1 m) c 1).trans (Function.update_of_ne (StableHlo.devRef_ne_of_ne (by decide)) _ _).symm)
  | ⟨2, _⟩ => exact ((dat1 (U1 m) c).arrAt_in 2 rfl _).trans ((A_eq1 (U1 m) c 2).trans (Function.update_of_ne (StableHlo.devRef_ne_of_ne (by decide)) _ _).symm)
  | ⟨3, _⟩ =>
    show X1 m c = Function.update (W1 m c) (Proc.devRef .tc main_v1) (X1 m c) (Proc.devRef .tc main_v1)
    rw [Function.update_self]
theorem hrest1 (c : Dev nD) : ∀ b, b ∉ Finset.univ.image (Pipeline.arrRef spec1) → U2 m c b = U1 m c b := fun b hb =>
  Function.update_of_ne (StableHlo.devRef_ne_of_ne fun e => hb (Finset.mem_image.mpr ⟨3, Finset.mem_univ _, e.symm⟩)) _ _

set_option backward.isDefEq.respectTransparency.types false in
/-- REGION 1, entered from what region 0 left and left with the encoder's result at `X1`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (U1 m) c).Φ 0 from rfl]
    iintro ⟨Hp, -, Hr⟩
    iapply (hin1 (U1 m) c)
    isplitl [Hp]; · iexact Hp
    iexact Hr
  hout c := by
    rw [Pipeline.ownSems0_none, show (pdats m 1 c).Φ (Fin.last _) = (dat1 (U1 m) c).Φ (Fin.last cfg1.N) from rfl]
    iintro H
    ihave H' := (hout1 (U1 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option backward.isDefEq.respectTransparency.types false in
/-- REGION 2, entered from what the host lines left and left with the output array at `X8`. Two of its windows
    stand on one array, so the arrays are split out of the unscoped buffers, and put back, by the entailments
    that divide that array's full share between the two windows and join it again. -/
def reg2 : Pipeline.RegionSeg (pcfgs (F := F)) adm (pdats m) () defs₀ Variants.none L lv 2 where
  win := winFacts₀2
  block_pos := block_pos2
  stage_whole := stage_whole2
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := entry2 (U3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (U3 m c)) ⊢ (unscopedBufs c (U4 m c) : sProp 𝕄) := exit2 (U3 m) c (U4 m c)
      (show Function.update (W3 m c) (Proc.devRef .tc main_v8) (X8 m c) (Proc.devRef .tc main_v8) = X8 m c from Function.update_self _ _ _)
      (fun b hb => Function.update_of_ne (StableHlo.devRef_ne_of_ne hb) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run of @main -/

/-- What the launch makes beside the buffers on every core: the generator register, and the debt at nothing. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main from memory `m` with zero counters terminates, and every final
    memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := rest_init ρ)
    (hE3 := fun c => by iintro ⟨-, HO⟩; iexact HO)
    (reg0 m) (fun c => .rfl) (fun c => by rw [V1_eq]; exact .rfl)
    (reg1 m) (fun c => by rw [V1_eq]; exact .rfl) (fun c => by rw [V2_eq]; exact .rfl)
    (reg2 m) (fun c => by rw [V3_eq]; exact .rfl) (fun c => by rw [V4_eq]; exact .rfl)

end Cert.Kernel.Hand

end
-- ==== Proof.IdealDats.lean ====
/-
  The proof data of the three kernel regions, at any float instance and at any contents `V` of the
  TensorCore's buffers when a region is entered.

  Regions 0 and 1 are the two graph-convolution layers. Each runs over a grid of 8 row blocks by 4 column
  blocks of the adjacency matrix, the column block moving fastest: point `t` is row block `t / 4`, column
  block `t % 4`. A scratch accumulator is carried along the four column blocks of a row block: it is reset
  at column block 0, every point adds the product of its adjacency block with (its feature block times the
  weights), and at column block 3 the accumulator (after the rectifier, in region 0) is stored into the output
  block, which is written back there and only there. `accK n` is what the scratch holds after point `n`.

  Region 2 is the decoder: a pointwise body over a grid of 8 by 16 blocks of the output, every point storing
  its whole output block. Two of its input windows stand on one array, so each holds that array at half the
  full share.
-/
import proofs.«158966_j8074538516900_1_alg».proof.Proof.Gen.KernelIdeal.Launch
import proofs.«158966_j8074538516900_1_alg».proof.Proof.Gen.KernelIdeal.Skeleton
import proofs.«158966_j8074538516900_1_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Region 0, window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Region 1, window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- Region 2, window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The carried accumulators -/

/-- Region 0's scratch after the body at point `n`: the point's update of the zero block at a column block 0,
    of what the point before left otherwise. -/
def acc0 (c : Dev nD) : (n : ℕ) → n < cfg0.N → Vec F S1024x64 .f32
  | 0, hn => k0_pay2 (iblk0 V c 1 ⟨0, hn⟩) (iblk0 V c 2 ⟨0, hn⟩) (k0_pay1 (F := F)) (iblk0 V c 0 ⟨0, hn⟩)
  | n + 1, hn => k0_pay2 (iblk0 V c 1 ⟨n + 1, hn⟩) (iblk0 V c 2 ⟨n + 1, hn⟩)
      (if (n + 1) % 4 = 0 then k0_pay1 (F := F) else acc0 c n (Nat.lt_of_succ_lt hn)) (iblk0 V c 0 ⟨n + 1, hn⟩)

/-- Region 1's scratch after the body at point `n`. -/
def acc1 (c : Dev nD) : (n : ℕ) → n < cfg1.N → Vec F S1024x33 .f32
  | 0, hn => k1_pay2 (iblk1 V c 1 ⟨0, hn⟩) (iblk1 V c 2 ⟨0, hn⟩) (k1_pay1 (F := F)) (iblk1 V c 0 ⟨0, hn⟩)
  | n + 1, hn => k1_pay2 (iblk1 V c 1 ⟨n + 1, hn⟩) (iblk1 V c 2 ⟨n + 1, hn⟩)
      (if (n + 1) % 4 = 0 then k1_pay1 (F := F) else acc1 c n (Nat.lt_of_succ_lt hn)) (iblk1 V c 0 ⟨n + 1, hn⟩)

/-- What the scratch holds when point `t` loads it for the update: the zero block at a column block 0 (just
    stored), else what the point before left. -/
def accIn0 (c : Dev nD) (t : Fin cfg0.N) : Vec F S1024x64 .f32 :=
  if t.val % 4 = 0 then k0_pay1 (F := F) else acc0 V c (t.val - 1) (Nat.lt_of_le_of_lt (Nat.sub_le _ _) t.isLt)
def accIn1 (c : Dev nD) (t : Fin cfg1.N) : Vec F S1024x33 .f32 :=
  if t.val % 4 = 0 then k1_pay1 (F := F) else acc1 V c (t.val - 1) (Nat.lt_of_le_of_lt (Nat.sub_le _ _) t.isLt)

/-- The accumulator after point `t` is the point's update of what the point loaded. -/
theorem acc0_eq (c : Dev nD) (t : Fin cfg0.N) :
    acc0 V c t.val t.isLt = k0_pay2 (iblk0 V c 1 t) (iblk0 V c 2 t) (accIn0 V c t) (iblk0 V c 0 t) := by
  obtain ⟨n, hn⟩ := t
  cases n with
  | zero => unfold accIn0; rw [if_pos (Nat.zero_mod _)]; rfl
  | succ n => unfold accIn0; rfl
theorem acc1_eq (c : Dev nD) (t : Fin cfg1.N) :
    acc1 V c t.val t.isLt = k1_pay2 (iblk1 V c 1 t) (iblk1 V c 2 t) (accIn1 V c t) (iblk1 V c 0 t) := by
  obtain ⟨n, hn⟩ := t
  cases n with
  | zero => unfold accIn1; rw [if_pos (Nat.zero_mod _)]; rfl
  | succ n => unfold accIn1; rfl

/-! ## The scoped buffers beside the scratch -/

/-- The scratch operands as memrefs. -/
abbrev scM0 : Memref sig .tc .vmem S1024x64 .f32 := Memref.whole cc0_scratch0
abbrev scM1 : Memref sig .tc .vmem S1024x33 .f32 := Memref.whole cc1_scratch0

theorem scopedRest0_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) :=
  ⟨_, scopedRest0_eq c⟩
/-- Region 0's scoped buffers that are neither a staging buffer of its own nor its scratch, each at some contents. -/
def rest0 (c : Dev nD) : sProp 𝕄 := Classical.choose (scopedRest0_split (F := F) c)
theorem scopedRest0_rest (c : Dev nD) :
    (Pipeline.scopedRest (Ix := Unit) (Name := ℕ) (U := UR sig nD τ) (Lvl := ℕ) (Val := Elt F) spec0 c : sProp 𝕄)
      = iprop((∃ d, owns (c : Thread nD τ) (scM0) fullShare d) ∗ rest0 (F := F) c) := by
  rw [Classical.choose_spec (scopedRest0_split (F := F) c)]; simp only [scM0, owns_whole]; rfl

theorem scopedRest1_split (c : Dev nD) : ∃ R : sProp 𝕄,
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ R) := by
  unfold Pipeline.scopedRest
  exact ⟨_, bigSep_erase (i := cc1_scratch0) (by decide)⟩
/-- Region 1's scoped buffers that are neither a staging buffer of its own nor its scratch, each at some contents. -/
def rest1 (c : Dev nD) : sProp 𝕄 := Classical.choose (scopedRest1_split (F := F) c)
theorem scopedRest1_rest (c : Dev nD) :
    (Pipeline.scopedRest (Ix := Unit) (Name := ℕ) (U := UR sig nD τ) (Lvl := ℕ) (Val := Elt F) spec1 c : sProp 𝕄)
      = iprop((∃ d, owns (c : Thread nD τ) (scM1) fullShare d) ∗ rest1 (F := F) c) := by
  rw [Classical.choose_spec (scopedRest1_split (F := F) c)]; simp only [scM1, owns_whole]; rfl

/-! ## The region invariants -/

/-- Region 0's invariant before position `n`: the scratch at anything before the first point, at what the
    point before left afterwards; the other scoped buffers at some contents; the generator register at some state. -/
def Phi0 (c : Dev nD) : (n : ℕ) → n ≤ cfg0.N → sProp 𝕄
  | 0, _ => iprop((∃ d, owns (c : Thread nD τ) scM0 fullShare d) ∗ rest0 (F := F) c ∗ ∃ r, prngReg c r)
  | n + 1, hn => iprop(owns (c : Thread nD τ) scM0 fullShare (acc0 V c n hn) ∗ rest0 (F := F) c ∗ ∃ r, prngReg c r)
/-- Region 1's invariant before position `n`. -/
def Phi1 (c : Dev nD) : (n : ℕ) → n ≤ cfg1.N → sProp 𝕄
  | 0, _ => iprop((∃ d, owns (c : Thread nD τ) scM1 fullShare d) ∗ rest1 (F := F) c ∗ ∃ r, prngReg c r)
  | n + 1, hn => iprop(owns (c : Thread nD τ) scM1 fullShare (acc1 V c n hn) ∗ rest1 (F := F) c ∗ ∃ r, prngReg c r)

theorem Phi0_zero (c : Dev nD) (h : 0 ≤ cfg0.N) :
    Phi0 V c 0 h = iprop((∃ d, owns (c : Thread nD τ) scM0 fullShare d) ∗ rest0 (F := F) c ∗ ∃ r, prngReg c r) := rfl
theorem Phi0_succ (c : Dev nD) (n : ℕ) (hn : n < cfg0.N) :
    Phi0 V c (n + 1) hn = iprop(owns (c : Thread nD τ) scM0 fullShare (acc0 V c n hn) ∗ rest0 (F := F) c ∗ ∃ r, prngReg c r) := rfl
theorem Phi0_pos (c : Dev nD) (n : ℕ) (h : n ≤ cfg0.N) (hz : n ≠ 0) :
    Phi0 V c n h = iprop(owns (c : Thread nD τ) scM0 fullShare (acc0 V c (n - 1) (by omega)) ∗ rest0 (F := F) c ∗ ∃ r, prngReg c r) := by
  cases n with
  | zero => exact absurd rfl hz
  | succ n => rfl
theorem Phi1_zero (c : Dev nD) (h : 0 ≤ cfg1.N) :
    Phi1 V c 0 h = iprop((∃ d, owns (c : Thread nD τ) scM1 fullShare d) ∗ rest1 (F := F) c ∗ ∃ r, prngReg c r) := rfl
theorem Phi1_succ (c : Dev nD) (n : ℕ) (hn : n < cfg1.N) :
    Phi1 V c (n + 1) hn = iprop(owns (c : Thread nD τ) scM1 fullShare (acc1 V c n hn) ∗ rest1 (F := F) c ∗ ∃ r, prngReg c r) := rfl
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ ∃ r, prngReg c r) := by
  cases n with
  | zero => exact absurd rfl hz
  | succ n => rfl

/-! ## The proof data -/

/-- Region 0 on core `c`: the arrays as the region finds them; after the body each input's buffer at its block,
    the output's at the rectified accumulator (read only where the block is written back: column block 3). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

/-- Region 1 on core `c`: as region 0, the output's buffer at the accumulator itself. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := Phi1 V c t.val (Nat.le_of_lt_succ t.isLt)
  q _ := fullShare
  owed _ := 0

/-- Region 2 on core `c`: every input's buffer at its block, the output's at the body's one store over the
    four input blocks; the invariant the scoped rest and the generator register; the two windows on the latent
    array hold it at the two halves of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]

/-- The invariant at a point's start and end, restated at the point's number. -/
theorem Phi0_castSucc (c : Dev nD) (t : Fin cfg0.N) : (dat0 V c).Φ t.castSucc = Phi0 V c t.val (Nat.le_of_lt t.isLt) := by
  dsimp only [dat0]; simp only [Fin.coe_castSucc]
theorem Phi0_at_succ (c : Dev nD) (t : Fin cfg0.N) : (dat0 V c).Φ t.succ = Phi0 V c (t.val + 1) t.isLt := rfl
theorem Phi1_castSucc (c : Dev nD) (t : Fin cfg1.N) : (dat1 V c).Φ t.castSucc = Phi1 V c t.val (Nat.le_of_lt t.isLt) := by
  dsimp only [dat1]; simp only [Fin.coe_castSucc]
theorem Phi1_at_succ (c : Dev nD) (t : Fin cfg1.N) : (dat1 V c).Φ t.succ = Phi1 V c (t.val + 1) t.isLt := rfl

end Cert.KernelIdeal.Hand

end
-- ==== Proof.IdealR0.lean ====
/-
  The body obligation of kernel region 0, the first graph-convolution layer, for the proof data `dat0`.

  The region runs over 8 row blocks by 4 column blocks of the adjacency matrix; point `t` is row block `t / 4`,
  column block `t % 4`. At every point the body adds (adjacency block) · ((feature block) · weights) to a scratch
  accumulator. On column block 0 it zeroes the scratch first; on column block 3 it then stores the rectified
  scratch into the output block. So there are three control cases, by `t % 4`: 0; 1 or 2; 3.

  Every load and store of the body is of a whole buffer, so a store read back is the stored value and the body's
  effect on each buffer is one closed term over what the buffers held: the scratch ends at `k0_pay2` of the three
  input blocks and what it held (the zero block `k0_pay1` on column block 0), the output buffer on column block 3
  at `k0_pay3` of that. The input buffers hold their blocks at every point; the output buffer is left as it was
  found off column block 3, where the pipeline does not write it back.
-/
import proofs.«158966_j8074538516900_1_alg».proof.Proof.IdealDats
import proofs.«158966_j8074538516900_1_alg».proof.Proof.Gen.KernelIdeal.Launch
import proofs.«158966_j8074538516900_1_alg».proof.Proof.Gen.KernelIdeal.Skeleton
import proofs.«158966_j8074538516900_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which column block a point is on -/

/-- The body's first conditional asks whether the column block is 0 (the scalar chain of the printed body). -/
abbrev atFirst0 (i : grid0.Coords) : Prop :=
  (Scalar.cmpi .ne (Scalar.extui (Scalar.cmpi .eq (BitVec.ofNat 32 (i 1).val) 0#32)) 0#32) = 1#1
/-- Its second asks whether the column block is 3. -/
abbrev atLast0 (i : grid0.Coords) : Prop := k0_cond2 i = 1#1

/-- Point `t` is on column block `t % 4`: the first condition holds exactly at the multiples of 4. -/
theorem atFirst0_iff : ∀ t : Fin cfg0.N, atFirst0 (grid0.coords t) ↔ t.val % 4 = 0 :=
  (by decide +kernel : ∀ t : Fin grid0.N, atFirst0 (grid0.coords t) ↔ t.val % 4 = 0)
/-- and the second exactly at the points that are 3 modulo 4. -/
theorem atLast0_iff : ∀ t : Fin cfg0.N, atLast0 (grid0.coords t) ↔ t.val % 4 = 3 :=
  (by decide +kernel : ∀ t : Fin grid0.N, atLast0 (grid0.coords t) ↔ t.val % 4 = 3)

/-- The output window is idle off column block 3, -/
theorem outIdle0 : ∀ t : Fin cfg0.N, ¬t.val % 4 = 3 → cfg0.idle 3 (grid0.coords t) = true :=
  (by decide +kernel : ∀ t : Fin grid0.N, ¬t.val % 4 = 3 → cfg0.idle 3 (grid0.coords t) = true)
/-- is not written back there, -/
theorem outKept0 : ∀ t : Fin cfg0.N, ¬t.val % 4 = 3 → (cfg0.win 3).flush t = false :=
  (by decide +kernel : ∀ t : Fin grid0.N, ¬t.val % 4 = 3 → (cfg0.win 3).flush t = false)
/-- and is live on column block 3. -/
theorem outLive0 : ∀ t : Fin cfg0.N, t.val % 4 = 3 → cfg0.idle 3 (grid0.coords t) = false :=
  (by decide +kernel : ∀ t : Fin grid0.N, t.val % 4 = 3 → cfg0.idle 3 (grid0.coords t) = false)

/-- The whole-block rectangle starts at the origin. -/
theorem origin2 : (![0, 0] : Fin 2 → ℕ) = fun _ => 0 := by
  funext a; fin_cases a <;> rfl

/-! ## The body on any whole buffers, by column block

The body reads the adjacency block `xa`, the feature block `xx` and the weights `xw`, adds
`xa · (xx · xw)` to the scratch (`k0_pay2`), and stores the sum back into the scratch. On column block 0 it
first zeroes the scratch (`k0_pay1`); on column block 3 it then stores the rectified scratch (`k0_pay3`)
into the output buffer. Every load and store is of a whole buffer, so a store read back is its payload. -/

set_option maxHeartbeats 1000000 in
/-- Column block 0: whatever the scratch held, it ends at the update of the zero block; the output buffer is
    not touched. -/
theorem runFirst0 (c : Dev nD) (E : Set ℕ) (i : grid0.Coords)
    (arg2 : Memref sig .tc .vmem S1024x2048 .f32) (harg2 : arg2.IsWhole)
    (arg3 : Memref sig .tc .vmem S2048x512 .f32) (harg3 : arg3.IsWhole)
    (arg4 : Memref sig .tc .vmem S512x64 .f32) (harg4 : arg4.IsWhole)
    (arg5 : Memref sig .tc .vmem S1024x64 .f32) (harg5 : arg5.IsWhole)
    (arg6 : Memref sig .tc .vmem S1024x64 .f32) (harg6 : arg6.IsWhole)
    (hc0 : atFirst0 i) (hc1 : ¬atLast0 i)
    (xa : Vec F S1024x2048 .f32) (xx : Vec F S2048x512 .f32) (xw : Vec F S512x64 .f32)
    (K : PUnit → sProp 𝕄) :
    iprop(owns (c : Thread nD τ) arg2 fullShare xa ∗ owns (c : Thread nD τ) arg3 fullShare xx
        ∗ owns (c : Thread nD τ) arg4 fullShare xw ∗ (∃ d, owns (c : Thread nD τ) arg6 fullShare d)
        ∗ (iprop(owns (c : Thread nD τ) arg2 fullShare xa ∗ owns (c : Thread nD τ) arg3 fullShare xx
            ∗ owns (c : Thread nD τ) arg4 fullShare xw
            ∗ owns (c : Thread nD τ) arg6 fullShare (k0_pay2 xx xw (k0_pay1 (F := F)) xa)) -∗ K ⟨⟩))
      ⊢ wp frame (wpE (defs₀ (F := F)) Variants.none c none) E (cc0__lambda_ i arg2 harg2 arg3 harg3 arg4 harg4 arg5 harg5 arg6 harg6) K := by
  simp only [cc0__lambda__eq_skeleton]; unfold cc0__lambda__skel
  unfold owns
  iintro ⟨⟨%f2, %hf2, H2⟩, ⟨%f3, %hf3, H3⟩, ⟨%f4, %hf4, H4⟩, ⟨%d6, %f6, -, H6⟩, Hk⟩
  subst hf2 hf3 hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (fun y => ⟨_, List.mem_cons.mpr (Or.inl rfl), View.mem_set_unit_zero origin2 inb_S1024x64_S1024x64_0_0 y⟩)]
  rw [View.canon_cons_unit_zero origin2]
  simp only [View.readAt_eq_ld, View.ld_unit_zero (S := S1024x2048) origin2, View.ld_unit_zero (S := S2048x512) origin2,
    View.ld_unit_zero (S := S512x64) origin2, View.ld_unit_zero (S := S1024x64) origin2, View.readCov_unit_zero (S := S1024x64) _ origin2]

set_option maxHeartbeats 1000000 in
/-- Column blocks 1 and 2: the scratch at `s` ends at the update of `s`; the output buffer is not touched. -/
theorem runMiddle0 (c : Dev nD) (E : Set ℕ) (i : grid0.Coords)
    (arg2 : Memref sig .tc .vmem S1024x2048 .f32) (harg2 : arg2.IsWhole)
    (arg3 : Memref sig .tc .vmem S2048x512 .f32) (harg3 : arg3.IsWhole)
    (arg4 : Memref sig .tc .vmem S512x64 .f32) (harg4 : arg4.IsWhole)
    (arg5 : Memref sig .tc .vmem S1024x64 .f32) (harg5 : arg5.IsWhole)
    (arg6 : Memref sig .tc .vmem S1024x64 .f32) (harg6 : arg6.IsWhole)
    (hc0 : ¬atFirst0 i) (hc1 : ¬atLast0 i)
    (xa : Vec F S1024x2048 .f32) (xx : Vec F S2048x512 .f32) (xw : Vec F S512x64 .f32) (s : Vec F S1024x64 .f32)
    (K : PUnit → sProp 𝕄) :
    iprop(owns (c : Thread nD τ) arg2 fullShare xa ∗ owns (c : Thread nD τ) arg3 fullShare xx
        ∗ owns (c : Thread nD τ) arg4 fullShare xw ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg6 fullShare (k0_pay2 xx xw s xa)) -∗ K ⟨⟩))
      ⊢ wp frame (wpE (defs₀ (F := F)) Variants.none c none) E (cc0__lambda_ i arg2 harg2 arg3 harg3 arg4 harg4 arg5 harg5 arg6 harg6) K := by
  simp only [cc0__lambda__eq_skeleton]; unfold cc0__lambda__skel
  unfold owns
  iintro ⟨⟨%f2, %hf2, H2⟩, ⟨%f3, %hf3, H3⟩, ⟨%f4, %hf4, H4⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (fun y => ⟨_, List.mem_cons.mpr (Or.inl rfl), View.mem_set_unit_zero origin2 inb_S1024x64_S1024x64_0_0 y⟩)]
  rw [View.canon_unit_zero origin2]
  simp only [View.readAt_eq_ld, View.ld_unit_zero (S := S1024x2048) origin2, View.ld_unit_zero (S := S2048x512) origin2,
    View.ld_unit_zero (S := S512x64) origin2, View.ld_unit_zero (S := S1024x64) origin2]

set_option maxHeartbeats 1000000 in
/-- Column block 3: the scratch at `s` ends at the update of `s`, and the output buffer, whatever it held, at
    the rectified update. -/
theorem runLast0 (c : Dev nD) (E : Set ℕ) (i : grid0.Coords)
    (arg2 : Memref sig .tc .vmem S1024x2048 .f32) (harg2 : arg2.IsWhole)
    (arg3 : Memref sig .tc .vmem S2048x512 .f32) (harg3 : arg3.IsWhole)
    (arg4 : Memref sig .tc .vmem S512x64 .f32) (harg4 : arg4.IsWhole)
    (arg5 : Memref sig .tc .vmem S1024x64 .f32) (harg5 : arg5.IsWhole)
    (arg6 : Memref sig .tc .vmem S1024x64 .f32) (harg6 : arg6.IsWhole)
    (hc0 : ¬atFirst0 i) (hc1 : atLast0 i)
    (xa : Vec F S1024x2048 .f32) (xx : Vec F S2048x512 .f32) (xw : Vec F S512x64 .f32) (s : Vec F S1024x64 .f32)
    (K : PUnit → sProp 𝕄) :
    iprop(owns (c : Thread nD τ) arg2 fullShare xa ∗ owns (c : Thread nD τ) arg3 fullShare xx
        ∗ owns (c : Thread nD τ) arg4 fullShare xw ∗ (∃ d, owns (c : Thread nD τ) arg5 fullShare d)
        ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg5 fullShare (k0_pay3 (k0_pay2 xx xw s xa))
            ∗ owns (c : Thread nD τ) arg6 fullShare (k0_pay2 xx xw s xa)) -∗ K ⟨⟩))
      ⊢ wp frame (wpE (defs₀ (F := F)) Variants.none c none) E (cc0__lambda_ i arg2 harg2 arg3 harg3 arg4 harg4 arg5 harg5 arg6 harg6) K := by
  simp only [cc0__lambda__eq_skeleton]; unfold cc0__lambda__skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons.mpr (Or.inl rfl), View.mem_set_unit_zero origin2 inb_S1024x64_S1024x64_0_0 y⟩)]
    rw [View.canon_unit_zero origin2]
    simp only [View.readAt_eq_ld, View.ld_unit_zero (S := S1024x2048) origin2, View.ld_unit_zero (S := S2048x512) origin2,
    View.ld_unit_zero (S := S512x64) origin2, View.ld_unit_zero (S := S1024x64) origin2, View.readCov_unit_zero (S := S1024x64) _ origin2]
  iexists _; isplitr
  swap; · iexact H6
  ipureintro
  sl_unfold_words
  rw [View.read_writes_eq_canon _ _ _ (fun y => ⟨_, List.mem_cons.mpr (Or.inl rfl), View.mem_set_unit_zero origin2 inb_S1024x64_S1024x64_0_0 y⟩)]
  rw [View.canon_unit_zero origin2]
  simp only [View.readAt_eq_ld, View.ld_unit_zero (S := S1024x2048) origin2, View.ld_unit_zero (S := S2048x512) origin2,
    View.ld_unit_zero (S := S512x64) origin2, View.ld_unit_zero (S := S1024x64) origin2]

/-! ## What the body finds in the inputs' buffers -/

/-- An input's buffer holds its block at every point, fetched there or not: where the pipeline does not fetch,
    the block index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- The weights are fetched once and never move. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The buffers the body is called with at a point -/

abbrev stgA0 (t : Fin cfg0.N) : Memref sig .tc .vmem S1024x2048 .f32 := win0_0.stage (cfg0.slots t 0)
abbrev stgX0 (t : Fin cfg0.N) : Memref sig .tc .vmem S2048x512 .f32 := win0_1.stage (cfg0.slots t 1)
abbrev stgW0 (t : Fin cfg0.N) : Memref sig .tc .vmem S512x64 .f32 := win0_2.stage (cfg0.slots t 2)
abbrev stgO0 (t : Fin cfg0.N) : Memref sig .tc .vmem S1024x64 .f32 := win0_3.stage (cfg0.slots t 3)

/-- An input's buffer is handed back at its block. -/
theorem leaves0_0 (c : Dev nD) (t : Fin cfg0.N) :
    (dat0 V c).leavesExact 0 t = owns (c : Thread nD τ) (stgA0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (stgX0 t) fullShare (iblk0 V c 1 t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (stgW0 t) fullShare (iblk0 V c 2 t) := by
  unfold Dat.leavesExact; rw [show cfg0.idle 2 (cfg0.grid.coords t) = false from rfl, after0_2]
/-- On column block 3 the output's buffer is handed back at the rectified accumulator. -/
theorem leaves0_3 (c : Dev nD) (t : Fin cfg0.N) (h3 : t.val % 4 = 3) :
    (dat0 V c).leavesExact 3 t = owns (c : Thread nD τ) (stgO0 t) fullShare (k0_pay3 (acc0 V c t.val t.isLt)) := by
  unfold Dat.leavesExact; rw [outLive0 t h3, after0_3]

/-- The invariant before any position yields the scratch at some contents. -/
theorem Phi0_forget (c : Dev nD) (n : ℕ) (h : n ≤ cfg0.N) :
    Phi0 V c n h ⊢ iprop((∃ d, owns (c : Thread nD τ) scM0 fullShare d) ∗ rest0 (F := F) c ∗ ∃ r, prngReg c r) := by
  cases n with
  | zero => exact Entails.refl _
  | succ n =>
    rw [Phi0_succ]
    iintro ⟨HS, Hr⟩
    isplitl [HS]; · iexists _; iexact HS
    iexact Hr

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (stgA0 t) fullShare ((dat0 V c).before 0 t d))
    ∗ (∃ d, owns (c : Thread nD τ) (stgX0 t) fullShare ((dat0 V c).before 1 t d))
    ∗ (∃ d, owns (c : Thread nD τ) (stgW0 t) fullShare ((dat0 V c).before 2 t d))
    ∗ (∃ d, owns (c : Thread nD τ) (stgO0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks. On column block 0 the scratch, whatever the
    invariant held it at, ends at the update of the zero block; on the others the invariant holds it at what the
    point before left and it ends at the update of that; either way at this point's accumulator. The output's buffer
    is handed back untouched off column block 3 and at the rectified accumulator on it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    Phi0_at_succ, Phi0_succ, Phi0_castSucc, leaves0_0, leaves0_1, leaves0_2]
  have hN : t.val < 32 := lt_of_lt_of_eq t.isLt (show cfg0.N = 32 from N_0)
  by_cases h0 : t.val % 4 = 0
  · have h3 : ¬t.val % 4 = 3 := by omega
    have hin : accIn0 V c t = k0_pay1 (F := F) := by unfold accIn0; exact if_pos h0
    rw [Dat.leavesExact_idle (dat0 V c) 3 t (outIdle0 t h3) (outKept0 t h3), acc0_eq V c t, hin]
    refine (sep_mono_left (Phi0_forget V c _ _)).trans ?_
    iintro ⟨⟨⟨%ds, HS⟩, Hr, Hg⟩, Ho, ⟨%d0, H0⟩, ⟨%d1, H1⟩, ⟨%d2, H2⟩, H3⟩
    iapply (runFirst0 c Set.univ (grid0.coords t) (stgA0 t) _ (stgX0 t) _ (stgW0 t) _ (stgO0 t) _ scM0 _
      ((atFirst0_iff t).mpr h0) (fun h => h3 ((atLast0_iff t).mp h)) (iblk0 V c 0 t) (iblk0 V c 1 t) (iblk0 V c 2 t) _)
    isplitl [H0]; · iexact H0
    isplitl [H1]; · iexact H1
    isplitl [H2]; · iexact H2
    isplitl [HS]; · iexists _; iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · have hz : t.val ≠ 0 := fun e => h0 (by rw [e])
    have hin : accIn0 V c t = acc0 V c (t.val - 1) (Nat.lt_of_le_of_lt (Nat.sub_le _ _) t.isLt) := by
      unfold accIn0; exact if_neg h0
    by_cases h3 : t.val % 4 = 3
    · rw [leaves0_3 V c t h3, acc0_eq V c t, hin, Phi0_pos V c _ _ hz]
      iintro ⟨⟨HS, Hr, Hg⟩, Ho, ⟨%d0, H0⟩, ⟨%d1, H1⟩, ⟨%d2, H2⟩, ⟨%d3, H3⟩⟩
      iapply (runLast0 c Set.univ (grid0.coords t) (stgA0 t) _ (stgX0 t) _ (stgW0 t) _ (stgO0 t) _ scM0 _
        (fun h => h0 ((atFirst0_iff t).mp h)) ((atLast0_iff t).mpr h3) (iblk0 V c 0 t) (iblk0 V c 1 t) (iblk0 V c 2 t)
        (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat0 V c) 3 t (outIdle0 t h3) (outKept0 t h3), acc0_eq V c t, hin, Phi0_pos V c _ _ hz]
      iintro ⟨⟨HS, Hr, Hg⟩, Ho, ⟨%d0, H0⟩, ⟨%d1, H1⟩, ⟨%d2, H2⟩, H3⟩
      iapply (runMiddle0 c Set.univ (grid0.coords t) (stgA0 t) _ (stgX0 t) _ (stgW0 t) _ (stgO0 t) _ scM0 _
        (fun h => h0 ((atFirst0_iff t).mp h)) (fun h => h3 ((atLast0_iff t).mp h)) (iblk0 V c 0 t) (iblk0 V c 1 t) (iblk0 V c 2 t)
        (acc0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point: the scratch among the scoped
    buffers at some contents. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [scopedRest0_rest (F := F) c, show (dat0 V c).Φ 0 = Phi0 V c 0 (Nat.zero_le _) from rfl, Phi0_zero]
  iintro ⟨Hg, HS, Hr⟩
  isplitl [HS]; · iexact HS
  isplitl [Hr]; · iexact Hr
  iexact Hg

/-- After the last point the invariant gives the same back: what the scratch holds is forgotten. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [scopedRest0_rest (F := F) c,
    show (dat0 V c).Φ (Fin.last cfg0.N) = Phi0 V c (Fin.last cfg0.N).val (Nat.le_of_lt_succ (Fin.last cfg0.N).isLt) from rfl]
  refine (Phi0_forget V c _ _).trans ?_
  iintro ⟨HS, Hr, Hg⟩
  isplitl [Hg]; · iexact Hg
  isplitl [HS]; · iexact HS
  iexact Hr

end Cert.KernelIdeal.Hand

end
-- ==== Proof.IdealR1.lean ====
/-
  The body obligation of kernel region 1, the second graph-convolution layer, at any float instance and at any
  contents `V` of the TensorCore's buffers when the region is entered.

  The grid is 8 row blocks by 4 column blocks of the adjacency matrix, the column block moving fastest: point `t`
  is row block `t / 4`, column block `t % 4`. The body has two conditionals on the column block. At column block 0
  it first resets the scratch accumulator to the zero block. At every point it loads the feature block, the
  weights, the accumulator and the adjacency block, and stores into the scratch the accumulator plus the product
  of the adjacency block with (the feature block times the weights). At column block 3 it then copies the scratch
  into the output block. So there are three cases: column block 0 (reset, no output), column blocks 1 and 2
  (neither), column block 3 (output). Each is proved once over arbitrary whole memrefs and arbitrary contents,
  and the obligation at a point applies the case its column block selects: the inputs' buffers hold their blocks
  whether or not they were fetched there, the invariant carries the accumulator from one point to the next, and
  the output window is idle, and handed back as found, off column block 3.
-/
import proofs.«158966_j8074538516900_1_alg».proof.Proof.IdealDats
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, over the grid -/

/-- The body's first condition: the column block is 0 (the scratch is reset). -/
abbrev condFirst1 (i : grid1.Coords) : Prop :=
  (Scalar.cmpi .ne (Scalar.extui (Scalar.cmpi .eq (BitVec.ofNat 32 (i 1).val) 0#32)) 0#32) = 1#1
/-- The body's second condition: the column block is 3 (the accumulator is stored into the output block). -/
abbrev condLast1 (i : grid1.Coords) : Prop := k1_cond2 i = 1#1

/-- The first condition holds exactly at the points of column block 0. -/
theorem hcondFirst1 : ∀ t : Fin cfg1.N, condFirst1 (grid1.coords t) ↔ t.val % 4 = 0 :=
  (by decide +kernel : ∀ t : Fin grid1.N, condFirst1 (grid1.coords t) ↔ t.val % 4 = 0)
/-- The second condition holds exactly at the points of column block 3. -/
theorem hcondLast1 : ∀ t : Fin cfg1.N, condLast1 (grid1.coords t) ↔ t.val % 4 = 3 :=
  (by decide +kernel : ∀ t : Fin grid1.N, condLast1 (grid1.coords t) ↔ t.val % 4 = 3)

/-- The output window is idle off column block 3, -/
theorem idleAt1_3 : ∀ t : Fin cfg1.N, ¬t.val % 4 = 3 → cfg1.idle 3 (grid1.coords t) = true :=
  (by decide +kernel : ∀ t : Fin grid1.N, ¬t.val % 4 = 3 → cfg1.idle 3 (grid1.coords t) = true)
/-- live at it, -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)
/-- and not written back off it. -/
theorem noFlush1_3 (t : Fin cfg1.N) (h : ¬t.val % 4 = 3) : (cfg1.win 3).flush t = false :=
  Bool.eq_false_iff.mpr fun hf => h ((flush1_3 t).mp hf)

/-! ## The body on any whole memrefs, case by case -/

/-- The whole-block rectangle's offsets are zero. -/
theorem hzero1 : (![0, 0] : Fin 2 → Nat) = fun _ => 0 := funext fun a => by fin_cases a <;> rfl

/-- A list of stores into a 1024 x 33 buffer whose last store is of the whole block covers the buffer. -/
theorem cover_whole1 (p : Vec F S1024x33 .f32) (L : List (View.Piece (Elt F) S1024x33 .f32)) (y : S1024x33.Idx) :
    ∃ pc ∈ ((⟨Rect.unit (s := S1024x33) ![0, 0] S1024x33.size inb_S1024x33_S1024x33_0_0, p⟩ :: L :
      List (View.Piece (Elt F) S1024x33 .f32))), y ∈ pc.1.set :=
  ⟨_, List.mem_cons_self, View.mem_set_unit_zero hzero1 inb_S1024x33_S1024x33_0_0 y⟩

set_option maxHeartbeats 1000000 in
/-- Column block 0: the scratch, whatever it held, is reset to the zero block and then holds the point's update
    of the zero block; the inputs are left as they were and the output buffer is not touched. -/
theorem run_first1 (c : Dev nD) (E : Set ℕ) (i : grid1.Coords)
    (arg2 : Memref sig .tc .vmem S1024x2048 .f32) (harg2 : arg2.IsWhole)
    (arg3 : Memref sig .tc .vmem S2048x64 .f32) (harg3 : arg3.IsWhole)
    (arg4 : Memref sig .tc .vmem S64x33 .f32) (harg4 : arg4.IsWhole)
    (arg5 : Memref sig .tc .vmem S1024x33 .f32) (harg5 : arg5.IsWhole)
    (arg6 : Memref sig .tc .vmem S1024x33 .f32) (harg6 : arg6.IsWhole)
    (hc0 : condFirst1 i) (hc1 : ¬condLast1 i)
    (xa : Vec F S1024x2048 .f32) (xx : Vec F S2048x64 .f32) (xw : Vec F S64x33 .f32) (s : Vec F S1024x33 .f32)
    (K : PUnit → sProp 𝕄) :
    iprop(owns (c : Thread nD τ) arg2 fullShare xa ∗ owns (c : Thread nD τ) arg3 fullShare xx
        ∗ owns (c : Thread nD τ) arg4 fullShare xw ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg6 fullShare (k1_pay2 xx xw (k1_pay1 (F := F)) xa)) -∗ K ⟨⟩))
      ⊢ wp frame (wpE (defs₀ (F := F)) Variants.none c none) E
          (cc1__lambda_ i arg2 harg2 arg3 harg3 arg4 harg4 arg5 harg5 arg6 harg6) K := by
  simp only [cc1__lambda__eq_skeleton]; unfold cc1__lambda__skel
  unfold owns
  iintro ⟨⟨%f2, %hf2, H2⟩, ⟨%f3, %hf3, H3⟩, ⟨%f4, %hf4, H4⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (cover_whole1 _ _), View.canon_cons_unit_zero hzero1]
  sl_unfold_words
  rw [View.readCov_unit_zero _ hzero1]
  simp only [View.readAt_eq_ld, View.ld_unit_zero (S := S1024x33) hzero1, View.ld_unit_zero (S := S2048x64) hzero1,
    View.ld_unit_zero (S := S64x33) hzero1, View.ld_unit_zero (S := S1024x2048) hzero1]

set_option maxHeartbeats 1000000 in
/-- Column blocks 1 and 2: the scratch holds the point's update of what it held; nothing else changes. -/
theorem run_middle1 (c : Dev nD) (E : Set ℕ) (i : grid1.Coords)
    (arg2 : Memref sig .tc .vmem S1024x2048 .f32) (harg2 : arg2.IsWhole)
    (arg3 : Memref sig .tc .vmem S2048x64 .f32) (harg3 : arg3.IsWhole)
    (arg4 : Memref sig .tc .vmem S64x33 .f32) (harg4 : arg4.IsWhole)
    (arg5 : Memref sig .tc .vmem S1024x33 .f32) (harg5 : arg5.IsWhole)
    (arg6 : Memref sig .tc .vmem S1024x33 .f32) (harg6 : arg6.IsWhole)
    (hc0 : ¬condFirst1 i) (hc1 : ¬condLast1 i)
    (xa : Vec F S1024x2048 .f32) (xx : Vec F S2048x64 .f32) (xw : Vec F S64x33 .f32) (s : Vec F S1024x33 .f32)
    (K : PUnit → sProp 𝕄) :
    iprop(owns (c : Thread nD τ) arg2 fullShare xa ∗ owns (c : Thread nD τ) arg3 fullShare xx
        ∗ owns (c : Thread nD τ) arg4 fullShare xw ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg6 fullShare (k1_pay2 xx xw s xa)) -∗ K ⟨⟩))
      ⊢ wp frame (wpE (defs₀ (F := F)) Variants.none c none) E
          (cc1__lambda_ i arg2 harg2 arg3 harg3 arg4 harg4 arg5 harg5 arg6 harg6) K := by
  simp only [cc1__lambda__eq_skeleton]; unfold cc1__lambda__skel
  unfold owns
  iintro ⟨⟨%f2, %hf2, H2⟩, ⟨%f3, %hf3, H3⟩, ⟨%f4, %hf4, H4⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (cover_whole1 _ _), View.canon_unit_zero hzero1]
  simp only [View.readAt_eq_ld, View.ld_unit_zero (S := S1024x33) hzero1, View.ld_unit_zero (S := S2048x64) hzero1,
    View.ld_unit_zero (S := S64x33) hzero1, View.ld_unit_zero (S := S1024x2048) hzero1]

set_option maxHeartbeats 1000000 in
/-- Column block 3: the scratch holds the point's update of what it held, and the output buffer, whatever it
    held, holds the same block. -/
theorem run_last1 (c : Dev nD) (E : Set ℕ) (i : grid1.Coords)
    (arg2 : Memref sig .tc .vmem S1024x2048 .f32) (harg2 : arg2.IsWhole)
    (arg3 : Memref sig .tc .vmem S2048x64 .f32) (harg3 : arg3.IsWhole)
    (arg4 : Memref sig .tc .vmem S64x33 .f32) (harg4 : arg4.IsWhole)
    (arg5 : Memref sig .tc .vmem S1024x33 .f32) (harg5 : arg5.IsWhole)
    (arg6 : Memref sig .tc .vmem S1024x33 .f32) (harg6 : arg6.IsWhole)
    (hc0 : ¬condFirst1 i) (hc1 : condLast1 i)
    (xa : Vec F S1024x2048 .f32) (xx : Vec F S2048x64 .f32) (xw : Vec F S64x33 .f32) (s : Vec F S1024x33 .f32)
    (o : Vec F S1024x33 .f32)
    (K : PUnit → sProp 𝕄) :
    iprop(owns (c : Thread nD τ) arg2 fullShare xa ∗ owns (c : Thread nD τ) arg3 fullShare xx
        ∗ owns (c : Thread nD τ) arg4 fullShare xw ∗ owns (c : Thread nD τ) arg5 fullShare o
        ∗ owns (c : Thread nD τ) arg6 fullShare s
        ∗ (iprop(owns (c : Thread nD τ) arg2 fullShare xa ∗ owns (c : Thread nD τ) arg3 fullShare xx
            ∗ owns (c : Thread nD τ) arg4 fullShare xw
            ∗ owns (c : Thread nD τ) arg5 fullShare (k1_pay2 xx xw s xa)
            ∗ owns (c : Thread nD τ) arg6 fullShare (k1_pay2 xx xw s xa)) -∗ K ⟨⟩))
      ⊢ wp frame (wpE (defs₀ (F := F)) Variants.none c none) E
          (cc1__lambda_ i arg2 harg2 arg3 harg3 arg4 harg4 arg5 harg5 arg6 harg6) K := by
  simp only [cc1__lambda__eq_skeleton]; unfold cc1__lambda__skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_whole1 _ _), View.canon_unit_zero hzero1]
    sl_unfold_words
    rw [View.readCov_unit_zero _ hzero1]
    simp only [View.readAt_eq_ld, View.ld_unit_zero (S := S1024x33) hzero1, View.ld_unit_zero (S := S2048x64) hzero1,
    View.ld_unit_zero (S := S64x33) hzero1, View.ld_unit_zero (S := S1024x2048) hzero1]
  iexists _; isplitr
  swap; · iexact H6
  ipureintro
  sl_unfold_words
  rw [View.read_writes_eq_canon _ _ _ (cover_whole1 _ _), View.canon_unit_zero hzero1]
  simp only [View.readAt_eq_ld, View.ld_unit_zero (S := S1024x33) hzero1, View.ld_unit_zero (S := S2048x64) hzero1,
    View.ld_unit_zero (S := S64x33) hzero1, View.ld_unit_zero (S := S1024x2048) hzero1]

/-! ## What the body finds in the inputs' buffers -/

/-- The adjacency window's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- The feature window's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- The weights' buffer, filled at the first point only, holds the weights at every point: their block index
    never moves. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The invariant before the first point. -/
theorem Phi1_of_zero (c : Dev nD) (n : ℕ) (h : n ≤ cfg1.N) (hz : n = 0) :
    Phi1 V c n h = iprop((∃ d, owns (c : Thread nD τ) scM1 fullShare d) ∗ rest1 (F := F) c ∗ ∃ r, prngReg c r) := by
  subst hz; rfl

/-! ## The body obligation, at a generic point -/

/-- What the body is called with at point `t`: the invariant, the core's debt, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the column block says which of the three cases
    the point is in. The invariant hands the scratch over (at anything before the first point, at what the point
    before left afterwards) and takes it back at this point's accumulator, which is the point's update of the zero
    block at column block 0 and of the accumulator before otherwise. The output buffer comes back untouched off
    column block 3 and holding the accumulator at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_at_succ, Phi1_succ, Phi1_castSucc]
  rw [show (dat1 V c).leavesExact 0 t = owns (c : Thread nD τ) (win1_0.stage (cfg1.slots t 0)) fullShare ((dat1 V c).after 0 t) from rfl, after1_0]
  rw [show (dat1 V c).leavesExact 1 t = owns (c : Thread nD τ) (win1_1.stage (cfg1.slots t 1)) fullShare ((dat1 V c).after 1 t) from rfl, after1_1]
  rw [show (dat1 V c).leavesExact 2 t = owns (c : Thread nD τ) (win1_2.stage (cfg1.slots t 2)) fullShare ((dat1 V c).after 2 t) from rfl, after1_2]
  have hN : t.val < 32 := lt_of_lt_of_eq t.isLt (show cfg1.N = 32 from N_1)
  by_cases h0 : t.val % 4 = 0
  · have h3 : ¬t.val % 4 = 3 := by omega
    rw [Dat.leavesExact_idle (dat1 V c) 3 t (idleAt1_3 t h3) (noFlush1_3 t h3)]
    rw [acc1_eq V c t]
    unfold accIn1; rw [if_pos h0]
    by_cases hz : t.val = 0
    · rw [Phi1_of_zero V c _ _ hz]
      iintro ⟨⟨⟨%s, HS⟩, Hr, Hg⟩, Ho, ⟨%d0, H0⟩, ⟨%d1, H1⟩, ⟨%d2, H2⟩, H3⟩
      iapply (run_first1 c Set.univ (grid1.coords t) _ _ _ _ _ _ _ _ _ _ ((hcondFirst1 t).mpr h0)
        (fun h => h3 ((hcondLast1 t).mp h)) (iblk1 V c 0 t) (iblk1 V c 1 t) (iblk1 V c 2 t) s _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Phi1_pos V c _ _ hz]
      iintro ⟨⟨HS, Hr, Hg⟩, Ho, ⟨%d0, H0⟩, ⟨%d1, H1⟩, ⟨%d2, H2⟩, H3⟩
      iapply (run_first1 c Set.univ (grid1.coords t) _ _ _ _ _ _ _ _ _ _ ((hcondFirst1 t).mpr h0)
        (fun h => h3 ((hcondLast1 t).mp h)) (iblk1 V c 0 t) (iblk1 V c 1 t) (iblk1 V c 2 t) _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
  · have hz : t.val ≠ 0 := fun e => h0 (by rw [e])
    by_cases h3 : t.val % 4 = 3
    · rw [show (dat1 V c).leavesExact 3 t = owns (c : Thread nD τ) (win1_3.stage (cfg1.slots t 3)) fullShare ((dat1 V c).after 3 t) from by
        unfold Dat.leavesExact; rw [liveAt1_3 t h3], after1_3]
      rw [acc1_eq V c t]
      unfold accIn1; rw [if_neg h0, Phi1_pos V c _ _ hz]
      iintro ⟨⟨HS, Hr, Hg⟩, Ho, ⟨%d0, H0⟩, ⟨%d1, H1⟩, ⟨%d2, H2⟩, ⟨%d3, H3⟩⟩
      iapply (run_last1 c Set.univ (grid1.coords t) _ _ _ _ _ _ _ _ _ _ (fun h => h0 ((hcondFirst1 t).mp h))
        ((hcondLast1 t).mpr h3) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h3) (noFlush1_3 t h3)]
      rw [acc1_eq V c t]
      unfold accIn1; rw [if_neg h0, Phi1_pos V c _ _ hz]
      iintro ⟨⟨HS, Hr, Hg⟩, Ho, ⟨%d0, H0⟩, ⟨%d1, H1⟩, ⟨%d2, H2⟩, H3⟩
      iapply (run_middle1 c Set.univ (grid1.coords t) _ _ _ _ _ _ _ _ _ _ (fun h => h0 ((hcondFirst1 t).mp h))
        (fun h => h3 ((hcondLast1 t).mp h)) (iblk1 V c 0 t) (iblk1 V c 1 t) (iblk1 V c 2 t) _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point: the scratch at anything. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Phi1 V c 0 (Nat.zero_le _) from rfl, Phi1_zero, scopedRest1_rest]
  iintro ⟨Hg, HS, Hr⟩
  isplitl [HS]; · iexact HS
  isplitl [Hr]; · iexact Hr
  iexact Hg

/-- After the last point the invariant gives it back: the accumulator the scratch holds is forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), scopedRest1_rest]
  iintro ⟨HS, Hr, Hg⟩
  isplitl [Hg]; · iexact Hg
  isplitl [HS]; · iexists _; iexact HS
  iexact Hr

end Cert.KernelIdeal.Hand

end
-- ==== Proof.IdealR2.lean ====
/-
  Region 2, the decoder: its body at every grid point.

  The grid is 8 row blocks by 16 column blocks of the output. The body has no branch and keeps nothing from one
  point to the next: it loads its four input blocks whole, loads the output buffer (the value is not used) and
  stores one value, a function of the four loaded blocks, over the whole output block. So at every point each
  input's buffer is left as found, holding the input's block there, and the output's buffer is left at that
  function of the four blocks; the region's invariant is constant and nothing is owed.
-/
import proofs.«158966_j8074538516900_1_alg».proof.Proof.IdealDats
import proofs.«158966_j8074538516900_1_alg».proof.Proof.Gen.KernelIdeal.Launch
import proofs.«158966_j8074538516900_1_alg».proof.Proof.Gen.KernelIdeal.Skeleton
import proofs.«158966_j8074538516900_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input's buffer holds when the body is called -/

/-- Input window 0 (a row block of the latent array, fetched only at the first column block of each row block)
    holds its block at every point: where it is not fetched its block index has not moved since the fetch, and
    the body leaves the buffer as found. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
/-- Input window 1 (a column block's rows of the latent array) holds its block at every point. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
/-- Input window 2 holds its block at every point. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
/-- Input window 3 holds its block at every point. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body's run -/

/-- The two zero offsets of a whole-block access are the zero function. -/
theorem offsets_zero2 : (![0, 0] : Fin 2 → Nat) = fun _ => 0 := funext fun a => by fin_cases a <;> rfl

/-- The one store of the body is over the whole output buffer: every index of the buffer is under it. -/
theorem cover2 (p : Vec F S1024x512 .f32) (y : S1024x512.Idx) :
    ∃ pc ∈ ([⟨Rect.unit (s := S1024x512) ![0, 0] S1024x512.size inb_S1024x512_S1024x512_0_0, p⟩] :
        List (View.Piece (Elt F) S1024x512 .f32)), y ∈ pc.1.set :=
  ⟨_, List.mem_singleton_self _, View.mem_set_unit_zero offsets_zero2 inb_S1024x512_S1024x512_0_0 y⟩

set_option maxHeartbeats 1000000 in
/-- The decoder's body on whole buffers, the four inputs' at read contents `x0 … x3` and the output's at anything:
    it runs to the continuation holding the inputs' as they were and the output's at the stored value of the four
    contents. Its one store covers the whole output buffer, so what is read back is the stored value itself, and
    each whole-buffer load reads the buffer's contents. -/
theorem sound_kernel2 (c : Dev nD) (E : Set ℕ) (i : grid2.Coords)
    (arg2 : Memref sig .tc .vmem S1024x32 .f32) (harg2 : arg2.IsWhole)
    (arg3 : Memref sig .tc .vmem S512x32 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1024x512 .f32) (harg6 : arg6.IsWhole)
    (x0 : Vec F S1024x32 .f32) (x1 : Vec F S512x32 .f32) (x2 x3 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay1 x0 x1 x2 x3)) -∗ K ⟨⟩))
      ⊢ wp frame (wpE (defs₀ (F := F)) Variants.none c none) E
          (cc2__decode_kernel i arg2 harg2 arg3 harg3 arg4 harg4 arg5 harg5 arg6 harg6) K := by
  simp only [cc2__decode_kernel_eq_skeleton]; unfold cc2__decode_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover2 _), View.canon_unit_zero offsets_zero2]
  simp only [View.readAt_eq_ld, View.ld_unit_zero (S := S1024x32) offsets_zero2,
    View.ld_unit_zero (S := S512x32) offsets_zero2, View.ld_unit_zero (S := S1x512) offsets_zero2]

/-! ## The body obligation -/

/-- What the body is called with at point `t`: the invariant, what the core owes, and every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it returns: the same at the next point, every buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the run above applies at the four blocks; the
    invariant and what the core owes are the same before and after, and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealR2Share.lean ====
/-
  Region 2's arrays among the core's unscoped buffers, at any float instance.

  The decoder's five windows stand on four arrays: windows 0 and 1 both read `main_v2`, window 2 reads
  `main_v6`, window 3 reads `main_v7`, window 4 is the output `main_v8`. The proof data holds the shared
  array once per window, at the two halves of the full share, and every other array at the full share. A
  points-to at the full share is the two at its halves, so the four distinct buffers, each whole at the full
  share, are the five windows' arrays: at the region's entry the core's unscoped buffers split into the
  windows' arrays at their entry contents and the unscoped rest, and at its exit the windows' arrays at their
  final contents and the rest join into the unscoped buffers at any valuation that has the output there and
  agrees with the entry's elsewhere (an input's array is never written).
-/
import proofs.«158966_j8074538516900_1_alg».proof.Proof.IdealDats
import proofs.«158966_j8074538516900_1_alg».proof.Proof.Gen.KernelIdeal.Launch
import proofs.«158966_j8074538516900_1_alg».proof.Proof.Gen.KernelIdeal.Skeleton
import proofs.«158966_j8074538516900_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four arrays behind the five windows -/

/-- The windows' arrays are four buffers: the shared input (under windows 0 and 1), two more inputs, the output. -/
theorem arrImage2 : Finset.univ.image (Pipeline.arrRef spec2) = {main_v2, main_v6, main_v7, main_v8} := by decide

/-- The distinct buffers behind the windows' arrays, one by one, each whole at the full share. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v2) ↦{fullShare} W main_v2) ∗ (((c : Thread nD τ).loc main_v6) ↦{fullShare} W main_v6)
          ∗ (((c : Thread nD τ).loc main_v7) ↦{fullShare} W main_v7) ∗ (((c : Thread nD τ).loc main_v8) ↦{fullShare} W main_v8)) := by
  unfold Pipeline.arrBufs
  rw [arrImage2, bigSep_insert (by decide), bigSep_insert (by decide), bigSep_insert (by decide), bigSep_singleton]
  rfl

/-- The windows' arrays at contents `G`, one by one: every array is a whole buffer; the shared array is held
    at the left half by window 0 and at the right half by window 1, the others at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v2) ↦{fullShare.left} G 0) ∗ (((c : Thread nD τ).loc main_v2) ↦{fullShare.right} G 1)
          ∗ (((c : Thread nD τ).loc main_v6) ↦{fullShare} G 2) ∗ (((c : Thread nD τ).loc main_v7) ↦{fullShare} G 3)
          ∗ (((c : Thread nD τ).loc main_v8) ↦{fullShare} G 4)) := by
  unfold Dat.arrays
  rw [Gen.bigSep_W2]
  rw [(Gen.arr_whole2 0).set_eq_univ, (Gen.arr_whole2 2).set_eq_univ, (Gen.arr_whole2 3).set_eq_univ, (Gen.arr_whole2 4).set_eq_univ]
  rfl

/-- The core's unscoped buffers at contents `W` are the four buffers behind the windows' arrays and the rest. -/
theorem unscopedBufs2_split (c : Dev nD) (W : (b : Ref sig .tc) → Buf (Elt F) ((c : Thread nD τ).loc b)) :
    (unscopedBufs c W : sProp 𝕄)
      = iprop(Pipeline.arrBufs spec2 c W ∗ Pipeline.unscopedRest (Ix := Unit) (Name := ℕ) (U := UR sig nD τ) (Lvl := ℕ) spec2 c W) :=
  Pipeline.unscopedBufs_split₀ cfgs 2 Gen.winFacts₀2.arr_unscoped c W

/-! ## Entry and exit -/

/-- ENTRY: the core's unscoped buffers at the entry contents are the windows' arrays at the proof data's entry
    contents — the shared array's full share split into its halves — and the unscoped rest. -/
theorem entry2 (c : Dev nD) :
    (unscopedBufs c (V c) : sProp 𝕄)
      ⊢ iprop((dat2 V c).arrays ((dat2 V c).arrAt · 0) ∗ Pipeline.unscopedRest (Ix := Unit) (Name := ℕ) (U := UR sig nD τ) (Lvl := ℕ) spec2 c (V c)) := by
  rw [unscopedBufs2_split, arrBufs2_eq, arrays2_eq]
  iintro ⟨⟨H2, H6, H7, H8⟩, HR⟩
  ihave H2 := (pointsTo_share (PosShare.mem_left_op_right fullShare)).1 $$ H2
  icases H2 with ⟨Hl, Hr⟩
  isplitr [HR]
  · isplitl [Hl]; · iexact Hl
    isplitl [Hr]; · iexact Hr
    isplitl [H6]; · iexact H6
    isplitl [H7]; · iexact H7
    iexact H8
  · iexact HR

/-- EXIT: the windows' arrays at their final contents and the unscoped rest at the entry contents are the core's
    unscoped buffers at any valuation `V'` that has the output's final contents at the output and the entry
    contents elsewhere: the inputs' arrays were never written, and the shared array's two halves join. -/
theorem exit2 (c : Dev nD) (V' : (b : Ref sig .tc) → Buf (Elt F) ((c : Thread nD τ).loc b))
    (h8 : V' main_v8 = (dat2 V c).arrAt 4 cfg2.N) (hrest : ∀ b, b ≠ main_v8 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs c V' : sProp 𝕄) := by
  have hr : (Pipeline.unscopedRest (Ix := Unit) (Name := ℕ) (U := UR sig nD τ) (Lvl := ℕ) spec2 c V' : sProp 𝕄) = Pipeline.unscopedRest spec2 c (V c) := by
    unfold Pipeline.unscopedRest
    refine bigSep_congr fun b hb => ?_
    rw [hrest b (fun h => (Finset.mem_sdiff.mp hb).2 (by rw [h, arrImage2]; decide))]
  rw [unscopedBufs2_split, hr, arrBufs2_eq, arrays2_eq]
  rw [(dat2 V c).arrAt_in 0 rfl, (dat2 V c).arrAt_in 1 rfl, (dat2 V c).arrAt_in 2 rfl, (dat2 V c).arrAt_in 3 rfl, ← h8]
  rw [hrest main_v2 (by decide), hrest main_v6 (by decide), hrest main_v7 (by decide)]
  iintro ⟨⟨Hl, Hr, H6, H7, H8⟩, HR⟩
  isplitr [HR]
  · isplitl [Hl Hr]
    · iapply (pointsTo_share (PosShare.mem_left_op_right fullShare)).2
      isplitl [Hl]; · iexact Hl
      iexact Hr
    isplitl [H6]; · iexact H6
    isplitl [H7]; · iexact H7
    iexact H8
  · iexact HR

end Cert.KernelIdeal.Hand

end
-- ==== Proof.IdealRegs.lean ====
/-
  The three kernel regions of @main as segment records, and the run of @main over them.

  Between two items of @main the core holds every unscoped buffer whole, at contents that are known by name:
  the launch contents; after region 0 the same with the hidden layer's array at what the region's write-backs
  leave; after region 1 likewise with the encoder's result; then the seven host lines' results; after region 2 the
  output array at what its write-backs leave. Beside the buffers ride the generator register, at some state, and
  the core's debt, at nothing. Each region record says how that state splits into the region's arrays and the
  rest at the entry and is put together again at the exit; the regions' invariants take the generator register
  and the scoped buffers in and give them back.
-/
import proofs.«158966_j8074538516900_1_alg».proof.Proof.Gen.KernelIdeal.Regions
import proofs.«158966_j8074538516900_1_alg».proof.Proof.IdealR0
import proofs.«158966_j8074538516900_1_alg».proof.Proof.IdealR1
import proofs.«158966_j8074538516900_1_alg».proof.Proof.IdealR2
import proofs.«158966_j8074538516900_1_alg».proof.Proof.IdealR2Share
import proofs.«158966_j8074538516900_1_alg».proof.Proof.IdealDats
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the items of @main -/

/-- At launch, read at the TensorCore's references. -/
abbrev U0 : (c : Dev nD) → (b : Ref sig .tc) → Buf (Elt F) ((c : Thread nD τ).loc b) := fun c b => V0 m c b
/-- The hidden layer's array after region 0. -/
def X0 (c : Dev nD) : Buf (Elt F) ((c : Thread nD τ).loc main_v0) := (dat0 (U0 m) c).arrAt 3 cfg0.N
/-- After region 0. -/
abbrev W1 (c : Dev nD) : Valuation τ sig (Elt F) := Function.update (V0 m c) main_v0 (X0 m c)
abbrev U1 : (c : Dev nD) → (b : Ref sig .tc) → Buf (Elt F) ((c : Thread nD τ).loc b) := fun c b => W1 m c b
/-- The encoder's result after region 1. -/
def X1 (c : Dev nD) : Buf (Elt F) ((c : Thread nD τ).loc main_v1) := (dat1 (U1 m) c).arrAt 3 cfg1.N
/-- After region 1, and after the host lines that follow it. -/
abbrev W2 (c : Dev nD) : Valuation τ sig (Elt F) := Function.update (W1 m c) main_v1 (X1 m c)
abbrev U2 : (c : Dev nD) → (b : Ref sig .tc) → Buf (Elt F) ((c : Thread nD τ).loc b) := fun c b => W2 m c b
abbrev W3 (c : Dev nD) : Valuation τ sig (Elt F) := StableHlo.after hostOps2 (W2 m c)
abbrev U3 : (c : Dev nD) → (b : Ref sig .tc) → Buf (Elt F) ((c : Thread nD τ).loc b) := fun c b => W3 m c b
/-- The output array after region 2. -/
def X8 (c : Dev nD) : Buf (Elt F) ((c : Thread nD τ).loc main_v8) := (dat2 (U3 m) c).arrAt 4 cfg2.N
abbrev W4 (c : Dev nD) : Valuation τ sig (Elt F) := Function.update (W3 m c) main_v8 (X8 m c)
abbrev U4 : (c : Dev nD) → (b : Ref sig .tc) → Buf (Elt F) ((c : Thread nD τ).loc b) := fun c b => W4 m c b

/-- What the regions leave, as the generated valuations read it. -/
def outs : Outs (F := F) := fun _ r c =>
  if h : r = main_v0 then h ▸ X0 m c
  else if h : r = main_v1 then h ▸ X1 m c
  else if h : r = main_v8 then h ▸ X8 m c
  else V0 m c r

theorem outs_v0 (c : Dev nD) : outs m 1 main_v0 c = X0 m c := by unfold outs; rw [dif_pos rfl]
theorem outs_v1 (c : Dev nD) : outs m 2 main_v1 c = X1 m c := by
  unfold outs; rw [dif_neg (by decide), dif_pos rfl]
theorem outs_v8 (c : Dev nD) : outs m 4 main_v8 c = X8 m c := by
  unfold outs; rw [dif_neg (by decide), dif_neg (by decide), dif_pos rfl]

theorem V1_eq (c : Dev nD) : V1 m (outs m) c = W1 m c := by
  show Function.update (V0 m c) main_v0 (outs m 1 main_v0 c) = _; rw [outs_v0]
theorem V2_eq (c : Dev nD) : V2 m (outs m) c = W2 m c := by
  show Function.update (V1 m (outs m) c) main_v1 (outs m 2 main_v1 c) = _; rw [outs_v1, V1_eq]
theorem V3_eq (c : Dev nD) : V3 m (outs m) c = W3 m c := by
  show StableHlo.after hostOps2 (V2 m (outs m) c) = _; rw [V2_eq]
theorem V4_eq (c : Dev nD) : V4 m (outs m) c = W4 m c := by
  show Function.update (V3 m (outs m) c) main_v8 (outs m 4 main_v8 c) = _; rw [outs_v8, V3_eq]

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (U0 m) c
  | ⟨1, _⟩ => fun c => dat1 (U1 m) c
  | ⟨2, _⟩ => fun c => dat2 (U3 m) c

/-- No core owes another anything: no level is assigned. -/
abbrev L : GSem nD τ sig → Finset Unit := fun _ => ∅
abbrev lv : GSem nD τ sig → Unit → ℕ := fun _ _ => 0
/-- Beside the buffers: the generator register at some state, the core's debt at nothing. -/
abbrev R (c : Dev nD) : sProp 𝕄 := iprop((∃ r, prngReg c r) ∗ ∃ W, owes (c : Thread nD τ) (0 : CellTallies nD τ sig Unit) W)

/-! ## Region 0 -/

theorem hF0 (c : Dev nD) (w : Fin cfg0.W) : (dat0 (U0 m) c).arrAt w cfg0.N = U1 m c (Pipeline.arrRef spec0 w) := by
  match w with
  | ⟨0, _⟩ => exact ((dat0 (U0 m) c).arrAt_in 0 rfl _).trans ((A_eq0 (U0 m) c 0).trans (Function.update_of_ne (StableHlo.devRef_ne_of_ne (by decide)) _ _).symm)
  | ⟨1, _⟩ => exact ((dat0 (U0 m) c).arrAt_in 1 rfl _).trans ((A_eq0 (U0 m) c 1).trans (Function.update_of_ne (StableHlo.devRef_ne_of_ne (by decide)) _ _).symm)
  | ⟨2, _⟩ => exact ((dat0 (U0 m) c).arrAt_in 2 rfl _).trans ((A_eq0 (U0 m) c 2).trans (Function.update_of_ne (StableHlo.devRef_ne_of_ne (by decide)) _ _).symm)
  | ⟨3, _⟩ =>
    show X0 m c = Function.update (V0 m c) (Proc.devRef .tc main_v0) (X0 m c) (Proc.devRef .tc main_v0)
    rw [Function.update_self]
theorem hrest0 (c : Dev nD) : ∀ b, b ∉ Finset.univ.image (Pipeline.arrRef spec0) → U1 m c b = U0 m c b := fun b hb =>
  Function.update_of_ne (StableHlo.devRef_ne_of_ne fun e => hb (Finset.mem_image.mpr ⟨3, Finset.mem_univ _, e.symm⟩)) _ _

set_option backward.isDefEq.respectTransparency.types false in
/-- REGION 0, entered from the launch contents and left with the hidden layer's array at `X0`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U0 m) c).Φ 0 from rfl]
    iintro ⟨Hp, -, Hr⟩
    iapply (hin0 (U0 m) c)
    isplitl [Hp]; · iexact Hp
    iexact Hr
  hout c := by
    rw [Pipeline.ownSems0_none, show (pdats m 0 c).Φ (Fin.last _) = (dat0 (U0 m) c).Φ (Fin.last cfg0.N) from rfl]
    iintro H
    ihave H' := (hout0 (U0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem hF1 (c : Dev nD) (w : Fin cfg1.W) : (dat1 (U1 m) c).arrAt w cfg1.N = U2 m c (Pipeline.arrRef spec1 w) := by
  match w with
  | ⟨0, _⟩ => exact ((dat1 (U1 m) c).arrAt_in 0 rfl _).trans ((A_eq1 (U1 m) c 0).trans (Function.update_of_ne (StableHlo.devRef_ne_of_ne (by decide)) _ _).symm)
  | ⟨1, _⟩ => exact ((dat1 (U1 m) c).arrAt_in 1 rfl _).trans ((A_eq1 (U1 m) c 1).trans (Function.update_of_ne (StableHlo.devRef_ne_of_ne (by decide)) _ _).symm)
  | ⟨2, _⟩ => exact ((dat1 (U1 m) c).arrAt_in 2 rfl _).trans ((A_eq1 (U1 m) c 2).trans (Function.update_of_ne (StableHlo.devRef_ne_of_ne (by decide)) _ _).symm)
  | ⟨3, _⟩ =>
    show X1 m c = Function.update (W1 m c) (Proc.devRef .tc main_v1) (X1 m c) (Proc.devRef .tc main_v1)
    rw [Function.update_self]
theorem hrest1 (c : Dev nD) : ∀ b, b ∉ Finset.univ.image (Pipeline.arrRef spec1) → U2 m c b = U1 m c b := fun b hb =>
  Function.update_of_ne (StableHlo.devRef_ne_of_ne fun e => hb (Finset.mem_image.mpr ⟨3, Finset.mem_univ _, e.symm⟩)) _ _

set_option backward.isDefEq.respectTransparency.types false in
/-- REGION 1, entered from what region 0 left and left with the encoder's result at `X1`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (U1 m) c).Φ 0 from rfl]
    iintro ⟨Hp, -, Hr⟩
    iapply (hin1 (U1 m) c)
    isplitl [Hp]; · iexact Hp
    iexact Hr
  hout c := by
    rw [Pipeline.ownSems0_none, show (pdats m 1 c).Φ (Fin.last _) = (dat1 (U1 m) c).Φ (Fin.last cfg1.N) from rfl]
    iintro H
    ihave H' := (hout1 (U1 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option backward.isDefEq.respectTransparency.types false in
/-- REGION 2, entered from what the host lines left and left with the output array at `X8`. Two of its windows
    stand on one array, so the arrays are split out of the unscoped buffers, and put back, by the entailments
    that divide that array's full share between the two windows and join it again. -/
def reg2 : Pipeline.RegionSeg (pcfgs (F := F)) adm (pdats m) () defs₀ Variants.none L lv 2 where
  win := winFacts₀2
  block_pos := block_pos2
  stage_whole := stage_whole2
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := entry2 (U3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (U3 m c)) ⊢ (unscopedBufs c (U4 m c) : sProp 𝕄) := exit2 (U3 m) c (U4 m c)
      (show Function.update (W3 m c) (Proc.devRef .tc main_v8) (X8 m c) (Proc.devRef .tc main_v8) = X8 m c from Function.update_self _ _ _)
      (fun b hb => Function.update_of_ne (StableHlo.devRef_ne_of_ne hb) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run of @main -/

/-- What the launch makes beside the buffers on every core: the generator register, and the debt at nothing. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main from memory `m` with zero counters terminates, and every final
    memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := rest_init ρ)
    (hE3 := fun c => by iintro ⟨-, HO⟩; iexact HO)
    (reg0 m) (fun c => .rfl) (fun c => by rw [V1_eq]; exact .rfl)
    (reg1 m) (fun c => by rw [V1_eq]; exact .rfl) (fun c => by rw [V2_eq]; exact .rfl)
    (reg2 m) (fun c => by rw [V3_eq]; exact .rfl) (fun c => by rw [V4_eq]; exact .rfl)

end Cert.KernelIdeal.Hand

end
-- ==== Proof.IdealRun.lean ====
/-
  The run of the idealized kernel program with its result: every weakly fair execution of @main terminates, the
  result array ends at what region 2's write-backs leave in it (`X8`), every argument as launched. The same segment
  records as the frame's, under the conditional run whose post also reads the result array.
-/
import proofs.«158966_j8074538516900_1_alg».proof.Proof.IdealRegs
import proofs.«158966_j8074538516900_1_alg».proof.Proof.IdealRunCond

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run (ρ : Dev nD → PrngReg) : θ_run defs (onTc (τ := τ) (main (F := F))) ⟨m, fun _ => 0, ρ⟩ (fun r => ∀ c : Dev nD,
      r.2.mem ((c.tc : Thread nD τ).loc main_v8) = X8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (outs_v8 m c), (h c).2⟩)
    (Cert.KernelIdeal.GenP.run_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := rest_init ρ)
    (hE3 := fun c => by iintro ⟨-, HO⟩; iexact HO)
    (reg0 m) (fun c => .rfl) (fun c => by rw [V1_eq]; exact .rfl)
    (reg1 m) (fun c => by rw [V1_eq]; exact .rfl) (fun c => by rw [V2_eq]; exact .rfl)
    (reg2 m) (fun c => by rw [V3_eq]; exact .rfl) (fun c => by rw [V4_eq]; exact .rfl))

end Cert.KernelIdeal.Hand

end
-- ==== Proof.Spec.lean ====
/-
  What the program computes, index by index, over the extended reals.

  A graph-convolution layer sends features `x` [n, d] and weights `w` [d, h] to `adj · (x · w)`: entry (r, o) is
  the sum over the nodes k of adj (r, k) times the sum over e of x (k, e) w (e, o). The encoder is two layers with
  the rectifier max(·, 0) between them; its result `z` [8192, 33] carries 32 latent coordinates and, in column 32,
  a mass. The decoder's score of the pair (i, j) is
      mass j − log (((|z i|² − 2 · ⟨z i, z j⟩) + |z j|²) + ε),
  the squared distance grouped exactly so, with 2 and ε the float words the programs carry.
-/
import Idealize.ShloMosaic.PureOps.Ideal
import Idealize.ShloMosaic.Lib.ValueIdx

noncomputable section

namespace Cert.GravitySpec

open Idealize.ShloMosaic Idealize.ShloMosaic.ValueIdx

/-- A two-axis array of extended reals. -/
abbrev Arr (a b : ℕ) : Type := (⟨2, ![a, b]⟩ : Shape).Idx → EReal

/-- The float words the programs carry: zero, two and the decoder's ε = f32(0.01). -/
def zeroW : EReal := Ideal.ofBits .f32 0x00000000#32
def twoW : EReal := Ideal.ofBits .f32 0x40000000#32
def epsW : EReal := Ideal.ofBits .f32 0x3C23D70A#32

/-- Features times weights: row `k`, column `o`. -/
def proj {n d h : ℕ} (x : Arr n d) (w : Arr d h) (k : Fin n) (o : Fin h) : EReal :=
  ∑ e : Fin d, x (ix2 k e) * w (ix2 e o)

/-- One propagation, adj · (x · w): row `r`, column `o`. -/
def prop {n d h : ℕ} (adj : Arr n n) (x : Arr n d) (w : Arr d h) (r : Fin n) (o : Fin h) : EReal :=
  ∑ k : Fin n, adj (ix2 r k) * proj x w k o

/-- A propagation as an array. -/
def layer {n d h : ℕ} (adj : Arr n n) (x : Arr n d) (w : Arr d h) : Arr n h := fun i => prop adj x w (i 0) (i 1)

/-- The hidden layer: the first propagation, rectified. -/
def hid (adj : Arr 8192 8192) (x : Arr 8192 512) (w1 : Arr 512 64) : Arr 8192 64 :=
  fun i => max (prop adj x w1 (i 0) (i 1)) zeroW

/-- The encoder's result. -/
def lat (adj : Arr 8192 8192) (x : Arr 8192 512) (w1 : Arr 512 64) (w2 : Arr 64 33) : Arr 8192 33 :=
  layer adj (hid adj x w1) w2

/-- Latent coordinate `e` of node `i`, and node `j`'s mass. -/
def coord (z : Arr 8192 33) (i : Fin 8192) (e : Fin 32) : EReal := z (ix2 i ⟨e.val, Nat.lt_of_lt_of_le e.isLt (by decide)⟩)
def mass (z : Arr 8192 33) (j : Fin 8192) : EReal := z (ix2 j ⟨32, by decide⟩)

/-- Squared norm and inner product of latent rows. -/
def sqn (z : Arr 8192 33) (i : Fin 8192) : EReal := ∑ e : Fin 32, coord z i e * coord z i e
def gram (z : Arr 8192 33) (i j : Fin 8192) : EReal := ∑ e : Fin 32, coord z i e * coord z j e

/-- The decoder. -/
def dec (z : Arr 8192 33) : Arr 8192 8192 :=
  fun p => mass z (p 1) - Ideal.log (((sqn z (p 0) - twoW * gram z (p 0) (p 1)) + sqn z (p 1)) + epsW)

/-- The whole program. -/
def out (x : Arr 8192 512) (adj : Arr 8192 8192) (w1 : Arr 512 64) (w2 : Arr 64 33) : Arr 8192 8192 :=
  dec (lat adj x w1 w2)

end Cert.GravitySpec

end
-- ==== Proof.LibMatmulPlain.lean ====
/-
  A plain matrix product read at an index.

  For `l` of `M` rows and `K` columns and `r` of `K` rows and `N` columns, the product that contracts the columns of
  `l` with the rows of `r` into a zero accumulator has, at `(p, n)`, the inner product of row `p` of `l` with column
  `n` of `r`: `∑ k, l (p, k) * r (k, n)`. On the extended reals the accumulator's zero adds nothing, and the
  contraction index, which the dimension record keeps as a one-axis shape, is re-indexed by its one coordinate.
  Stated for the dimension record `DotDims.plain M K N`; a printed record with the same six lists is that record (its
  last field is a proof), so the lemma applies to it after a `show`.
-/
import Idealize.ShloMosaic.Lib.ValueIdx
import Idealize.ShloMosaic.PureOps.Ideal.Laws

noncomputable section

namespace Cert.LibMatmulPlain

open Idealize.ShloMosaic Idealize.ShloMosaic.ValueIdx

variable {M K N : ℕ}

/-- The left operand's index keeps the output's row. -/
theorem lhs_axis0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column is the contraction coordinate. -/
theorem lhs_axis1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_axis0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_axis1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The two operand indices over the output index `(p, n)` and the contraction coordinate `k`. -/
theorem lhsIdx_eq (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

theorem rhsIdx_eq (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ => exact (rhs_axis0 _ _).trans (contrEquiv1_symm_val (DotDims.plain M K N) K rfl rfl k)
    | ⟨1, _⟩ => exact rhs_axis1 _ _)

/-- `l · r` into the zero accumulator, at `(p, n)`: the inner product of row `p` of `l` and column `n` of `r`. -/
theorem matmul_zero_apply {φ₁ φ₂ : FTy} (l : FVec Ideal ⟨2, ![M, K]⟩ φ₁) (r : FVec Ideal ⟨2, ![K, N]⟩ φ₂)
    (prec : Option ContractPrecision) (p : Fin M) (n : Fin N) :
    FloatOps.matmul (DotDims.plain M K N) prec l r (constant ⟨2, ![M, N]⟩ .f32 0x00000000#32) (ix2 p n)
      = ∑ k : Fin K, l (ix2 p k) * r (ix2 k n) := by
  rw [Ideal.matmul_constant_zero_apply, ← Equiv.sum_comp (contrEquiv1 (DotDims.plain M K N) K rfl rfl).symm]
  exact Finset.sum_congr rfl fun k _ => by rw [lhsIdx_eq, rhsIdx_eq]

/-- The host's product of the same two matrices, at `(p, n)`: the same inner product, whatever the schedule. -/
theorem dotGeneral_apply {φ₁ φ₂ : FTy} (l : FVec Ideal ⟨2, ![M, K]⟩ φ₁) (r : FVec Ideal ⟨2, ![K, N]⟩ φ₂)
    (prec : Option ContractPrecision) (sched : HostSchedule) (p : Fin M) (n : Fin N) :
    FloatOps.dotGeneral (DotDims.plain M K N) prec sched l r (ix2 p n) = ∑ k : Fin K, l (ix2 p k) * r (ix2 k n) := by
  rw [Ideal.dotGeneral_apply, ← Equiv.sum_comp (contrEquiv1 (DotDims.plain M K N) K rfl rfl).symm]
  exact Finset.sum_congr rfl fun k _ => by rw [lhsIdx_eq, rhsIdx_eq]

end Cert.LibMatmulPlain

end
-- ==== Proof.LibMatmulRows.lean ====
/-
  A matrix product whose right factor is stored row by row, read at an index.

  For `l` of `M` rows and `K` columns and `r` of `N` rows and `K` columns, the product that contracts the last axis of
  both (`l · rᵀ`) into a zero accumulator has, at `(p, n)`, the inner product of row `p` of `l` with row `n` of `r`:
  `∑ k, l (p, k) * r (n, k)`. On the extended reals the accumulator's zero adds nothing, and the contraction index,
  which the dimension record keeps as a one-axis shape, is re-indexed by its one coordinate. Stated for the dimension
  record `DotDims.transposedRhs M K N`; a printed record with the same six lists is that record (its last field is a
  proof), so the lemma applies to it after a `show`.
-/
import Idealize.ShloMosaic.Lib.ValueIdx
import Idealize.ShloMosaic.PureOps.Ideal.Laws

noncomputable section

namespace Cert.LibMatmulRows

open Idealize.ShloMosaic Idealize.ShloMosaic.ValueIdx

variable {M K N : ℕ}

/-- The left operand's index keeps the output's row. -/
theorem lhs_axis0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction coordinate. -/
theorem lhs_axis1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem rhs_axis0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction coordinate. -/
theorem rhs_axis1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- `l · rᵀ` into the zero accumulator, at `(p, n)`: the inner product of row `p` of `l` and row `n` of `r`. -/
theorem matmul_zero_apply {φ₁ φ₂ : FTy} (l : FVec Ideal ⟨2, ![M, K]⟩ φ₁) (r : FVec Ideal ⟨2, ![N, K]⟩ φ₂)
    (prec : Option ContractPrecision) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p n) ((contrEquiv1 (DotDims.transposedRhs M K N) K rfl rfl).symm k) = ix2 p k :=
    funext fun a => Fin.ext (by
      match a with
      | ⟨0, _⟩ => exact lhs_axis0 _ _
      | ⟨1, _⟩ => exact (lhs_axis1 _ _).trans hk)
  have er : (DotDims.transposedRhs M K N).rhsIdx (ix2 p n) ((contrEquiv1 (DotDims.transposedRhs M K N) K rfl rfl).symm k) = ix2 n k :=
    funext fun a => Fin.ext (by
      match a with
      | ⟨0, _⟩ => exact rhs_axis0 _ _
      | ⟨1, _⟩ => exact (rhs_axis1 _ _).trans hk)
  rw [el, er]

end Cert.LibMatmulRows

end
-- ==== Proof.LibRank3Layout.lean ====
/-
  Layout operations and one-axis reductions of small-rank arrays, read at an index built from its coordinates.

  Inserting the dropped coordinate into a result index of a one-axis reduction gives the plain coordinate tuple
  (`lift_last3`, `lift_mid3`, `lift_last2`); a trailing unit axis added by a reshape moves nothing
  (`shapeCast_ab_ab1_apply`, `shapeCast_a_a1_apply`); and spreading a trailing unit axis repeats the one entry
  along it (`broadcastTo_ab1_abc_apply`, `broadcastTo_a1_ab_apply`). With them a sum (from the zero pattern) or a maximum
  (from the pattern of minus infinity) along an axis of a rank-2 or rank-3 vector reads as a sum or a fold of max over
  that axis's coordinates at any extents; the evidence that the accumulator is the neutral word is taken as an equation
  between the two literals, which is how a printed program carries it. Library
  imports only.
-/
import Idealize.ShloMosaic.PureOps.Ideal.Laws
import Idealize.ShloMosaic.Lib.ValueIdx
import Idealize.ShloMosaic.Lib.Pipeline.Value

noncomputable section

namespace Cert.LibRank3Layout

open Idealize.ShloMosaic Idealize.ShloMosaic.ValueIdx

variable {α : Type}

/-- In an [a, b, c] shape reduced along its last axis, the index over (p, r) with `k` inserted is (p, r, k). -/
theorem lift_last3 {a b c : ℕ} (h : Shape.Reduces ⟨3, ![a, b, c]⟩ [2] ⟨2, ![a, b]⟩) (p : Fin a) (r : Fin b) (k : Fin c) :
    h.lift (ix2 p r) k = ix3 p r k :=
  funext fun e => Fin.ext (by match e with | ⟨0, _⟩ => rfl | ⟨1, _⟩ => rfl | ⟨2, _⟩ => rfl)

/-- In an [a, b, c] shape reduced along its middle axis, the index over (p, q) with `r` inserted is (p, r, q). -/
theorem lift_mid3 {a b c : ℕ} (h : Shape.Reduces ⟨3, ![a, b, c]⟩ [1] ⟨2, ![a, c]⟩) (p : Fin a) (q : Fin c) (r : Fin b) :
    h.lift (ix2 p q) r = ix3 p r q :=
  funext fun e => Fin.ext (by match e with | ⟨0, _⟩ => rfl | ⟨1, _⟩ => rfl | ⟨2, _⟩ => rfl)

/-- In an [a, b] shape reduced along its last axis, the index over p with `q` inserted is (p, q). -/
theorem lift_last2 {a b : ℕ} (h : Shape.Reduces ⟨2, ![a, b]⟩ [1] ⟨1, ![a]⟩) (p : Fin a) (q : Fin b) :
    h.lift (ix1 p) q = ix2 p q :=
  funext fun e => Fin.ext (by match e with | ⟨0, _⟩ => rfl | ⟨1, _⟩ => rfl)

/-- The sum along the last axis of an [a, b, c] vector, at (p, r). -/
theorem multiReduction_add_last3 {a b c : ℕ} (src : FVec Ideal ⟨3, ![a, b, c]⟩ .f32)
    (h : Shape.Reduces ⟨3, ![a, b, c]⟩ [2] ⟨2, ![a, b]⟩) (hφ : FKind.Formats .f32) (hacc : (0x00000000#32 : BitVec 32) = 0x00000000#32)
    (p : Fin a) (r : Fin b) :
    multiReduction .add [2] ⟨2, ![a, b]⟩ src 0x00000000#32 h hφ hacc (ix2 p r) = ∑ k : Fin c, src (ix3 p r k) := by
  refine (Ideal.multiReduction_add_single src 0x00000000#32 h hφ hacc (ix2 p r)).trans ?_
  show ∑ k : Fin c, src (h.lift (ix2 p r) k) = _
  exact Finset.sum_congr rfl fun k _ => congrArg src (lift_last3 h p r k)

/-- The maximum along the middle axis of an [a, b, c] vector, at (p, q): the fold of max from the accumulator's value. -/
theorem multiReduction_max_mid3 {a b c : ℕ} (src : FVec Ideal ⟨3, ![a, b, c]⟩ .f32)
    (h : Shape.Reduces ⟨3, ![a, b, c]⟩ [1] ⟨2, ![a, c]⟩) (hφ : FKind.Formats .f32) (hacc : (0xFF800000#32 : BitVec 32) = 0xFF800000#32)
    (p : Fin a) (q : Fin c) :
    multiReduction .maximumf [1] ⟨2, ![a, c]⟩ src 0xFF800000#32 h hφ hacc (ix2 p q)
      = (Finset.univ : Finset (Fin b)).fold max (Ideal.ofBits .f32 0xFF800000#32) (fun r => src (ix3 p r q)) := by
  refine (Ideal.multiReduction_maximumf_single src 0xFF800000#32 h hφ hacc (ix2 p q)).trans ?_
  show (Finset.univ : Finset (Fin b)).fold max (Ideal.ofBits .f32 0xFF800000#32) (fun r => src (h.lift (ix2 p q) r)) = _
  exact congrArg (fun f => (Finset.univ : Finset (Fin b)).fold max (Ideal.ofBits .f32 0xFF800000#32) f)
    (funext fun r => congrArg src (lift_mid3 h p q r))

/-- The sum along the last axis of an [a, b] vector, at p. -/
theorem multiReduction_add_last2 {a b : ℕ} (src : FVec Ideal ⟨2, ![a, b]⟩ .f32)
    (h : Shape.Reduces ⟨2, ![a, b]⟩ [1] ⟨1, ![a]⟩) (hφ : FKind.Formats .f32) (hacc : (0x00000000#32 : BitVec 32) = 0x00000000#32) (p : Fin a) :
    multiReduction .add [1] ⟨1, ![a]⟩ src 0x00000000#32 h hφ hacc (ix1 p) = ∑ q : Fin b, src (ix2 p q) := by
  refine (Ideal.multiReduction_add_single src 0x00000000#32 h hφ hacc (ix1 p)).trans ?_
  show ∑ q : Fin b, src (h.lift (ix1 p) q) = _
  exact Finset.sum_congr rfl fun q _ => congrArg src (lift_last2 h p q)

/-- An [a, b] array cast to [a, b, 1] reads, at (p, r, u), the operand at (p, r). -/
theorem shapeCast_ab_ab1_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_two, Shape.rowMajor_val_three]
    show p.val * b + r.val = (p.val * b + r.val) * 1 + u.val
    rw [hu, Nat.mul_one, Nat.add_zero])

/-- An [a] array cast to [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, b, 1] array broadcast to [a, b, c] reads, at (p, r, k), the operand at (p, r, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (k : Fin c) :
    broadcastTo ⟨3, ![a, b, c]⟩ v h (ix3 p r k) = v (ix3 p r (0 : Fin 1)) := by
  refine broadcastTo_apply v h (ix3 p r k) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An [a, 1] array broadcast to [a, b] reads, at (p, l), the operand at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

end Cert.LibRank3Layout

end
-- ==== Proof.PayIdx.lean ====
/-
  The three kernels' stored values, read at an index over the extended reals.

  Over the extended reals a format change is the identity and a matrix product into a zero accumulator is the exact
  sum of products, so each stored value of the two graph-convolution kernels and of the decoder kernel reads, at an
  index, as a closed expression in the entries of the blocks it was computed from:
  • the accumulator's reset stores the zero word everywhere;
  • the accumulator's update at (p, o) adds to the old entry the sum over the nodes j of the adjacency entry (p, j)
    times the sum over d of the feature entry (j, d) times the weight entry (d, o);
  • the first layer's output is the maximum of the accumulator's entry and the zero word;
  • the decoder's entry (p, q) is the second row vector's entry q minus the logarithm of
    ((|row p|² − 2 · ⟨row p, row q⟩) + the first row vector's entry q) + ε, the squared norm and the inner product
    being sums over the 32 latent coordinates.
-/
import proofs.«158966_j8074538516900_1_alg».proof.Proof.Gen.KernelIdeal.Skeleton
import proofs.«158966_j8074538516900_1_alg».proof.Proof.Spec
import proofs.«158966_j8074538516900_1_alg».proof.Proof.LibMatmulPlain
import proofs.«158966_j8074538516900_1_alg».proof.Proof.LibMatmulRows
import proofs.«158966_j8074538516900_1_alg».proof.Proof.LibRank3Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Idealize.ShloMosaic Idealize.ShloMosaic.ValueIdx Cert.KernelIdeal Cert.KernelIdeal.Gen

/-! ## The matrix products, in the printed dimension records -/

/-- Features times weights, first layer: entry (j, o) is the sum over d of x (j, d) w (d, o). -/
theorem mm_xw0 (l : FVec Ideal S2048x512 .bf16) (r : FVec Ideal S512x64 .bf16) (j : Fin 2048) (o : Fin 64) :
    matmul dot_S2048x512_S512x64_S2048x64_1_0_0_1_n_n none l r (constant (F := Ideal) S2048x64 .f32 0x00000000#32) (ix2 j o)
      = ∑ d : Fin 512, l (ix2 j d) * r (ix2 d o) :=
  Cert.LibMatmulPlain.matmul_zero_apply (M := 2048) (K := 512) (N := 64) l r none j o

/-- Adjacency times projected features, first layer. -/
theorem mm_ax0 (l : FVec Ideal S1024x2048 .bf16) (r : FVec Ideal S2048x64 .bf16) (p : Fin 1024) (o : Fin 64) :
    matmul dot_S1024x2048_S2048x64_S1024x64_1_0_0_1_n_n none l r (constant (F := Ideal) S1024x64 .f32 0x00000000#32) (ix2 p o)
      = ∑ j : Fin 2048, l (ix2 p j) * r (ix2 j o) :=
  Cert.LibMatmulPlain.matmul_zero_apply (M := 1024) (K := 2048) (N := 64) l r none p o

/-- Features times weights, second layer. -/
theorem mm_xw1 (l : FVec Ideal S2048x64 .bf16) (r : FVec Ideal S64x33 .bf16) (j : Fin 2048) (o : Fin 33) :
    matmul dot_S2048x64_S64x33_S2048x33_1_0_0_1_n_n none l r (constant (F := Ideal) S2048x33 .f32 0x00000000#32) (ix2 j o)
      = ∑ d : Fin 64, l (ix2 j d) * r (ix2 d o) :=
  Cert.LibMatmulPlain.matmul_zero_apply (M := 2048) (K := 64) (N := 33) l r none j o

/-- Adjacency times projected features, second layer. -/
theorem mm_ax1 (l : FVec Ideal S1024x2048 .bf16) (r : FVec Ideal S2048x33 .bf16) (p : Fin 1024) (o : Fin 33) :
    matmul dot_S1024x2048_S2048x33_S1024x33_1_0_0_1_n_n none l r (constant (F := Ideal) S1024x33 .f32 0x00000000#32) (ix2 p o)
      = ∑ j : Fin 2048, l (ix2 p j) * r (ix2 j o) :=
  Cert.LibMatmulPlain.matmul_zero_apply (M := 1024) (K := 2048) (N := 33) l r none p o

/-- The decoder's inner products of latent rows: both factors are contracted along their last axis. -/
theorem mm_gram (l : FVec Ideal S1024x32 .bf16) (r : FVec Ideal S512x32 .bf16) (p : Fin 1024) (q : Fin 512) :
    matmul dot_S1024x32_S512x32_S1024x512_1_1_0_0_n_n none l r (constant (F := Ideal) S1024x512 .f32 0x00000000#32) (ix2 p q)
      = ∑ e : Fin 32, l (ix2 p e) * r (ix2 q e) :=
  Cert.LibMatmulRows.matmul_zero_apply (M := 1024) (K := 32) (N := 512) l r none p q

/-! ## The decoder's layout operations -/

/-- A row's sum over the 32 latent coordinates. -/
theorem rowsum_apply (src : FVec Ideal S1024x32 .f32) (p : Fin 1024) :
    multiReduction (F := Ideal) .add [1] S1024 src 0x00000000#32 reduces_S1024x32_S1024 (.inl rfl) rfl (ix1 p)
      = ∑ e : Fin 32, src (ix2 p e) :=
  Cert.LibRank3Layout.multiReduction_add_last2 (a := 1024) (b := 32) src reduces_S1024x32_S1024 (.inl rfl) rfl p

/-- A vector of 1024 entries, stood up as a column and spread over 512 columns, reads its entry p at (p, q). -/
theorem col_apply (v : FVec Ideal S1024 .f32) (p : Fin 1024) (q : Fin 512) :
    broadcastTo S1024x512 (shapeCast S1024x1 v shapeCasts_S1024_S1024x1) broadcasts_S1024x1_S1024x512 (ix2 p q) = v (ix1 p) :=
  (Cert.LibRank3Layout.broadcastTo_a1_ab_apply (a := 1024) (b := 512) _ broadcasts_S1024x1_S1024x512 p q).trans
    (Cert.LibRank3Layout.shapeCast_a_a1_apply (a := 1024) v shapeCasts_S1024_S1024x1 p 0)

/-- One row of 512 entries spread over 1024 rows reads its entry q at (p, q). -/
theorem row_apply (v : FVec Ideal S1x512 .f32) (p : Fin 1024) (q : Fin 512) :
    broadcastTo S1024x512 v broadcasts_S1x512_S1024x512 (ix2 p q) = v (ix2 0 q) :=
  broadcastTo_1b_ab_apply (a := 1024) (b := 512) v broadcasts_S1x512_S1024x512 p q

/-! ## The graph-convolution kernels' stored values -/

/-- The first layer's reset stores the zero word everywhere. -/
theorem pay0_1_apply (i : S1024x64.Idx) : k0_pay1 (F := Ideal) i = Ideal.ofBits .f32 0x00000000#32 := by
  unfold k0_pay1
  exact congrFun (shapeCast_self _ _) i

/-- The first layer's update at (p, o). -/
theorem pay0_2_apply (xx : Vec Ideal S2048x512 .f32) (xw : Vec Ideal S512x64 .f32) (s : Vec Ideal S1024x64 .f32)
    (xa : Vec Ideal S1024x2048 .f32) (p : Fin 1024) (o : Fin 64) :
    k0_pay2 (F := Ideal) xx xw s xa (ix2 p o)
      = s (ix2 p o) + ∑ j : Fin 2048, xa (ix2 p j) * ∑ d : Fin 512, xx (ix2 j d) * xw (ix2 d o) := by
  unfold k0_pay2
  refine (congrFun (shapeCast_self _ _) _).trans ?_
  refine (addf_apply _ _ _).trans ?_
  refine congrArg (s (ix2 p o) + ·) ?_
  refine (mm_ax0 _ _ p o).trans ?_
  refine Finset.sum_congr rfl fun j _ => ?_
  refine congrArg (xa (ix2 p j) * ·) ?_
  exact mm_xw0 _ _ j o

/-- The first layer's output is the rectified accumulator. -/
theorem pay0_3_apply (v : Vec Ideal S1024x64 .f32) (i : S1024x64.Idx) :
    k0_pay3 (F := Ideal) v i = max (v i) (Ideal.ofBits .f32 0x00000000#32) := by
  unfold k0_pay3
  rfl

/-- The second layer's reset stores the zero word everywhere. -/
theorem pay1_1_apply (i : S1024x33.Idx) : k1_pay1 (F := Ideal) i = Ideal.ofBits .f32 0x00000000#32 := by
  unfold k1_pay1
  exact congrFun (shapeCast_self _ _) i

/-- The second layer's update at (p, o). -/
theorem pay1_2_apply (xx : Vec Ideal S2048x64 .f32) (xw : Vec Ideal S64x33 .f32) (s : Vec Ideal S1024x33 .f32)
    (xa : Vec Ideal S1024x2048 .f32) (p : Fin 1024) (o : Fin 33) :
    k1_pay2 (F := Ideal) xx xw s xa (ix2 p o)
      = s (ix2 p o) + ∑ j : Fin 2048, xa (ix2 p j) * ∑ d : Fin 64, xx (ix2 j d) * xw (ix2 d o) := by
  unfold k1_pay2
  refine (congrFun (shapeCast_self _ _) _).trans ?_
  refine (addf_apply _ _ _).trans ?_
  refine congrArg (s (ix2 p o) + ·) ?_
  refine (mm_ax1 _ _ p o).trans ?_
  refine Finset.sum_congr rfl fun j _ => ?_
  refine congrArg (xa (ix2 p j) * ·) ?_
  refine (mm_xw1 _ _ j o).trans ?_
  refine Finset.sum_congr rfl fun d _ => ?_
  exact congrArg (· * xw (ix2 d o)) (congrFun (shapeCast_self xx shapeCasts_S2048x64_S2048x64) (ix2 j d))

/-! ## The decoder kernel's stored value -/

/-- The decoder's entry (p, q). -/
theorem pay2_1_apply (v0 : Vec Ideal S1024x32 .f32) (v2 : Vec Ideal S512x32 .f32) (v14 v20 : Vec Ideal S1x512 .f32)
    (p : Fin 1024) (q : Fin 512) :
    k2_pay1 (F := Ideal) v0 v2 v14 v20 (ix2 p q)
      = v20 (ix2 0 q) - Ideal.log ((((∑ e : Fin 32, v0 (ix2 p e) * v0 (ix2 p e))
          - Ideal.ofBits .f32 0x40000000#32 * ∑ e : Fin 32, v0 (ix2 p e) * v2 (ix2 q e)) + v14 (ix2 0 q))
          + Ideal.ofBits .f32 0x3C23D70A#32) := by
  have e1 : shapeCast S1024x32 v0 shapeCasts_S1024x32_S1024x32 = v0 := shapeCast_self _ _
  have e3 : shapeCast S512x32 v2 shapeCasts_S512x32_S512x32 = v2 := shapeCast_self _ _
  have e15 : shapeCast S1x512 v14 shapeCasts_S1x512_S1x512 = v14 := shapeCast_self _ _
  have e21 : shapeCast S1x512 v20 shapeCasts_S1x512_S1x512 = v20 := shapeCast_self _ _
  unfold k2_pay1
  rw [e1, e3, e15, e21]
  refine (subf_apply _ _ _).trans ?_
  refine congrArg₂ (· - ·) (row_apply v20 p q) ?_
  refine congrArg Ideal.log ?_
  refine congrArg (· + Ideal.ofBits .f32 0x3C23D70A#32) ?_
  refine congrArg₂ (· + ·) ?_ (row_apply v14 p q)
  refine congrArg₂ (· - ·) ?_ ?_
  · refine (col_apply _ p q).trans ?_
    exact rowsum_apply _ p
  · refine congrArg (Ideal.ofBits .f32 0x40000000#32 * ·) ?_
    exact mm_gram _ _ p q

end Cert.KernelIdeal.PayIdx

end
-- ==== Proof.LibBlockSum.lean ====
/-
  Block decompositions of one finite sum over the extended reals.

  A contraction with terms `f 0, f 1, …` is cut into consecutive blocks of width `B`; block `j` is the sum of the terms
  `j·B, …, j·B + B − 1`.  Adding blocks `j₀, …, j₀ + k` left to right — whether the first is STORED and the later ones
  added to it (`accum`: an accumulator kept in an output block that the first grid point overwrites), or all are added
  onto a ZERO start (`accum0`: a scratch accumulator cleared at the first grid point) — gives the contiguous stretch of
  `(k + 1)·B` terms that starts at `j₀·B` (`accum_eq`, `accum0_eq`).  Only commutativity and associativity of addition
  are used (the extended reals are an additive commutative monoid), so no term needs to be finite.
  The terms are indexed by ℕ and summed over `Finset.range`, so that a block is an offset and a zero-padded tail is
  "the terms beyond the extent are zero".  Mathlib imports only.
-/
import Mathlib.Data.EReal.Operations
import Mathlib.Algebra.BigOperators.Intervals

noncomputable section

namespace Cert.Spec

open Finset

variable (f : ℕ → EReal)

/-- Block `j` of width `B` of the contraction: the terms `j·B, …, j·B + B − 1`. -/
def block (B j : ℕ) : EReal := ∑ κ ∈ range B, f (j * B + κ)

/-- Blocks `j₀, j₀+1, …, j₀+k` added up left to right, the first one STORED (not added to anything). -/
def accum (B j₀ : ℕ) : ℕ → EReal
  | 0 => block f B j₀
  | k + 1 => accum B j₀ k + block f B (j₀ + (k + 1))

/-- Blocks `0, …, k` added up left to right onto a zero start. -/
def accum0 (B : ℕ) : ℕ → EReal
  | 0 => 0 + block f B 0
  | k + 1 => accum0 B k + block f B (k + 1)

/-- Consecutive blocks, the first stored, are one contiguous stretch of the contraction. -/
theorem accum_eq (B j₀ k : ℕ) : accum f B j₀ k = ∑ i ∈ range ((k + 1) * B), f (j₀ * B + i) := by
  induction k with
  | zero => simp only [accum, block, Nat.zero_add, Nat.one_mul]
  | succ k ih =>
    show accum f B j₀ k + block f B (j₀ + (k + 1)) = _
    rw [ih, block, show (k + 1 + 1) * B = (k + 1) * B + B by ring, Finset.sum_range_add]
    refine congrArg _ (Finset.sum_congr rfl fun κ _ => congrArg f ?_)
    ring

/-- Consecutive blocks added onto zero are the contraction's first `(k + 1)·B` terms. -/
theorem accum0_eq (B k : ℕ) : accum0 f B k = ∑ i ∈ range ((k + 1) * B), f i := by
  induction k with
  | zero => simp only [accum0, block, zero_add, Nat.zero_mul, Nat.zero_add, Nat.one_mul]
  | succ k ih =>
    show accum0 f B k + block f B (k + 1) = _
    rw [ih, block, show (k + 1 + 1) * B = (k + 1) * B + B by ring, Finset.sum_range_add]

end Cert.Spec

end
-- ==== Proof.ValR0.lean ====
/-
  Region 0 leaves the specification's hidden layer in its output array.

  The grid is 8 row blocks by 4 column blocks of the adjacency matrix, the column block moving fastest: point
  4·i + k is row block i, column block k. At row p of row block i and column o the scratch accumulator holds, after
  column block k, the zero word plus the first k + 1 stretches of 2048 terms of the contraction
      ∑ n, adj (1024·i + p, n) · ∑ d, x (n, d) · w (d, o)
  added left to right; after column block 3 that is the whole contraction, and the block written back there is its
  maximum with the zero word. The eight row blocks tile the output array.
-/
import proofs.«158966_j8074538516900_1_alg».proof.Proof.IdealDats
import proofs.«158966_j8074538516900_1_alg».proof.Proof.Spec
import proofs.«158966_j8074538516900_1_alg».proof.Proof.PayIdx
import proofs.«158966_j8074538516900_1_alg».proof.Proof.LibBlockSum
import Idealize.ShloMosaic.Lib.ValueIdx
import Idealize.ShloMosaic.Lib.Pipeline.Value
import Idealize.ShloMosaic.PureOps.Ideal.Laws
import Idealize.ShloMosaic.Lib.Pipeline.FrameBody

noncomputable section

namespace Cert.KernelIdeal.ValR0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.PayIdx
open Cert.GravitySpec (Arr proj prop hid zeroW)

/-! ## The contraction cut into stretches -/

section Contraction

variable (adj : Arr 8192 8192) (x : Arr 8192 512) (w : Arr 512 64)

/-- The terms of the contraction of row r, column o, indexed by the naturals (zero beyond the 8192 nodes). -/
def term (r : Fin 8192) (o : Fin 64) : ℕ → EReal :=
  fun n => if h : n < 8192 then adj (ix2 r ⟨n, h⟩) * proj x w ⟨n, h⟩ o else 0

/-- The propagation's entry is the sum of the first 8192 terms. -/
theorem prop_eq_range (r : Fin 8192) (o : Fin 64) :
    prop adj x w r o = ∑ n ∈ Finset.range 8192, term adj x w r o n := by
  unfold prop
  rw [← Fin.sum_univ_eq_sum_range]
  refine Finset.sum_congr rfl fun k _ => ?_
  unfold term
  rw [dif_pos k.isLt]

/-- Stretch k of 2048 terms, over the 2048 nodes of column block k. -/
theorem block_term (r : Fin 8192) (o : Fin 64) (k : ℕ) (hk : k < 4) :
    Cert.Spec.block (term adj x w r o) 2048 k
      = ∑ j : Fin 2048, adj (ix2 r ⟨k * 2048 + j.val, by have := j.isLt; omega⟩)
          * proj x w ⟨k * 2048 + j.val, by have := j.isLt; omega⟩ o := by
  unfold Cert.Spec.block
  rw [← Fin.sum_univ_eq_sum_range]
  refine Finset.sum_congr rfl fun j _ => ?_
  unfold term
  rw [dif_pos]

/-- One point's update: when the adjacency block is block (i, k) of the adjacency matrix, the feature block is row
    block k of the features and the weight block is the weights, the update adds stretch k of row 1024·i + p. -/
theorem update_apply (xx : Vec Ideal S2048x512 .f32) (xw : Vec Ideal S512x64 .f32) (s : Vec Ideal S1024x64 .f32)
    (xa : Vec Ideal S1024x2048 .f32) (i k : ℕ) (hi : i < 8) (hk : k < 4)
    (hxa : ∀ (p : Fin 1024) (j : Fin 2048), xa (ix2 p j)
      = adj (ix2 ⟨i * 1024 + p.val, by have := p.isLt; omega⟩ ⟨k * 2048 + j.val, by have := j.isLt; omega⟩))
    (hxx : ∀ (j : Fin 2048) (d : Fin 512), xx (ix2 j d) = x (ix2 ⟨k * 2048 + j.val, by have := j.isLt; omega⟩ d))
    (hxw : ∀ (d : Fin 512) (o : Fin 64), xw (ix2 d o) = w (ix2 d o)) (p : Fin 1024) (o : Fin 64) :
    k0_pay2 (F := Ideal) xx xw s xa (ix2 p o)
      = s (ix2 p o) + Cert.Spec.block (term adj x w ⟨i * 1024 + p.val, by have := p.isLt; omega⟩ o) 2048 k := by
  rw [pay0_2_apply, block_term adj x w _ o k hk]
  refine congrArg (s (ix2 p o) + ·) (Finset.sum_congr rfl fun j _ => ?_)
  rw [hxa]
  unfold proj
  refine congrArg _ (Finset.sum_congr rfl fun d _ => ?_)
  rw [hxx, hxw]

end Contraction

/-! ## The arrays and the blocks -/

variable (V : (c : Dev nD) → (b : Ref sig .tc) → Buf (Elt Ideal) ((c : Thread nD τ).loc b))

/-- The adjacency matrix, the features and the first layer's weights, as region 0 finds them. -/
abbrev adjA (c : Dev nD) : Arr 8192 8192 := V c main_arg1
abbrev featA (c : Dev nD) : Arr 8192 512 := V c main_arg0
abbrev wA (c : Dev nD) : Arr 512 64 := V c main_arg2

/-- The hidden layer of the arrays region 0 finds. -/
abbrev hidA (c : Dev nD) : Arr 8192 64 := hid (adjA V c) (featA V c) (wA V c)

/-- The three input blocks at a point. -/
abbrev ablk (c : Dev nD) (t : Fin cfg0.N) : Vec Ideal S1024x2048 .f32 := iblk0 V c 0 t
abbrev xblk (c : Dev nD) (t : Fin cfg0.N) : Vec Ideal S2048x512 .f32 := iblk0 V c 1 t
abbrev wblk (c : Dev nD) (t : Fin cfg0.N) : Vec Ideal S512x64 .f32 := iblk0 V c 2 t

/-- The printed index maps over the grid: point t is row block t / 4 and column block t % 4; the adjacency block is
    (t / 4, t % 4), the feature block (t % 4, 0), the weights (0, 0), the output block (t / 4, 0). -/
theorem idx_facts : ∀ t : Fin cfg0.N, win0_0.index t (0 : Fin 2) = t.val / 4
    ∧ win0_0.index t (1 : Fin 2) = t.val % 4
    ∧ win0_1.index t (0 : Fin 2) = t.val % 4
    ∧ win0_1.index t (1 : Fin 2) = 0
    ∧ win0_2.index t (0 : Fin 2) = 0
    ∧ win0_2.index t (1 : Fin 2) = 0
    ∧ win0_3.index t (0 : Fin 2) = t.val / 4
    ∧ win0_3.index t (1 : Fin 2) = 0 :=
  (by decide +kernel : ∀ t : Fin grid0.N, _)

/-- The adjacency block at point 4·i + k is block (i, k) of the adjacency matrix. -/
theorem ablk_apply (c : Dev nD) (t : Fin cfg0.N) (i k : ℕ) (hi : i < 8) (hk : k < 4) (ht : t.val = 4 * i + k)
    (p : Fin 1024) (j : Fin 2048) :
    ablk V c t (ix2 p j)
      = adjA V c (ix2 ⟨i * 1024 + p.val, by have := p.isLt; omega⟩ ⟨k * 2048 + j.val, by have := j.isLt; omega⟩) := by
  obtain ⟨e0, e1, -, -, -, -, -, -⟩ := idx_facts t
  show V c main_arg1 (((cfg0.win 0).blk t).view.emb (ix2 p j)) = V c main_arg1 _
  refine congrArg (V c main_arg1) ?_
  funext a; apply Fin.ext
  match a with
  | ⟨0, _⟩ => show win0_0.index t (0 : Fin 2) * 1024 + 1 * p.val = i * 1024 + p.val; omega
  | ⟨1, _⟩ => show win0_0.index t (1 : Fin 2) * 2048 + 1 * j.val = k * 2048 + j.val; omega

/-- The feature block at point 4·i + k is row block k of the features. -/
theorem xblk_apply (c : Dev nD) (t : Fin cfg0.N) (i k : ℕ) (hi : i < 8) (hk : k < 4) (ht : t.val = 4 * i + k)
    (j : Fin 2048) (d : Fin 512) :
    xblk V c t (ix2 j d) = featA V c (ix2 ⟨k * 2048 + j.val, by have := j.isLt; omega⟩ d) := by
  obtain ⟨-, -, e0, e1, -, -, -, -⟩ := idx_facts t
  show V c main_arg0 (((cfg0.win 1).blk t).view.emb (ix2 j d)) = V c main_arg0 _
  refine congrArg (V c main_arg0) ?_
  funext a; apply Fin.ext
  match a with
  | ⟨0, _⟩ => show win0_1.index t (0 : Fin 2) * 2048 + 1 * j.val = k * 2048 + j.val; omega
  | ⟨1, _⟩ => show win0_1.index t (1 : Fin 2) * 512 + 1 * d.val = d.val; omega

/-- The weight block at every point is the weights. -/
theorem wblk_apply (c : Dev nD) (t : Fin cfg0.N) (d : Fin 512) (o : Fin 64) :
    wblk V c t (ix2 d o) = wA V c (ix2 d o) := by
  obtain ⟨-, -, -, -, e0, e1, -, -⟩ := idx_facts t
  show V c main_arg2 (((cfg0.win 2).blk t).view.emb (ix2 d o)) = V c main_arg2 _
  refine congrArg (V c main_arg2) ?_
  funext a; apply Fin.ext
  match a with
  | ⟨0, _⟩ => show win0_2.index t (0 : Fin 2) * 512 + 1 * d.val = d.val; omega
  | ⟨1, _⟩ => show win0_2.index t (1 : Fin 2) * 64 + 1 * o.val = o.val; omega

/-! ## The accumulator along a row block -/

/-- A point of the grid is below 32. -/
theorem lt32 (t : Fin cfg0.N) : t.val < 32 := lt_of_lt_of_eq t.isLt N_0

theorem acc0_congr (c : Dev nD) (n n' : ℕ) (hn : n < cfg0.N) (hn' : n' < cfg0.N) (e : n = n') :
    acc0 V c n hn = acc0 V c n' hn' := by
  subst e; rfl

/-- After column block k of row block i the accumulator's entry (p, o) is the zero word plus the first k + 1
    stretches of the contraction of row 1024·i + p, added left to right. -/
theorem acc0_apply (c : Dev nD) (i : ℕ) (hi : i < 8) (p : Fin 1024) (o : Fin 64) (k : ℕ) :
    ∀ (hk : k < 4) (hn : 4 * i + k < cfg0.N),
      acc0 V c (4 * i + k) hn (ix2 p o)
        = Cert.Spec.accum0
            (term (adjA V c) (featA V c) (wA V c) ⟨i * 1024 + p.val, by have := p.isLt; omega⟩ o) 2048 k := by
  induction k with
  | zero =>
    intro hk hn
    refine (congrFun (acc0_eq V c ⟨4 * i + 0, hn⟩) (ix2 p o)).trans ?_
    have hin : accIn0 V c ⟨4 * i + 0, hn⟩ = k0_pay1 (F := Ideal) := by
      unfold accIn0
      exact if_pos (by show (4 * i + 0) % 4 = 0; omega)
    rw [hin]
    refine (update_apply (adjA V c) (featA V c) (wA V c) (xblk V c ⟨4 * i + 0, hn⟩) (wblk V c ⟨4 * i + 0, hn⟩)
      (k0_pay1 (F := Ideal)) (ablk V c ⟨4 * i + 0, hn⟩) i 0 hi hk
      (fun p j => ablk_apply V c ⟨4 * i + 0, hn⟩ i 0 hi hk rfl p j)
      (fun j d => xblk_apply V c ⟨4 * i + 0, hn⟩ i 0 hi hk rfl j d)
      (fun d o => wblk_apply V c ⟨4 * i + 0, hn⟩ d o) p o).trans ?_
    rw [pay0_1_apply, Ideal.ofBits_zero_f32]
    rfl
  | succ k ih =>
    intro hk hn
    have hn' : 4 * i + k < cfg0.N := by omega
    refine (congrFun (acc0_eq V c ⟨4 * i + (k + 1), hn⟩) (ix2 p o)).trans ?_
    have hin : accIn0 V c ⟨4 * i + (k + 1), hn⟩ = acc0 V c (4 * i + k) hn' := by
      unfold accIn0
      rw [if_neg (by show ¬ (4 * i + (k + 1)) % 4 = 0; omega)]
      exact acc0_congr V c _ _ _ _ (by show 4 * i + (k + 1) - 1 = 4 * i + k; omega)
    rw [hin]
    refine (update_apply (adjA V c) (featA V c) (wA V c) (xblk V c ⟨4 * i + (k + 1), hn⟩)
      (wblk V c ⟨4 * i + (k + 1), hn⟩) (acc0 V c (4 * i + k) hn') (ablk V c ⟨4 * i + (k + 1), hn⟩) i (k + 1) hi hk
      (fun p j => ablk_apply V c ⟨4 * i + (k + 1), hn⟩ i (k + 1) hi hk rfl p j)
      (fun j d => xblk_apply V c ⟨4 * i + (k + 1), hn⟩ i (k + 1) hi hk rfl j d)
      (fun d o => wblk_apply V c ⟨4 * i + (k + 1), hn⟩ d o) p o).trans ?_
    rw [ih (by omega) hn']
    rfl

/-- What the last column block of row block i leaves for the write-back, at (p, o): the hidden layer's entry
    (1024·i + p, o). -/
theorem out_apply (c : Dev nD) (i : ℕ) (hi : i < 8) (hn : 4 * i + 3 < cfg0.N) (p : Fin 1024) (o : Fin 64) :
    k0_pay3 (F := Ideal) (acc0 V c (4 * i + 3) hn) (ix2 p o)
      = hidA V c (ix2 ⟨i * 1024 + p.val, by have := p.isLt; omega⟩ o) := by
  rw [pay0_3_apply, acc0_apply V c i hi p o 3 (by omega) hn, Cert.Spec.accum0_eq]
  show max _ _ = max (prop (adjA V c) (featA V c) (wA V c) _ o) zeroW
  rw [prop_eq_range]
  rfl

/-! ## From the blocks to the array -/

/-- What a point of column block 3 writes back is its block of the hidden layer. -/
theorem flushed_eq (c : Dev nD) (t : Fin cfg0.N) (h3 : t.val % 4 = 3) :
    (dat0 V c).flushed 3 t = ((cfg0.win 3).blk t).view.read (Elt Ideal) (hidA V c) := by
  show (cfg0.win 3).cut (cfg0.grid.coords t) ((dat0 V c).after 3 t) = _
  rw [after0_3]
  obtain ⟨-, -, -, -, -, -, e0, e1⟩ := idx_facts t
  have ht := lt32 t
  funext y
  obtain ⟨p, o, rfl⟩ : ∃ (p : Fin 1024) (o : Fin 64), y = ix2 p o := ⟨y 0, y 1, eq_ix2 y⟩
  show k0_pay3 (F := Ideal) (acc0 V c t.val t.isLt) (ix2 p o)
    = hidA V c (((cfg0.win 3).blk t).view.emb (ix2 p o))
  have hacc : acc0 V c t.val t.isLt = acc0 V c (4 * (t.val / 4) + 3) (by have := t.isLt; omega) :=
    acc0_congr V c _ _ _ _ (by omega)
  rw [hacc, out_apply V c (t.val / 4) (by omega) _ p o]
  refine congrArg (hidA V c) ?_
  funext a; apply Fin.ext
  match a with
  | ⟨0, _⟩ => show t.val / 4 * 1024 + p.val = win0_3.index t (0 : Fin 2) * 1024 + 1 * p.val; omega
  | ⟨1, _⟩ => show o.val = win0_3.index t (1 : Fin 2) * 64 + 1 * o.val; omega

/-- An index of the output array is in point t's block iff each coordinate is in the block's range on its axis. -/
theorem mem_blk (t : Fin cfg0.N) (i : S8192x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v0).slice (win0_3.rect t)).set ↔ _
  rw [View.set_slice_whole, Rect.mem_set_unit]
  exact Iff.rfl

/-- Row r of the output array is written back by the last column block of row block r / 1024. -/
theorem cover (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  have hN : 4 * ((i 0).val / 1024) + 3 < cfg0.N := lt_of_lt_of_eq (by omega : 4 * ((i 0).val / 1024) + 3 < 32) N_0.symm
  obtain ⟨-, -, -, -, -, -, e0, e1⟩ := idx_facts ⟨4 * ((i 0).val / 1024) + 3, hN⟩
  have e0' : win0_3.index ⟨4 * ((i 0).val / 1024) + 3, hN⟩ (0 : Fin 2) = (i 0).val / 1024 := by
    rw [e0]; show (4 * ((i 0).val / 1024) + 3) / 4 = _; omega
  refine ⟨⟨4 * ((i 0).val / 1024) + 3, hN⟩, (flush0_3 _).mpr (by show (4 * ((i 0).val / 1024) + 3) % 4 = 3; omega), ?_⟩
  rw [mem_blk]
  intro a
  match a with
  | ⟨0, _⟩ =>
    show win0_3.index ⟨4 * ((i 0).val / 1024) + 3, hN⟩ (0 : Fin 2) * 1024 ≤ (i 0).val
      ∧ (i 0).val < win0_3.index ⟨4 * ((i 0).val / 1024) + 3, hN⟩ (0 : Fin 2) * 1024 + 1024
    omega
  | ⟨1, _⟩ =>
    show win0_3.index ⟨4 * ((i 0).val / 1024) + 3, hN⟩ (1 : Fin 2) * 64 ≤ (i 1).val
      ∧ (i 1).val < win0_3.index ⟨4 * ((i 0).val / 1024) + 3, hN⟩ (1 : Fin 2) * 64 + 64
    omega

/-- Region 0 leaves the hidden layer of the arrays it finds in its output array. -/
theorem final0 (c : Dev nD) :
    (dat0 V c).arrAt 3 cfg0.N = hid (V c main_arg1) (V c main_arg0) (V c main_arg2) :=
  (dat0 V c).arrAt_eq_of_cover 3 (hidA V c) (fun t hf => flushed_eq V c t ((flush0_3 t).mp hf)) cover

end Cert.KernelIdeal.ValR0

end
-- ==== Proof.ValR1.lean ====
/-
  The second graph-convolution region leaves the specification's layer in its output array (extended reals).

  The region runs over 8 row blocks by 4 column blocks of the adjacency matrix; point t is row block t / 4, column
  block t % 4. Its adjacency window is block (t / 4, t % 4) of 1024 x 2048 entries, its feature window block t % 4 of
  2048 rows, the weights are held whole, and the output window is row block t / 4 of 1024 rows, written back at the
  points with t % 4 = 3 only. Over the extended reals one update of the carried accumulator adds, at (p, o),
      ∑ j < 2048, adj (1024 q + p, 2048 k + j) · ∑ d, feat (2048 k + j, d) · w (d, o),
  which is block k (2048 consecutive terms) of the propagation's sum over the 8192 nodes at row 1024 q + p. The
  accumulator is the zero block at column block 0, so after column block 3 it holds
      (((0 + block 0) + block 1) + block 2) + block 3,
  the whole sum: addition of extended reals is associative and commutative, nothing has to be finite. The row blocks
  written back cover the output array, so the array ends holding the layer.
-/
import proofs.«158966_j8074538516900_1_alg».proof.Proof.IdealDats
import proofs.«158966_j8074538516900_1_alg».proof.Proof.Spec
import proofs.«158966_j8074538516900_1_alg».proof.Proof.PayIdx
import proofs.«158966_j8074538516900_1_alg».proof.Proof.LibBlockSum
import Idealize.ShloMosaic.Lib.ValueIdx
import Idealize.ShloMosaic.Lib.Pipeline.Value
import Idealize.ShloMosaic.PureOps.Ideal.Laws
import Idealize.ShloMosaic.Lib.Pipeline.FrameBody

noncomputable section

namespace Cert.KernelIdeal.ValR1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayIdx

variable (V : (c : Dev nD) → (b : Ref sig .tc) → Buf (Elt Ideal) ((c : Thread nD τ).loc b))

/-! ## The arrays and the blocks, at their literal types -/

/-- The adjacency matrix as the region finds it. -/
abbrev adjA (c : Dev nD) : S8192x8192.Idx → EReal := V c main_arg1
/-- The features (the hidden layer) as the region finds them. -/
abbrev featA (c : Dev nD) : S8192x64.Idx → EReal := V c main_v0
/-- The weights. -/
abbrev wgtA (c : Dev nD) : S64x33.Idx → EReal := V c main_arg3
/-- The layer the specification states, as contents of the output array. -/
abbrev layerA (c : Dev nD) : S8192x33.Idx → EReal := Cert.GravitySpec.layer (adjA V c) (featA V c) (wgtA V c)

/-- The three input blocks at point t. -/
abbrev ablk (c : Dev nD) (t : Fin cfg1.N) : Vec Ideal S1024x2048 .f32 := iblk1 V c 0 t
abbrev xblk (c : Dev nD) (t : Fin cfg1.N) : Vec Ideal S2048x64 .f32 := iblk1 V c 1 t
abbrev wblk (c : Dev nD) (t : Fin cfg1.N) : Vec Ideal S64x33 .f32 := iblk1 V c 2 t

/-! ## The printed index maps over the grid -/

/-- The four windows' block indices at point t: the adjacency block is (t / 4, t % 4), the feature block (t % 4, 0),
    the weights' block (0, 0), the output block (t / 4, 0). Decided over the 32 points. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-! ## The blocks, read off the arrays -/

/-- The adjacency block of row block q, column block kb: entry (p, j) is the matrix's (1024 q + p, 2048 kb + j). -/
theorem ablk_apply (c : Dev nD) (t : Fin cfg1.N) (q kb : ℕ) (hq : t.val / 4 = q) (hkb : t.val % 4 = kb)
    (p : Fin 1024) (j : Fin 2048) (r k : Fin 8192)
    (hr : r.val = 1024 * q + p.val) (hk : k.val = 2048 * kb + j.val) :
    ablk V c t (ix2 p j) = adjA V c (ix2 r k) := by
  obtain ⟨e0, e1, -⟩ := idx_facts t
  show V c main_arg1 (((cfg1.win 0).blk t).view.emb (ix2 p j)) = V c main_arg1 (ix2 r k)
  refine congrArg (V c main_arg1) ?_
  funext a; apply Fin.ext
  match a with
  | ⟨0, _⟩ => show win1_0.index t (0 : Fin 2) * 1024 + 1 * p.val = r.val; omega
  | ⟨1, _⟩ => show win1_0.index t (1 : Fin 2) * 2048 + 1 * j.val = k.val; omega

/-- The feature block of column block kb: entry (j, d) is the features' (2048 kb + j, d). -/
theorem xblk_apply (c : Dev nD) (t : Fin cfg1.N) (kb : ℕ) (hkb : t.val % 4 = kb)
    (j : Fin 2048) (d : Fin 64) (k : Fin 8192) (hk : k.val = 2048 * kb + j.val) :
    xblk V c t (ix2 j d) = featA V c (ix2 k d) := by
  obtain ⟨-, -, e0, e1, -⟩ := idx_facts t
  show V c main_v0 (((cfg1.win 1).blk t).view.emb (ix2 j d)) = V c main_v0 (ix2 k d)
  refine congrArg (V c main_v0) ?_
  funext a; apply Fin.ext
  match a with
  | ⟨0, _⟩ => show win1_1.index t (0 : Fin 2) * 2048 + 1 * j.val = k.val; omega
  | ⟨1, _⟩ => show win1_1.index t (1 : Fin 2) * 64 + 1 * d.val = d.val; omega

/-- The weights' block is the whole array. -/
theorem wblk_apply (c : Dev nD) (t : Fin cfg1.N) (d : Fin 64) (o : Fin 33) :
    wblk V c t (ix2 d o) = wgtA V c (ix2 d o) := by
  obtain ⟨-, -, -, -, e0, e1, -⟩ := idx_facts t
  show V c main_arg3 (((cfg1.win 2).blk t).view.emb (ix2 d o)) = V c main_arg3 (ix2 d o)
  refine congrArg (V c main_arg3) ?_
  funext a; apply Fin.ext
  match a with
  | ⟨0, _⟩ => show win1_2.index t (0 : Fin 2) * 64 + 1 * d.val = d.val; omega
  | ⟨1, _⟩ => show win1_2.index t (1 : Fin 2) * 33 + 1 * o.val = o.val; omega

/-! ## One update of the accumulator, at an entry -/

/-- What one update adds at (p, o): the adjacency block's row p against the projected feature block's column o. -/
def addend (xa : Vec Ideal S1024x2048 .f32) (xx : Vec Ideal S2048x64 .f32) (xw : Vec Ideal S64x33 .f32)
    (p : Fin 1024) (o : Fin 33) : EReal :=
  ∑ j : Fin 2048, xa (ix2 p j) * ∑ d : Fin 64, xx (ix2 j d) * xw (ix2 d o)

/-- The accumulator after point n, at (p, o): what the point loaded there plus the point's addend. -/
theorem acc1_step (c : Dev nD) (n : ℕ) (h : n < cfg1.N) (p : Fin 1024) (o : Fin 33) :
    acc1 V c n h (ix2 p o)
      = accIn1 V c ⟨n, h⟩ (ix2 p o) + addend (ablk V c ⟨n, h⟩) (xblk V c ⟨n, h⟩) (wblk V c ⟨n, h⟩) p o :=
  (congrFun (acc1_eq V c ⟨n, h⟩) (ix2 p o)).trans
    (pay1_2_apply (xblk V c ⟨n, h⟩) (wblk V c ⟨n, h⟩) (accIn1 V c ⟨n, h⟩) (ablk V c ⟨n, h⟩) p o)

/-- At a column block 0 the point loads the zero block. -/
theorem accIn1_first (c : Dev nD) (t : Fin cfg1.N) (h0 : t.val % 4 = 0) (i : S1024x33.Idx) :
    accIn1 V c t i = 0 := by
  unfold accIn1; rw [if_pos h0]
  exact (pay1_1_apply i).trans Ideal.ofBits_zero_f32

/-- At any other column block it loads what the point before left. -/
theorem accIn1_next (c : Dev nD) (n : ℕ) (h : n + 1 < cfg1.N) (h4 : ¬(n + 1) % 4 = 0) :
    accIn1 V c ⟨n + 1, h⟩ = acc1 V c n (Nat.lt_of_succ_lt h) := by
  unfold accIn1
  show (if (n + 1) % 4 = 0 then k1_pay1 (F := Ideal) else acc1 V c (n + 1 - 1) _) = _
  rw [if_neg h4]
  rfl

/-! ## The propagation's sum, cut into the four column blocks -/

/-- The terms of the propagation's sum at row r, column o, numbered by the node (zero past the last node). -/
def term (c : Dev nD) (r : Fin 8192) (o : Fin 33) (n : ℕ) : EReal :=
  if h : n < 8192 then adjA V c (ix2 r ⟨n, h⟩) * Cert.GravitySpec.proj (featA V c) (wgtA V c) ⟨n, h⟩ o else 0

/-- The propagation at (r, o) is the sum of its terms over the 8192 nodes. -/
theorem prop_eq_range (c : Dev nD) (r : Fin 8192) (o : Fin 33) :
    Cert.GravitySpec.prop (adjA V c) (featA V c) (wgtA V c) r o = ∑ n ∈ Finset.range 8192, term V c r o n := by
  unfold Cert.GravitySpec.prop
  rw [← Fin.sum_univ_eq_sum_range (term V c r o) 8192]
  refine Finset.sum_congr rfl fun k _ => ?_
  unfold term; rw [dif_pos k.isLt]

/-- The addend of the point of row block q, column block kb, at (p, o), is block kb (2048 terms) of the sum at
    row 1024 q + p. -/
theorem addend_eq_block (c : Dev nD) (t : Fin cfg1.N) (q kb : ℕ) (hq : t.val / 4 = q) (hkb : t.val % 4 = kb)
    (p : Fin 1024) (o : Fin 33) (r : Fin 8192) (hr : r.val = 1024 * q + p.val) :
    addend (ablk V c t) (xblk V c t) (wblk V c t) p o = Cert.Spec.block (term V c r o) 2048 kb := by
  have hkb4 : kb < 4 := by omega
  unfold addend Cert.Spec.block
  rw [← Fin.sum_univ_eq_sum_range (fun κ => term V c r o (kb * 2048 + κ)) 2048]
  refine Finset.sum_congr rfl fun j _ => ?_
  have hk : kb * 2048 + j.val < 8192 := by have := j.isLt; omega
  show _ = term V c r o (kb * 2048 + j.val)
  unfold term; rw [dif_pos hk]
  refine congrArg₂ (· * ·) (ablk_apply V c t q kb hq hkb p j r ⟨_, hk⟩ hr (by show kb * 2048 + j.val = _; omega)) ?_
  unfold Cert.GravitySpec.proj
  refine Finset.sum_congr rfl fun d _ => ?_
  exact congrArg₂ (· * ·) (xblk_apply V c t kb hkb j d ⟨_, hk⟩ (by show kb * 2048 + j.val = _; omega))
    (wblk_apply V c t d o)

/-- The accumulator after the last point of row block q, at (p, o), is the propagation at row 1024 q + p. -/
theorem acc1_row (c : Dev nD) (q : ℕ) (h : 4 * q + 3 < cfg1.N) (p : Fin 1024) (o : Fin 33) (r : Fin 8192)
    (hr : r.val = 1024 * q + p.val) :
    acc1 V c (4 * q + 3) h (ix2 p o) = Cert.GravitySpec.prop (adjA V c) (featA V c) (wgtA V c) r o := by
  have hN : cfg1.N = 32 := N_1
  have h2 : 4 * q + 2 < cfg1.N := by omega
  have h1 : 4 * q + 1 < cfg1.N := by omega
  have h0 : 4 * q < cfg1.N := by omega
  have s3 := acc1_step V c (4 * q + 3) h p o
  have s2 := acc1_step V c (4 * q + 2) h2 p o
  have s1 := acc1_step V c (4 * q + 1) h1 p o
  have s0 := acc1_step V c (4 * q) h0 p o
  rw [accIn1_next V c (4 * q + 2) h (by omega),
    addend_eq_block V c ⟨4 * q + 3, h⟩ q 3 (by show (4 * q + 3) / 4 = q; omega) (by show (4 * q + 3) % 4 = 3; omega) p o r hr] at s3
  rw [accIn1_next V c (4 * q + 1) h2 (by omega),
    addend_eq_block V c ⟨4 * q + 2, h2⟩ q 2 (by show (4 * q + 2) / 4 = q; omega) (by show (4 * q + 2) % 4 = 2; omega) p o r hr] at s2
  rw [accIn1_next V c (4 * q) h1 (by omega),
    addend_eq_block V c ⟨4 * q + 1, h1⟩ q 1 (by show (4 * q + 1) / 4 = q; omega) (by show (4 * q + 1) % 4 = 1; omega) p o r hr] at s1
  rw [accIn1_first V c ⟨4 * q, h0⟩ (by show (4 * q) % 4 = 0; omega),
    addend_eq_block V c ⟨4 * q, h0⟩ q 0 (by show (4 * q) / 4 = q; omega) (by show (4 * q) % 4 = 0; omega) p o r hr] at s0
  rw [s3, s2, s1, s0, prop_eq_range]
  exact Cert.Spec.accum0_eq (term V c r o) 2048 3

/-! ## What a point writes back, and the array after the region -/

/-- The accumulator depends on the point's number only. -/
theorem acc1_congr (c : Dev nD) (n n' : ℕ) (e : n = n') (h : n < cfg1.N) (h' : n' < cfg1.N) :
    acc1 V c n h = acc1 V c n' h' := by
  subst e; rfl

/-- The block written back at the last point of a row block is that row block of the layer. -/
theorem flushed_eq (c : Dev nD) (t : Fin cfg1.N) (hf : (cfg1.win 3).flush t = true) :
    (dat1 V c).flushed 3 t = ((cfg1.win 3).blk t).view.read (Elt Ideal) (layerA V c) := by
  have hN : cfg1.N = 32 := N_1
  have h3 : t.val % 4 = 3 := (flush1_3 t).mp hf
  have hlt : t.val < cfg1.N := t.isLt
  obtain ⟨-, -, -, -, -, -, e0, e1⟩ := idx_facts t
  show (cfg1.win 3).cut (cfg1.grid.coords t) ((dat1 V c).after 3 t) = _
  rw [after1_3]
  funext y
  obtain ⟨p, o, rfl⟩ : ∃ (p : Fin 1024) (o : Fin 33), y = ix2 p o := ⟨y 0, y 1, eq_ix2 y⟩
  have hr : 1024 * (t.val / 4) + p.val < 8192 := by have := p.isLt; omega
  have hemb : ((cfg1.win 3).blk t).view.emb (ix2 p o) = ix2 (⟨1024 * (t.val / 4) + p.val, hr⟩ : Fin 8192) o := by
    funext a; apply Fin.ext
    match a with
    | ⟨0, _⟩ => show win1_3.index t (0 : Fin 2) * 1024 + 1 * p.val = 1024 * (t.val / 4) + p.val; omega
    | ⟨1, _⟩ => show win1_3.index t (1 : Fin 2) * 33 + 1 * o.val = o.val; omega
  show acc1 V c t.val t.isLt (ix2 p o) = layerA V c (((cfg1.win 3).blk t).view.emb (ix2 p o))
  rw [hemb]
  show _ = Cert.GravitySpec.prop (adjA V c) (featA V c) (wgtA V c) ⟨1024 * (t.val / 4) + p.val, hr⟩ o
  have ht : t.val = 4 * (t.val / 4) + 3 := by omega
  exact (congrFun (acc1_congr V c t.val (4 * (t.val / 4) + 3) ht t.isLt (by omega)) (ix2 p o)).trans
    (acc1_row V c (t.val / 4) (by omega) p o ⟨1024 * (t.val / 4) + p.val, hr⟩ rfl)

/-- An index of the output array is in point t's block iff each coordinate is in the block's range on its axis. -/
theorem mem_blk (t : Fin cfg1.N) (i : S8192x33.Idx) :
    i ∈ ((cfg1.win 3).blk t).view.set ↔ ∀ a : Fin 2, win1_3.index t a * S1024x33.size a ≤ (i a).val
      ∧ (i a).val < win1_3.index t a * S1024x33.size a + S1024x33.size a := by
  show i ∈ ((View.whole main_v1).slice (win1_3.rect t)).set ↔ _
  rw [View.set_slice_whole, Rect.mem_set_unit]
  exact Iff.rfl

/-- Row r of the output is written back by the last point of row block r / 1024. -/
theorem cover (i : S8192x33.Idx) :
    ∃ t : Fin cfg1.N, (cfg1.win 3).flush t = true ∧ i ∈ ((cfg1.win 3).blk t).view.set := by
  have hN : cfg1.N = 32 := N_1
  have hi0 : (i 0).val < 8192 := (i 0).isLt
  have hi1 : (i 1).val < 33 := (i 1).isLt
  have htl : 4 * ((i 0).val / 1024) + 3 < cfg1.N := by omega
  obtain ⟨-, -, -, -, -, -, e0, e1⟩ := idx_facts ⟨4 * ((i 0).val / 1024) + 3, htl⟩
  have e0' : win1_3.index ⟨4 * ((i 0).val / 1024) + 3, htl⟩ (0 : Fin 2) = (4 * ((i 0).val / 1024) + 3) / 4 := e0
  refine ⟨⟨4 * ((i 0).val / 1024) + 3, htl⟩, (flush1_3 _).mpr (by show (4 * ((i 0).val / 1024) + 3) % 4 = 3; omega), ?_⟩
  rw [mem_blk]
  intro a
  match a with
  | ⟨0, _⟩ =>
    show win1_3.index ⟨4 * ((i 0).val / 1024) + 3, htl⟩ (0 : Fin 2) * 1024 ≤ (i 0).val
      ∧ (i 0).val < win1_3.index ⟨4 * ((i 0).val / 1024) + 3, htl⟩ (0 : Fin 2) * 1024 + 1024
    omega
  | ⟨1, _⟩ =>
    show win1_3.index ⟨4 * ((i 0).val / 1024) + 3, htl⟩ (1 : Fin 2) * 33 ≤ (i 1).val
      ∧ (i 1).val < win1_3.index ⟨4 * ((i 0).val / 1024) + 3, htl⟩ (1 : Fin 2) * 33 + 33
    omega

/-- After the region the output array holds the specification's layer of the adjacency matrix, the features and
    the weights as the region found them. -/
theorem final1 (c : Dev nD) :
    (dat1 V c).arrAt 3 cfg1.N = Cert.GravitySpec.layer (V c main_arg1) (V c main_v0) (V c main_arg3) :=
  (dat1 V c).arrAt_eq_of_cover 3 (layerA V c) (fun t hf => flushed_eq V c t hf) cover

end Cert.KernelIdeal.ValR1

end
-- ==== Proof.ValR2.lean ====
/-
  The decoder's value: the host lines that prepare its inputs, and the array it leaves.

  Between the second layer and the decoder the program cuts the encoder's result z [8192, 33] into the 32 latent
  coordinates and the mass column, squares the coordinates and sums each row from the zero word, stands the sums up
  as one row [1, 8192], and transposes the mass column into one row [1, 8192]. Read at an index these are
  coordinate e of node i, node j's squared norm and node j's mass.

  The decoder runs over a grid of 8 row blocks by 16 column blocks of the output [8192, 8192], point t being row
  block t / 16 and column block t % 16, and writes its whole block back at every point. The block it stores at t,
  read at (p, q), is the score
      mass (512 (t % 16) + q) − log (((|row|² − 2 · ⟨row, row'⟩) + sqn (512 (t % 16) + q)) + ε)
  of latent rows 1024 (t / 16) + p and 512 (t % 16) + q: the two windows on the latent array, the window on the row of
  squared norms and the window on the row of masses each read their array where the output's rectangle says. The
  blocks tile the output, so after the region the output array is that score at every index, over the contents the
  region found in its three input arrays.
-/
import proofs.«158966_j8074538516900_1_alg».proof.Proof.IdealDats
import proofs.«158966_j8074538516900_1_alg».proof.Proof.Spec
import proofs.«158966_j8074538516900_1_alg».proof.Proof.PayIdx
import Idealize.ShloMosaic.Lib.ValueIdx
import Idealize.ShloMosaic.Lib.Pipeline.Value
import Idealize.ShloMosaic.PureOps.Ideal.Laws
import Idealize.ShloMosaic.Lib.Pipeline.FrameBody
import Idealize.ShloMosaic.Lib.StableHlo.Run
import Idealize.ShloMosaic.Lib.ValueLayout

noncomputable section

namespace Cert.KernelIdeal.ValR2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The host lines between the second layer and the decoder, read at an index -/

section Host

variable (W : Valuation τ sig (Elt Ideal))

/-- The encoder's result as the host lines find it. -/
abbrev zA : S8192x33.Idx → EReal := W (Proc.devRef .tc main_v1)

/-- The latent coordinates' array after the host lines is the slice of the first 32 columns. -/
theorem v2_term : (StableHlo.after hostOps2 W (Proc.devRef .tc main_v2) : S8192x32.Idx → EReal)
    = extractStridedSlice S8192x32 ![0, 0] (zA W) slices_S8192x33_S8192x32_0_0 := by
  show StableHlo.after hostOps2 W (Proc.devRef .tc main_v2) = _
  after_results

/-- The row of masses after the host lines is the last column, transposed. -/
theorem v7_term : (StableHlo.after hostOps2 W (Proc.devRef .tc main_v7) : S1x8192.Idx → EReal)
    = transpose S1x8192 [1, 0] (extractStridedSlice S8192x1 ![0, 32] (zA W) slices_S8192x33_S8192x1_0_32) transposes_S8192x1_S1x8192_1_0 := by
  show StableHlo.after hostOps2 W (Proc.devRef .tc main_v7) = _
  after_results

/-- The row of squared norms after the host lines: the squares of the latent coordinates summed along each row
    from the zero word, stood up as one row. -/
theorem v6_term : (StableHlo.after hostOps2 W (Proc.devRef .tc main_v6) : S1x8192.Idx → EReal)
    = shapeCast S1x8192 (Host.reduceAdd (F := Ideal) (mulf (extractStridedSlice S8192x32 ![0, 0] (zA W) slices_S8192x33_S8192x32_0_0) (extractStridedSlice S8192x32 ![0, 0] (zA W) slices_S8192x33_S8192x32_0_0)) (constant (F := Ideal) S_ .f32 0x00000000#32) reducesTo_S8192x32_S8192_d1 h_S_) shapeCasts_S8192_S1x8192 := by
  show StableHlo.after hostOps2 W (Proc.devRef .tc main_v6) = _
  after_results
  rfl

/-- The slice of the first 32 columns at (i, e) is latent coordinate e of node i. -/
theorem slice_coord (z : S8192x33.Idx → EReal) (k : S8192x32.Idx) (i : Fin 8192) (e : Fin 32)
    (hk0 : (k 0).val = i.val) (hk1 : (k 1).val = e.val) :
    extractStridedSlice S8192x32 ![0, 0] z slices_S8192x33_S8192x32_0_0 k = Cert.GravitySpec.coord z i e := by
  unfold Cert.GravitySpec.coord
  refine extractStridedSlice_apply _ _ _ _ _ fun a => ?_
  match a with
  | ⟨0, _⟩ => exact hk0.symm.trans (Nat.zero_add _).symm
  | ⟨1, _⟩ => exact hk1.symm.trans (Nat.zero_add _).symm

/-- After the host lines the latent coordinates' array holds coordinate e of node i at (i, e). -/
theorem host_v2 (i : Fin 8192) (e : Fin 32) :
    (StableHlo.after hostOps2 W (Proc.devRef .tc main_v2) : S8192x32.Idx → EReal) (ix2 i e)
      = Cert.GravitySpec.coord (zA W) i e := by
  rw [v2_term]
  exact slice_coord (zA W) (ix2 i e) i e rfl rfl

/-- After the host lines the row of masses holds node j's mass at (0, j). -/
theorem host_v7 (j : Fin 8192) :
    (StableHlo.after hostOps2 W (Proc.devRef .tc main_v7) : S1x8192.Idx → EReal) (ix2 0 j)
      = Cert.GravitySpec.mass (zA W) j := by
  rw [v7_term]
  refine (transpose_ix2_apply (a := 8192) (b := 1) _ transposes_S8192x1_S1x8192_1_0 0 j).trans ?_
  unfold Cert.GravitySpec.mass
  refine extractStridedSlice_apply _ _ _ _ _ fun a => ?_
  match a with
  | ⟨0, _⟩ => exact (Nat.zero_add _).symm
  | ⟨1, _⟩ => rfl

/-- After the host lines the row of squared norms holds node j's squared norm at (0, j). -/
theorem host_v6 (j : Fin 8192) :
    (StableHlo.after hostOps2 W (Proc.devRef .tc main_v6) : S1x8192.Idx → EReal) (ix2 0 j)
      = Cert.GravitySpec.sqn (zA W) j := by
  have hR : S8192x32.Reduces [1] S8192 := by decide
  rw [v6_term]
  refine (shapeCast_a_1a_apply (a := 8192) _ shapeCasts_S8192_S1x8192 0 j).trans ?_
  show Ideal.hostReduceAdd reducesTo_S8192x32_S8192_d1 _ (Ideal.ofBits .f32 0x00000000#32) (ix1 j) = _
  rw [Ideal.hostReduceAdd_single reducesTo_S8192x32_S8192_d1 hR, Ideal.ofBits_zero_f32, zero_add]
  unfold Cert.GravitySpec.sqn
  refine Finset.sum_congr rfl fun k _ => ?_
  refine (mulf_apply _ _ _).trans ?_
  have hx := slice_coord (zA W) (hR.lift (ix1 j) k) j k rfl rfl
  exact congrArg₂ (· * ·) hx hx

/-- The three host results as whole arrays. -/
theorem host_v2_arr : (StableHlo.after hostOps2 W (Proc.devRef .tc main_v2) : Cert.GravitySpec.Arr 8192 32)
    = fun i => Cert.GravitySpec.coord (zA W) (i 0) (i 1) := by
  funext i
  obtain ⟨a, b, rfl⟩ : ∃ (a : Fin 8192) (b : Fin 32), i = ix2 a b := ⟨i 0, i 1, eq_ix2 i⟩
  exact host_v2 W a b

theorem host_v6_arr : (StableHlo.after hostOps2 W (Proc.devRef .tc main_v6) : Cert.GravitySpec.Arr 1 8192)
    = fun i => Cert.GravitySpec.sqn (zA W) (i 1) := by
  funext i
  obtain ⟨u, j, rfl⟩ : ∃ (u : Fin 1) (j : Fin 8192), i = ix2 u j := ⟨i 0, i 1, eq_ix2 i⟩
  obtain rfl : u = 0 := Subsingleton.elim _ _
  exact host_v6 W j

theorem host_v7_arr : (StableHlo.after hostOps2 W (Proc.devRef .tc main_v7) : Cert.GravitySpec.Arr 1 8192)
    = fun i => Cert.GravitySpec.mass (zA W) (i 1) := by
  funext i
  obtain ⟨u, j, rfl⟩ : ∃ (u : Fin 1) (j : Fin 8192), i = ix2 u j := ⟨i 0, i 1, eq_ix2 i⟩
  obtain rfl : u = 0 := Subsingleton.elim _ _
  exact host_v7 W j

end Host

/-! ## The decoder's output array -/

section Decoder

/-- The latent coordinates, the row of squared norms and the row of masses as the decoder finds them. -/
abbrev latA (c : Dev nD) : Cert.GravitySpec.Arr 8192 32 := V c main_v2
abbrev sqA (c : Dev nD) : Cert.GravitySpec.Arr 1 8192 := V c main_v6
abbrev massA (c : Dev nD) : Cert.GravitySpec.Arr 1 8192 := V c main_v7

/-- The decoder's score of the pair (p 0, p 1) over an array of latent coordinates, a row of squared norms and a
    row of masses. -/
def decK (zl : Cert.GravitySpec.Arr 8192 32) (sq ms : Cert.GravitySpec.Arr 1 8192) : Cert.GravitySpec.Arr 8192 8192 := fun p =>
  ms (ix2 0 (p 1)) - Ideal.log ((((∑ e : Fin 32, zl (ix2 (p 0) e) * zl (ix2 (p 0) e))
    - Ideal.ofBits .f32 0x40000000#32 * ∑ e : Fin 32, zl (ix2 (p 0) e) * zl (ix2 (p 1) e))
    + sq (ix2 0 (p 1))) + Ideal.ofBits .f32 0x3C23D70A#32)

/-- The scores over the region's entry contents. -/
abbrev decG (c : Dev nD) : Cert.GravitySpec.Arr 8192 8192 := decK (latA V c) (sqA V c) (massA V c)

/-- The block indices over the grid: point t is row block t / 16 and column block t % 16. -/
theorem idx_facts : ∀ t : Fin cfg2.N,
    win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = 0 ∧ win2_2.index t (1 : Fin 2) = t.val % 16
    ∧ win2_3.index t (0 : Fin 2) = 0 ∧ win2_3.index t (1 : Fin 2) = t.val % 16
    ∧ win2_4.index t (0 : Fin 2) = t.val / 16 ∧ win2_4.index t (1 : Fin 2) = t.val % 16 :=
  (by decide +kernel : ∀ t : Fin grid2.N, _)

/-- Window 0's block at point t is rows 1024 (t / 16) + p of the latent array. -/
theorem blk0_apply (c : Dev nD) (t : Fin cfg2.N) (p : Fin 1024) (e : Fin 32) (i : Fin 8192)
    (hi : i.val = 1024 * (t.val / 16) + p.val) :
    (iblk2 V c 0 t : Vec Ideal S1024x32 .f32) (ix2 p e) = latA V c (ix2 i e) := by
  obtain ⟨e0, e1, -⟩ := idx_facts t
  unfold iblk2
  rw [View.read_apply]
  show V c main_v2 _ = V c main_v2 _
  congr 1
  funext a
  apply Fin.ext
  match a with
  | ⟨0, _⟩ => show win2_0.index t 0 * 1024 + 1 * p.val = i.val; rw [e0, hi]; omega
  | ⟨1, _⟩ => show win2_0.index t 1 * 32 + 1 * e.val = e.val; rw [e1]; omega

/-- Window 1's block at point t is rows 512 (t % 16) + q of the latent array. -/
theorem blk1_apply (c : Dev nD) (t : Fin cfg2.N) (q : Fin 512) (e : Fin 32) (i : Fin 8192)
    (hi : i.val = 512 * (t.val % 16) + q.val) :
    (iblk2 V c 1 t : Vec Ideal S512x32 .f32) (ix2 q e) = latA V c (ix2 i e) := by
  obtain ⟨-, -, e0, e1, -⟩ := idx_facts t
  unfold iblk2
  rw [View.read_apply]
  show V c main_v2 _ = V c main_v2 _
  congr 1
  funext a
  apply Fin.ext
  match a with
  | ⟨0, _⟩ => show win2_1.index t 0 * 512 + 1 * q.val = i.val; rw [e0, hi]; omega
  | ⟨1, _⟩ => show win2_1.index t 1 * 32 + 1 * e.val = e.val; rw [e1]; omega

/-- Window 2's block at point t is columns 512 (t % 16) + q of the row of squared norms. -/
theorem blk2_apply (c : Dev nD) (t : Fin cfg2.N) (q : Fin 512) (i : Fin 8192)
    (hi : i.val = 512 * (t.val % 16) + q.val) :
    (iblk2 V c 2 t : Vec Ideal S1x512 .f32) (ix2 0 q) = sqA V c (ix2 0 i) := by
  obtain ⟨-, -, -, -, e0, e1, -⟩ := idx_facts t
  unfold iblk2
  rw [View.read_apply]
  show V c main_v6 _ = V c main_v6 _
  congr 1
  funext a
  apply Fin.ext
  match a with
  | ⟨0, _⟩ => show win2_2.index t 0 * 1 + 1 * 0 = 0; rw [e0]
  | ⟨1, _⟩ => show win2_2.index t 1 * 512 + 1 * q.val = i.val; rw [e1, hi]; omega

/-- Window 3's block at point t is columns 512 (t % 16) + q of the row of masses. -/
theorem blk3_apply (c : Dev nD) (t : Fin cfg2.N) (q : Fin 512) (i : Fin 8192)
    (hi : i.val = 512 * (t.val % 16) + q.val) :
    (iblk2 V c 3 t : Vec Ideal S1x512 .f32) (ix2 0 q) = massA V c (ix2 0 i) := by
  obtain ⟨-, -, -, -, -, -, e0, e1, -⟩ := idx_facts t
  unfold iblk2
  rw [View.read_apply]
  show V c main_v7 _ = V c main_v7 _
  congr 1
  funext a
  apply Fin.ext
  match a with
  | ⟨0, _⟩ => show win2_3.index t 0 * 1 + 1 * 0 = 0; rw [e0]
  | ⟨1, _⟩ => show win2_3.index t 1 * 512 + 1 * q.val = i.val; rw [e1, hi]; omega

/-- The stored value at (p, q) of point t's block is the decoder's score at the array index under it. -/
theorem point_eq (c : Dev nD) (t : Fin cfg2.N) (p : Fin 1024) (q : Fin 512) (k : S8192x8192.Idx)
    (hk0 : (k 0).val = 1024 * (t.val / 16) + p.val) (hk1 : (k 1).val = 512 * (t.val % 16) + q.val) :
    k2_pay1 (F := Ideal) (iblk2 V c 0 t) (iblk2 V c 1 t) (iblk2 V c 2 t) (iblk2 V c 3 t) (ix2 p q) = decG V c k := by
  refine (Cert.KernelIdeal.PayIdx.pay2_1_apply (iblk2 V c 0 t) (iblk2 V c 1 t) (iblk2 V c 2 t) (iblk2 V c 3 t) p q).trans ?_
  have h0 : ∀ e : Fin 32, (iblk2 V c 0 t : Vec Ideal S1024x32 .f32) (ix2 p e) = latA V c (ix2 (k 0) e) :=
    fun e => blk0_apply V c t p e (k 0) hk0
  have h1 : ∀ e : Fin 32, (iblk2 V c 1 t : Vec Ideal S512x32 .f32) (ix2 q e) = latA V c (ix2 (k 1) e) :=
    fun e => blk1_apply V c t q e (k 1) hk1
  have h2 : (iblk2 V c 2 t : Vec Ideal S1x512 .f32) (ix2 0 q) = sqA V c (ix2 0 (k 1)) := blk2_apply V c t q (k 1) hk1
  have h3 : (iblk2 V c 3 t : Vec Ideal S1x512 .f32) (ix2 0 q) = massA V c (ix2 0 (k 1)) := blk3_apply V c t q (k 1) hk1
  show _ = decK (latA V c) (sqA V c) (massA V c) k
  unfold decK
  refine congrArg₂ (· - ·) h3 (congrArg Ideal.log (congrArg (· + Ideal.ofBits .f32 0x3C23D70A#32) (congrArg₂ (· + ·) (congrArg₂ (· - ·) ?_ (congrArg (Ideal.ofBits .f32 0x40000000#32 * ·) ?_)) h2)))
  · exact Finset.sum_congr rfl fun e _ => congrArg₂ (· * ·) (h0 e) (h0 e)
  · exact Finset.sum_congr rfl fun e _ => congrArg₂ (· * ·) (h0 e) (h1 e)

/-- What point t writes back is block t of the decoder's scores. -/
theorem flushed_eq (c : Dev nD) (t : Fin cfg2.N) :
    (dat2 V c).flushed 4 t = ((cfg2.win 4).blk t).view.read (Elt Ideal) (decG V c) := by
  obtain ⟨-, -, -, -, -, -, -, -, e0, e1⟩ := idx_facts t
  show (cfg2.win 4).cut (cfg2.grid.coords t) ((dat2 V c).after 4 t) = _
  rw [after2_4]
  funext j
  rw [View.read_apply]
  have hj : (j : S1024x512.Idx) = ix2 (j 0) (j 1) := eq_ix2 (n0 := 1024) (n1 := 512) j
  show k2_pay1 (F := Ideal) (iblk2 V c 0 t) (iblk2 V c 1 t) (iblk2 V c 2 t) (iblk2 V c 3 t) j = _
  rw [hj]
  refine point_eq V c t (j 0) (j 1) _ ?_ ?_
  · show win2_4.index t 0 * 1024 + 1 * (j 0).val = _; rw [e0]; omega
  · show win2_4.index t 1 * 512 + 1 * (j 1).val = _; rw [e1]; omega

/-- An index of the output is in point t's block iff each coordinate is in the block's range on its axis. -/
theorem mem_blk (t : Fin cfg2.N) (i : S8192x8192.Idx) :
    i ∈ ((cfg2.win 4).blk t).view.set ↔ ∀ a : Fin 2, win2_4.index t a * S1024x512.size a ≤ (i a).val ∧ (i a).val < win2_4.index t a * S1024x512.size a + S1024x512.size a := by
  show i ∈ ((View.whole main_v8).slice (win2_4.rect t)).set ↔ _
  rw [View.set_slice_whole, Rect.mem_set_unit]
  exact Iff.rfl

/-- Every index of the output is in the block of the point of its row block and column block. -/
theorem cover (i : S8192x8192.Idx) : ∃ t : Fin cfg2.N, (cfg2.win 4).flush t = true ∧ i ∈ ((cfg2.win 4).blk t).view.set := by
  have hi0 : (i 0).val < 8192 := (i 0).isLt
  have hi1 : (i 1).val < 8192 := (i 1).isLt
  have hN : cfg2.N = 128 := N_2
  refine ⟨⟨16 * ((i 0).val / 1024) + (i 1).val / 512, by rw [hN]; omega⟩, flush2_4 _, ?_⟩
  rw [mem_blk]
  obtain ⟨-, -, -, -, -, -, -, -, e0, e1⟩ := idx_facts ⟨16 * ((i 0).val / 1024) + (i 1).val / 512, by rw [hN]; omega⟩
  intro a
  match a with
  | ⟨0, _⟩ => show win2_4.index _ 0 * 1024 ≤ (i 0).val ∧ (i 0).val < win2_4.index _ 0 * 1024 + 1024; rw [e0]; dsimp only; omega
  | ⟨1, _⟩ => show win2_4.index _ 1 * 512 ≤ (i 1).val ∧ (i 1).val < win2_4.index _ 1 * 512 + 512; rw [e1]; dsimp only; omega

/-- The output array after the region is the decoder's scores over the region's entry contents. -/
theorem final2G (c : Dev nD) : (dat2 V c).arrAt 4 cfg2.N = decG V c :=
  (dat2 V c).arrAt_eq_of_cover 4 (decG V c) (fun t _ => flushed_eq V c t) cover

/-- The same, over the three arrays by name. -/
theorem final2 (c : Dev nD) : (dat2 V c).arrAt 4 cfg2.N = decK (V c main_v2) (V c main_v6) (V c main_v7) :=
  final2G V c

end Decoder

end Cert.KernelIdeal.ValR2

end
-- ==== Proof.RefRun.lean ====
/- The reference program's run and its stages read at an index: the two generated modules, gathered so that the
   modules that speak about the reference import one name. -/
import proofs.«158966_j8074538516900_1_alg».proof.Proof.Gen.ReferenceIdeal.Run
import proofs.«158966_j8074538516900_1_alg».proof.Proof.Gen.ReferenceIdeal.Read
-- ==== Proof.RefValue.lean ====
/-
  The reference program's result is the specification.

  Each stage of the reference program, read at an index, is the matching piece of the specification over the
  extended reals: the first contraction is features times weights (proj), the second the propagation over the
  nodes (prop), the maximum with the zero word the rectifier (hid), the next two contractions the second layer
  (lat); of the latent array z the leading 32 columns are the coordinates, their row sums of squares the squared
  norms (sqn), the contraction of the coordinates with their transpose the inner products (gram), column 32 the
  mass; the last stages assemble  mass j − log (((|z i|² − 2 · ⟨z i, z j⟩) + |z j|²) + ε).
-/
import proofs.«158966_j8074538516900_1_alg».proof.Proof.RefRun
import proofs.«158966_j8074538516900_1_alg».proof.Proof.Spec

noncomputable section

namespace Cert.ReferenceIdeal.RefValue

open Cert.ReferenceIdeal Cert.ReferenceIdeal.Gen Cert.ReferenceIdeal.Read Idealize.ShloMosaic
  Idealize.ShloMosaic.TcCoe Idealize.SL.Sem Idealize.ShloMosaic.ValueIdx Cert.GravitySpec

/-! ## The encoder -/

/-- The first contraction at (k, o): the sum over e of x (k, e) · w1 (e, o). -/
theorem v0_at (x : Vec Ideal S8192x512 .f32) (w1 : Vec Ideal S512x64 .f32) (k : Fin 8192) (o : Fin 64) :
    val_main_v0 (F := Ideal) x w1 (ix2 k o) = proj x w1 k o := by
  rw [val_main_v0_apply]
  unfold proj
  refine Finset.sum_congr rfl fun e _ => ?_
  rw [show lidx_main_v0 (ix2 k o) e = ix2 k e from
        funext fun a => Fin.ext (by match a with | ⟨0, _⟩ => rfl | ⟨1, _⟩ => rfl),
      show ridx_main_v0 (ix2 k o) e = ix2 e o from
        funext fun a => Fin.ext (by match a with | ⟨0, _⟩ => rfl | ⟨1, _⟩ => rfl)]

/-- The second contraction at (r, o): the propagation over the nodes. -/
theorem v1_at (x : Vec Ideal S8192x512 .f32) (adj : Vec Ideal S8192x8192 .f32) (w1 : Vec Ideal S512x64 .f32)
    (r : Fin 8192) (o : Fin 64) :
    val_main_v1 (F := Ideal) x adj w1 (ix2 r o) = prop adj x w1 r o := by
  rw [val_main_v1_apply]
  unfold prop
  refine Finset.sum_congr rfl fun k _ => ?_
  rw [show lidx_main_v1 (ix2 r o) k = ix2 r k from
        funext fun a => Fin.ext (by match a with | ⟨0, _⟩ => rfl | ⟨1, _⟩ => rfl),
      show ridx_main_v1 (ix2 r o) k = ix2 k o from
        funext fun a => Fin.ext (by match a with | ⟨0, _⟩ => rfl | ⟨1, _⟩ => rfl),
      v0_at]

/-- The rectified propagation is the hidden layer. -/
theorem v3_eq (x : Vec Ideal S8192x512 .f32) (adj : Vec Ideal S8192x8192 .f32) (w1 : Vec Ideal S512x64 .f32) :
    val_main_v3 (F := Ideal) x adj w1 = hid adj x w1 := by
  funext j
  obtain ⟨r, o, rfl⟩ : ∃ (r : Fin 8192) (o : Fin 64), j = ix2 r o := ⟨j 0, j 1, eq_ix2 j⟩
  rw [val_main_v3_apply, val_main_v2_apply, val_main_cst_apply, v1_at, Ideal.maximumf_def, Ideal.ofBits_def]
  rfl

/-- The third contraction at (k, o): hidden features times the second weights. -/
theorem v4_at (x : Vec Ideal S8192x512 .f32) (adj : Vec Ideal S8192x8192 .f32) (w1 : Vec Ideal S512x64 .f32)
    (w2 : Vec Ideal S64x33 .f32) (k : Fin 8192) (o : Fin 33) :
    val_main_v4 (F := Ideal) x adj w1 w2 (ix2 k o) = proj (hid adj x w1) w2 k o := by
  rw [val_main_v4_apply, v3_eq]
  unfold proj
  refine Finset.sum_congr rfl fun e _ => ?_
  rw [show lidx_main_v4 (ix2 k o) e = ix2 k e from
        funext fun a => Fin.ext (by match a with | ⟨0, _⟩ => rfl | ⟨1, _⟩ => rfl),
      show ridx_main_v4 (ix2 k o) e = ix2 e o from
        funext fun a => Fin.ext (by match a with | ⟨0, _⟩ => rfl | ⟨1, _⟩ => rfl)]

/-- The fourth contraction is the encoder's result. -/
theorem v5_eq (x : Vec Ideal S8192x512 .f32) (adj : Vec Ideal S8192x8192 .f32) (w1 : Vec Ideal S512x64 .f32)
    (w2 : Vec Ideal S64x33 .f32) :
    val_main_v5 (F := Ideal) x adj w1 w2 = lat adj x w1 w2 := by
  funext j
  obtain ⟨r, o, rfl⟩ : ∃ (r : Fin 8192) (o : Fin 33), j = ix2 r o := ⟨j 0, j 1, eq_ix2 j⟩
  rw [val_main_v5_apply]
  show _ = prop adj (hid adj x w1) w2 r o
  unfold prop
  refine Finset.sum_congr rfl fun k _ => ?_
  rw [show lidx_main_v5 (ix2 r o) k = ix2 r k from
        funext fun a => Fin.ext (by match a with | ⟨0, _⟩ => rfl | ⟨1, _⟩ => rfl),
      show ridx_main_v5 (ix2 r o) k = ix2 k o from
        funext fun a => Fin.ext (by match a with | ⟨0, _⟩ => rfl | ⟨1, _⟩ => rfl),
      v4_at]

/-! ## The decoder's pieces, over the latent array -/

/-- The leading 32 columns are the latent coordinates. -/
theorem v6_at (x : Vec Ideal S8192x512 .f32) (adj : Vec Ideal S8192x8192 .f32) (w1 : Vec Ideal S512x64 .f32)
    (w2 : Vec Ideal S64x33 .f32) (i : Fin 8192) (e : Fin 32) :
    val_main_v6 (F := Ideal) x adj w1 w2 (ix2 i e) = coord (lat adj x w1 w2) i e := by
  rw [val_main_v6_apply, v5_eq]
  unfold coord
  exact congrArg (lat adj x w1 w2)
    (funext fun a => Fin.ext (by match a with | ⟨0, _⟩ => rfl | ⟨1, _⟩ => rfl))

/-- The row sum of the squared coordinates, from the zero word, is the squared norm. -/
theorem v8_at (x : Vec Ideal S8192x512 .f32) (adj : Vec Ideal S8192x8192 .f32) (w1 : Vec Ideal S512x64 .f32)
    (w2 : Vec Ideal S64x33 .f32) (i : Fin 8192) :
    val_main_v8 (F := Ideal) x adj w1 w2 (ix1 i) = sqn (lat adj x w1 w2) i := by
  rw [val_main_v8_apply, val_main_cst_0_apply, Ideal.ofBits_def, Ideal.ofBits_zero_f32, zero_add]
  unfold sqn
  refine Finset.sum_congr rfl fun e _ => ?_
  rw [val_main_v7_apply,
      show idx_main_v8 (ix1 i) e = ix2 i e from
        funext fun a => Fin.ext (by match a with | ⟨0, _⟩ => rfl | ⟨1, _⟩ => rfl),
      v6_at, Ideal.mulf_def]

/-- The contraction of the coordinates with their transpose is the inner product. -/
theorem v11_at (x : Vec Ideal S8192x512 .f32) (adj : Vec Ideal S8192x8192 .f32) (w1 : Vec Ideal S512x64 .f32)
    (w2 : Vec Ideal S64x33 .f32) (p q : Fin 8192) :
    val_main_v11 (F := Ideal) x adj w1 w2 (ix2 p q) = gram (lat adj x w1 w2) p q := by
  rw [val_main_v11_apply]
  unfold gram
  refine Finset.sum_congr rfl fun e _ => ?_
  rw [val_main_v10_apply,
      show lidx_main_v11 (ix2 p q) e = ix2 p e from
        funext fun a => Fin.ext (by match a with | ⟨0, _⟩ => rfl | ⟨1, _⟩ => rfl),
      show idx_main_v10 (ridx_main_v11 (ix2 p q) e) = ix2 q e from
        funext fun a => Fin.ext (by match a with | ⟨0, _⟩ => rfl | ⟨1, _⟩ => rfl),
      v6_at, v6_at]

/-- The argument of the logarithm: the squared distance, grouped as the program groups it, plus ε. -/
theorem v20_at (x : Vec Ideal S8192x512 .f32) (adj : Vec Ideal S8192x8192 .f32) (w1 : Vec Ideal S512x64 .f32)
    (w2 : Vec Ideal S64x33 .f32) (p q : Fin 8192) :
    val_main_v20 (F := Ideal) x adj w1 w2 (ix2 p q)
      = ((sqn (lat adj x w1 w2) p - twoW * gram (lat adj x w1 w2) p q) + sqn (lat adj x w1 w2) q) + epsW := by
  rw [val_main_v20_apply, val_main_v18_apply, val_main_v15_apply, val_main_v14_apply, val_main_v9_apply,
      val_main_v13_apply, val_main_v12_apply, val_main_cst_1_apply, v11_at,
      val_main_v17_apply, val_main_v16_apply, val_main_v9_apply,
      val_main_v19_apply, val_main_cst_2_apply,
      show idx_main_v9 (idx_main_v14 (ix2 p q)) = ix1 p from
        funext fun a => Fin.ext (by match a with | ⟨0, _⟩ => rfl),
      show idx_main_v9 (idx_main_v16 (idx_main_v17 (ix2 p q))) = ix1 q from
        funext fun a => Fin.ext (by match a with | ⟨0, _⟩ => rfl),
      v8_at, v8_at, Ideal.addf_def, Ideal.addf_def, Ideal.subf_def, Ideal.mulf_def, Ideal.ofBits_def, Ideal.ofBits_def]
  rfl

/-- Column 32, transposed and spread over the rows, is the mass of the column's node. -/
theorem v23_at (x : Vec Ideal S8192x512 .f32) (adj : Vec Ideal S8192x8192 .f32) (w1 : Vec Ideal S512x64 .f32)
    (w2 : Vec Ideal S64x33 .f32) (p q : Fin 8192) :
    val_main_v23 (F := Ideal) x adj w1 w2 (ix2 p q) = mass (lat adj x w1 w2) q := by
  rw [val_main_v23_apply, val_main_v22_apply, val_main_v21_apply, v5_eq]
  unfold mass
  exact congrArg (lat adj x w1 w2)
    (funext fun a => Fin.ext (by match a with | ⟨0, _⟩ => rfl | ⟨1, _⟩ => rfl))

/-! ## The result -/

/-- The reference program's last stage is the specification. -/
theorem result_eq (x : Vec Ideal S8192x512 .f32) (adj : Vec Ideal S8192x8192 .f32) (w1 : Vec Ideal S512x64 .f32)
    (w2 : Vec Ideal S64x33 .f32) :
    val_main_v25 (F := Ideal) x adj w1 w2 = Cert.GravitySpec.out x adj w1 w2 := by
  funext j
  obtain ⟨p, q, rfl⟩ : ∃ (p : Fin 8192) (q : Fin 8192), j = ix2 p q := ⟨j 0, j 1, eq_ix2 j⟩
  rw [val_main_v25_apply, val_main_v24_apply, v23_at, v20_at, Ideal.subf_def, Ideal.hostUnary_log_def]
  rfl

/-- The run's result term, for any memory and device, is the specification of the four argument arrays. -/
theorem res_eq (m : (ℓ : Loc nD τ sig) → Buf (Elt Ideal) ℓ) (c : Dev nD) :
    Cert.ReferenceIdeal.Value.res_main_v25 (F := Ideal) m c
      = Cert.GravitySpec.out (m ((c.tc : Thread nD τ).loc main_arg0)) (m ((c.tc : Thread nD τ).loc main_arg1))
          (m ((c.tc : Thread nD τ).loc main_arg2)) (m ((c.tc : Thread nD τ).loc main_arg3)) :=
  (val_main_v25_eq (F := Ideal) m c).trans (result_eq _ _ _ _)

end Cert.ReferenceIdeal.RefValue

end
-- ==== Proof.Algebraic.lean ====
/-
  The idealized kernel program computes the specification, and so does the reference.

  Region 0 leaves the rectified first propagation in the hidden array; region 1, entered with it, leaves the second
  propagation, the encoder's result z; the host lines cut z's 32 latent columns and its mass column and sum each
  latent row's squares; region 2 writes mass j − log (((|z i|² − 2⟨z i, z j⟩) + |z j|²) + ε) at (i, j). Chained,
  the result array after region 2 is `Cert.GravitySpec.out` of the four argument arrays, which the reference's run
  reaches too.
-/
import proofs.«158966_j8074538516900_1_alg».proof.Defs
import proofs.«158966_j8074538516900_1_alg».proof.Proof.IdealRun
import proofs.«158966_j8074538516900_1_alg».proof.Proof.ValR0
import proofs.«158966_j8074538516900_1_alg».proof.Proof.ValR1
import proofs.«158966_j8074538516900_1_alg».proof.Proof.ValR2
import proofs.«158966_j8074538516900_1_alg».proof.Proof.RefValue
import proofs.«158966_j8074538516900_1_alg».proof.Proof.Spec
import proofs.«158966_j8074538516900_1_alg».proof.Proof.Gen.Pre_finite_inputs

set_option maxRecDepth 16384

noncomputable section

namespace Cert.Proof.Alg

open Idealize.ShloMosaic Idealize.ShloMosaic.TcCoe Idealize.ShloMosaic.ValueIdx Idealize.SL.Sem
open Cert.KernelIdeal Cert.KernelIdeal.Gen Cert.KernelIdeal.Hand Cert.GravitySpec

variable (m : (ℓ : Loc nD τ sig) → Buf (Elt Ideal) ℓ) (c : Dev nD)

/-- The four argument arrays at launch. -/
abbrev xA : Arr 8192 512 := m ((c.tc : Thread nD τ).loc main_arg0)
abbrev adjA : Arr 8192 8192 := m ((c.tc : Thread nD τ).loc main_arg1)
abbrev w1A : Arr 512 64 := m ((c.tc : Thread nD τ).loc main_arg2)
abbrev w2A : Arr 64 33 := m ((c.tc : Thread nD τ).loc main_arg3)

/-- Region 0 leaves the hidden layer. -/
theorem X0_eq : (X0 m c : Arr 8192 64) = hid (adjA m c) (xA m c) (w1A m c) :=
  Cert.KernelIdeal.ValR0.final0 (U0 m) c

/-- Region 1, entered with it, leaves the encoder's result. -/
theorem X1_eq : (X1 m c : Arr 8192 33) = lat (adjA m c) (xA m c) (w1A m c) (w2A m c) := by
  have h := Cert.KernelIdeal.ValR1.final1 (U1 m) c
  have e1 : (U1 m c main_arg1 : Arr 8192 8192) = adjA m c := Function.update_of_ne (StableHlo.devRef_ne_of_ne (by decide)) _ _
  have e3 : (U1 m c main_arg3 : Arr 64 33) = w2A m c := Function.update_of_ne (StableHlo.devRef_ne_of_ne (by decide)) _ _
  have e0 : (U1 m c main_v0 : Arr 8192 64) = X0 m c := Function.update_self _ _ _
  rw [e1, e3, e0, X0_eq] at h
  exact h

/-- The encoder's result as the host lines and region 2 find it. -/
theorem W2_v1 : (W2 m c (Proc.devRef .tc main_v1) : Arr 8192 33) = lat (adjA m c) (xA m c) (w1A m c) (w2A m c) :=
  (Function.update_self _ _ _).trans (X1_eq m c)

/-- Region 2 leaves the decoder's scores: the whole program's result is the specification. -/
theorem X8_eq : (X8 m c : Arr 8192 8192) = out (xA m c) (adjA m c) (w1A m c) (w2A m c) := by
  have h := Cert.KernelIdeal.ValR2.final2 (U3 m) c
  refine h.trans ?_
  have e2 : (U3 m c main_v2 : Arr 8192 32) = fun i => coord (W2 m c (Proc.devRef .tc main_v1)) (i 0) (i 1) := Cert.KernelIdeal.ValR2.host_v2_arr (W2 m c)
  have e6 : (U3 m c main_v6 : Arr 1 8192) = fun i => sqn (W2 m c (Proc.devRef .tc main_v1)) (i 1) := Cert.KernelIdeal.ValR2.host_v6_arr (W2 m c)
  have e7 : (U3 m c main_v7 : Arr 1 8192) = fun i => mass (W2 m c (Proc.devRef .tc main_v1)) (i 1) := Cert.KernelIdeal.ValR2.host_v7_arr (W2 m c)
  rw [e2, e6, e7, W2_v1]
  rfl

/-- The value claim: both programs end with the specification of the argument arrays in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => X8 m c, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq m' c, (hagree c).1, (hagree c).2.1, (hagree c).2.2.1, (hagree c).2.2.2]
  exact (X8_eq m c).symm

end Cert.Proof.Alg

end
-- ==== Proof.lean ====
/- The certificate: a two-layer graph-convolution encoder and an all-pairs gravity decoder, as three pipelined
   kernel regions, against its plain reference.

   The three frames. The two kernel programs (the word-level one and its idealization, one text at two float
   instances) run their three regions over the conditional frame: each region's record carries the body obligation of
   its proof data — for the two encoder layers an accumulator carried along the column blocks of a row block, for the
   decoder a pointwise body whose two latent windows share one array at half shares. The reference is a host program:
   its frame is its run with the result dropped.
   The ideal pass rewrote nothing, so the idealization claim is trivial.
   The value claim. At the ideal instance region 0 leaves max(adj·(x·W1), 0) in the hidden array, region 1 leaves
   adj·(h·W2), the host lines cut the latent columns and the mass column and sum the squares, and region 2 writes
   mass j − log (((|z i|² − 2⟨z i, z j⟩) + |z j|²) + ε): the specification `Cert.GravitySpec.out`, which is also what
   the reference's thirty host operations compose to. The only law used is that a sum over 8192 nodes is the sum of
   its four stretches of 2048 (addition on the extended reals is a commutative monoid; no finiteness is needed). -/
import proofs.«158966_j8074538516900_1_alg».proof.Defs
import proofs.«158966_j8074538516900_1_alg».proof.Proof.Gen.Kernel
import proofs.«158966_j8074538516900_1_alg».proof.Proof.Gen.KernelIdeal
import proofs.«158966_j8074538516900_1_alg».proof.Proof.Gen.ReferenceIdeal
import proofs.«158966_j8074538516900_1_alg».proof.Proof.Gen.Pre_finite_inputs
import proofs.«158966_j8074538516900_1_alg».proof.Proof.BitsRegs
import proofs.«158966_j8074538516900_1_alg».proof.Proof.IdealRegs
import proofs.«158966_j8074538516900_1_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Alg.algebraic⟩

end Cert.Proof

end
